-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S20000x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000 : Shape := ⟨1, ![1000000]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S1000000 : S_.BroadcastsInDim S1000000 (![] : Fin 0 → Fin S1000000.rank)
  reducesTo_S1000000_S_d0 : S1000000.ReducesTo [0] S_

variable [Facts]

def fn {F : FTy → Type} [FloatOps F] (main_arg0 : FVec F S1000000x128 .f32) (main_arg1 : IVec S1000000 32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_c_0 : IVec S_ 32 := constantI S_ 32 0#32
  let main_v4 : IVec S1000000 32 := broadcastInDim S1000000 ![] bcast_S_S1000000 main_c_0
  let main_v5 : IVec S1000000 1 := cmpi .sge main_arg1 main_v4
  let main_c_1 : IVec S_ 32 := constantI S_ 32 64#32
  let main_v6 : IVec S1000000 32 := broadcastInDim S1000000 ![] bcast_S_S1000000 main_c_1
  let main_v7 : IVec S1000000 1 := cmpi .slt main_arg1 main_v6
  let main_v8 : IVec S1000000 1 := andi main_v5 main_v7
  let main_c_2 : IVec S_ 1 := constantI S_ 1 1#1
  let main_v9 : IVec S_ 1 := (fun x v => Host.reduce IntOp.andi x v reducesTo_S1000000_S_d0 h_S_) main_v8 main_c_2
  let main_v10 : IVec S_ 1 := andi main_v3 main_v9
  main_v10
-- ==== Kernel.lean ====
abbrev S1000000x128 : Shape := ⟨2, ![1000000, 128]⟩
abbrev S1000000 : Shape := ⟨1, ![1000000]⟩
abbrev S1000000x1 : Shape := ⟨2, ![1000000, 1]⟩
abbrev S2x64x128 : Shape := ⟨3, ![2, 64, 128]⟩
abbrev S2x1x64 : Shape := ⟨3, ![2, 1, 64]⟩
abbrev S2x1x1 : Shape := ⟨3, ![2, 1, 1]⟩
abbrev S20000x128 : Shape := ⟨2, ![20000, 128]⟩
abbrev S20000x1 : Shape := ⟨2, ![20000, 1]⟩
abbrev S1x64x128 : Shape := ⟨3, ![1, 64, 128]⟩
abbrev S1x1x64 : Shape := ⟨3, ![1, 1, 64]⟩
abbrev S1x1x1 : Shape := ⟨3, ![1, 1, 1]⟩
abbrev S64x128 : Shape := ⟨2, ![64, 128]⟩
abbrev S1x64 : Shape := ⟨2, ![1, 64]⟩
abbrev S1x1 : Shape := ⟨2, ![1, 1]⟩
abbrev S20000x64 : Shape := ⟨2, ![20000, 64]⟩
abbrev S64 : Shape := ⟨1, ![64]⟩
abbrev S1x20000x128 : Shape := ⟨3, ![1, 20000, 128]⟩
abbrev S1 : Shape := ⟨1, ![1]⟩
abbrev S_ : Shape := ⟨0, ![]⟩
abbrev S64x1 : Shape := ⟨2, ![64, 1]⟩
abbrev S64x1x128 : Shape := ⟨3, ![64, 1, 128]⟩
abbrev S64x64x128 : Shape := ⟨3, ![64, 64, 128]⟩
abbrev S64x64 : Shape := ⟨2, ![64, 64]⟩
abbrev S2 : Shape := ⟨1, ![2]⟩

abbrev nBuf : Space → Nat
  | .hbm => 74
  | .vmem => 10
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S1000000x1, .i32⟩
  | .hbm, ⟨3, _⟩ => ⟨S2x64x128, .f32⟩
  | .hbm, ⟨4, _⟩ => ⟨S2x1x64, .f32⟩
  | .hbm, ⟨5, _⟩ => ⟨S2x1x1, .f32⟩
  | .hbm, ⟨6, _⟩ => ⟨S_, .f32⟩
  | .hbm, ⟨7, _⟩ => ⟨S64x128, .f32⟩
  | .hbm, ⟨8, _⟩ => ⟨S_, .f32⟩
  | .hbm, ⟨9, _⟩ => ⟨S1x64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64x1, .f32⟩
  | .hbm, ⟨18, _⟩ => ⟨S64x128, .f32⟩
  | .hbm, ⟨19, _⟩ => ⟨S64x128, .f32⟩
  | .hbm, ⟨20, _⟩ => ⟨S64x128, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S64x1x128, .f32⟩
  | .hbm, ⟨30, _⟩ => ⟨S1x64x128, .f32⟩
  | .hbm, ⟨31, _⟩ => ⟨S64x64x128, .f32⟩
  | .hbm, ⟨32, _⟩ => ⟨S64x64x128, .f32⟩
  | .hbm, ⟨33, _⟩ => ⟨S64x64x128, .f32⟩
  | .hbm, ⟨34, _⟩ => ⟨S64x64x128, .f32⟩
  | .hbm, ⟨35, _⟩ => ⟨S_, .f32⟩
  | .hbm, ⟨36, _⟩ => ⟨S64x64, .f32⟩
  | .hbm, ⟨37, _⟩ => ⟨S_, .f32⟩
  | .hbm, ⟨38, _⟩ => ⟨S64x64, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S_, .f32⟩
  | .hbm, ⟨45, _⟩ => ⟨S64x64, .f32⟩
  | .hbm, ⟨46, _⟩ => ⟨S_, .f32⟩
  | .hbm, ⟨47, _⟩ => ⟨S64x64, .f32⟩
  | .hbm, ⟨48, _⟩ => ⟨S64x64, .i32⟩
  | .hbm, ⟨49, _⟩ => ⟨S_, .i32⟩
  | .hbm, ⟨50, _⟩ => ⟨S64x64, .i32⟩
  | .hbm, ⟨51, _⟩ => ⟨S64x64, .i32⟩
  | .hbm, ⟨52, _⟩ => ⟨S64x64, .i32⟩
  | .hbm, ⟨53, _⟩ => ⟨S64x64, .i1⟩
  | .hbm, ⟨54, _⟩ => ⟨S_, .f32⟩
  | .hbm, ⟨55, _⟩ => ⟨S64x64, .f32⟩
  | .hbm, ⟨56, _⟩ => ⟨S64x64, .f32⟩
  | .hbm, ⟨57, _⟩ => ⟨S_, .f32⟩
  | .hbm, ⟨58, _⟩ => ⟨S64x64, .f32⟩
  | .hbm, ⟨59, _⟩ => ⟨S64x64, .f32⟩
  | .hbm, ⟨60, _⟩ => ⟨S_, .f32⟩
  | .hbm, ⟨61, _⟩ => ⟨S64x64, .f32⟩
  | .hbm, ⟨62, _⟩ => ⟨S64x64, .f32⟩
  | .hbm, ⟨63, _⟩ => ⟨S64x64, .f32⟩
  | .hbm, ⟨64, _⟩ => ⟨S64x64, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .local _ .vmem, ⟨0, _⟩ => ⟨S20000x128, .f32⟩
  | .local _ .vmem, ⟨1, _⟩ => ⟨S20000x128, .f32⟩
  | .local _ .vmem, ⟨2, _⟩ => ⟨S20000x1, .i32⟩
  | .local _ .vmem, ⟨3, _⟩ => ⟨S20000x1, .i32⟩
  | .local _ .vmem, ⟨4, _⟩ => ⟨S1x64x128, .f32⟩
  | .local _ .vmem, ⟨5, _⟩ => ⟨S1x64x128, .f32⟩
  | .local _ .vmem, ⟨6, _⟩ => ⟨S1x1x64, .f32⟩
  | .local _ .vmem, ⟨7, _⟩ => ⟨S1x1x64, .f32⟩
  | .local _ .vmem, ⟨8, _⟩ => ⟨S1x1x1, .f32⟩
  | .local _ .vmem, ⟨9, _⟩ => ⟨S1x1x1, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_c : Ref sig .tc := ⟨.hbm, 39, rfl⟩
abbrev main_v24 : Ref sig .tc := ⟨.hbm, 40, rfl⟩
abbrev main_c_8 : Ref sig .tc := ⟨.hbm, 41, rfl⟩
abbrev main_v25 : Ref sig .tc := ⟨.hbm, 42, rfl⟩
abbrev main_v26 : Ref sig .tc := ⟨.hbm, 43, rfl⟩
abbrev main_cst_9 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_cst : Ref sig .tc := ⟨.hbm, 54, rfl⟩
abbrev main_call1_v5 : Ref sig .tc := ⟨.hbm, 55, rfl⟩
abbrev main_v29 : Ref sig .tc := ⟨.hbm, 56, rfl⟩
abbrev main_cst_11 : Ref sig .tc := ⟨.hbm, 57, rfl⟩
abbrev main_v30 : Ref sig .tc := ⟨.hbm, 58, rfl⟩
abbrev main_v31 : Ref sig .tc := ⟨.hbm, 59, rfl⟩
abbrev main_cst_12 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_13 : Ref sig .tc := ⟨.hbm, 65, rfl⟩
abbrev main_v36 : Ref sig .tc := ⟨.hbm, 66, rfl⟩
abbrev main_cst_14 : Ref sig .tc := ⟨.hbm, 67, rfl⟩
abbrev main_v37 : Ref sig .tc := ⟨.hbm, 68, rfl⟩
abbrev main_cst_15 : Ref sig .tc := ⟨.hbm, 69, rfl⟩
abbrev main_v38 : Ref sig .tc := ⟨.hbm, 70, rfl⟩
abbrev main_cst_16 : Ref sig .tc := ⟨.hbm, 71, rfl⟩
abbrev main_v39 : Ref sig .tc := ⟨.hbm, 72, rfl⟩
abbrev main_v40 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S20000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S1000000_S1000000x1 : S1000000.ShapeCasts S1000000x1
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  shapeCasts_S1x64_S1x1x64 : S1x64.ShapeCasts S1x1x64
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S20000x128_S20000x128_0_0 : ∀ a, (![0, 0] : Fin 2 → Nat) a + S20000x128.size a ≤ S20000x128.size a
  h_S20000x128 : 0 < S20000x128.numel
  inb_S20000x1_S20000x1_0_0 : ∀ a, (![0, 0] : Fin 2 → Nat) a + S20000x1.size a ≤ S20000x1.size a
  h_S20000x1 : 0 < S20000x1.numel
  shapeCasts_S20000x1_S20000x1 : S20000x1.ShapeCasts S20000x1
  iota_S20000x64_d1_w32 : S20000x64.Iotas .tc 32 [1]
  broadcasts_S20000x1_S20000x64 : S20000x1.Broadcasts S20000x64
  natLt_1_32 : 1 < 32
  bitsLt_bf16_f32 : FTy.bits .bf16 < FTy.bits .f32
  reduces_S20000x64_S64 : S20000x64.Reduces [0] S64
  shapeCasts_S64_S1x64 : S64.ShapeCasts S1x64
  shapeCasts_S20000x128_S1x20000x128 : S20000x128.ShapeCasts S1x20000x128
  reduces_S1x20000x128_S1 : S1x20000x128.Reduces [1, 2] S1
  shapeCasts_S1_S1x1x1 : S1.ShapeCasts S1x1x1
  inpos_S1x1x1_p0_0_0 : ∀ a, (![0, 0, 0] : Fin 3 → Nat) a < S1x1x1.size a
  reducesTo_S2x64x128_S64x128_d0 : S2x64x128.ReducesTo [0] S64x128
  h_S_ : 0 < S_.numel
  reducesTo_S2x1x64_S1x64_d0 : S2x1x64.ReducesTo [0] S1x64
  shapeCasts_S1x64_S64 : S1x64.ShapeCasts S64
  reducesTo_S2x1x1_S_d0_1_2 : S2x1x1.ReducesTo [0, 1, 2] S_
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  reducesTo_S64x128_S64_d1 : S64x128.ReducesTo [1] S64
  reducesTo_S64_S_d0 : S64.ReducesTo [0] S_
  bcast_S64x128_S64x1x128_0_2 : S64x128.BroadcastsInDim S64x1x128 (![0, 2] : Fin 2 → Fin S64x1x128.rank)
  bcast_S64x128_S1x64x128_1_2 : S64x128.BroadcastsInDim S1x64x128 (![1, 2] : Fin 2 → Fin S1x64x128.rank)
  bcast_S64x1x128_S64x64x128_0_1_2 : S64x1x128.BroadcastsInDim S64x64x128 (![0, 1, 2] : Fin 3 → Fin S64x64x128.rank)
  bcast_S1x64x128_S64x64x128_0_1_2 : S1x64x128.BroadcastsInDim S64x64x128 (![0, 1, 2] : Fin 3 → Fin S64x64x128.rank)
  reducesTo_S64x64x128_S64x64_d2 : S64x64x128.ReducesTo [2] S64x64
  bcast_S_S64x64 : S_.BroadcastsInDim S64x64 (![] : Fin 0 → Fin S64x64.rank)
  bcast_S_S1 : S_.BroadcastsInDim S1 (![] : Fin 0 → Fin S1.rank)
  concatenates_S1_S1_S2_d0 : Shape.Concatenates [S1, S1] S2 0
  reducesTo_S64x64_S_d0_1 : S64x64.ReducesTo [0, 1] S_
  dot_S20000x64_S20000x128_S64x128_0_0_1_1_n_n_wf : DotDims.WF S20000x64 S20000x128 S64x128 [0] [0] [1] [1] [] []
  scatter_S64x64_S2_S__n_01_01_0_wf : ScatterDims.WF S64x64 S2 S_ [] [0, 1] [0, 1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S1000000x128.size a
  hwx0_0 : ∀ i : grid0.Coords, EltTy.bits .f32 = 32 ∨ (Rect.block (s := S1000000x128) S20000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x1.size a ≤ S1000000x1.size a
  hwx0_1 : ∀ i : grid0.Coords, EltTy.bits .i32 = 32 ∨ (Rect.block (s := S1000000x1) S20000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128.size a ≤ S2x64x128.size a
  hwx0_2 : ∀ i : grid0.Coords, EltTy.bits .f32 = 32 ∨ (Rect.block (s := S2x64x128) S1x64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x64.size a ≤ S2x1x64.size a
  hwx0_3 : ∀ i : grid0.Coords, EltTy.bits .f32 = 32 ∨ (Rect.block (s := S2x1x64) S1x1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)

variable [Facts₀]

def dot_S20000x64_S20000x128_S64x128_0_0_1_1_n_n : DotDims S20000x64 S20000x128 S64x128 where
  lhsContracting := [0]
  rhsContracting := [0]
  lhsNonContracting := [1]
  rhsNonContracting := [1]
  lhsBatch := []
  rhsBatch := []
  wf := dot_S20000x64_S20000x128_S64x128_0_0_1_1_n_n_wf
def scatter_S64x64_S2_S__n_01_01_0 : ScatterDims S64x64 S2 S_ where
  updateWindowDims := []
  insertedWindowDims := [0, 1]
  scatterDimsToOperandDims := [0, 1]
  indexVectorDim := 0
  wf := scatter_S64x64_S2_S__n_01_01_0_wf

abbrev win0_0 : Pipeline.Window sig grid0 :=
  Pipeline.Window.ofSpec (Memref.whole main_arg0) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S20000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x64x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1000000x128 : Shape := ⟨2, ![1000000, 128]⟩
abbrev S1000000 : Shape := ⟨1, ![1000000]⟩
abbrev S_ : Shape := ⟨0, ![]⟩
abbrev S64x128 : Shape := ⟨2, ![64, 128]⟩
abbrev S1000000x1 : Shape := ⟨2, ![1000000, 1]⟩
abbrev S64 : Shape := ⟨1, ![64]⟩
abbrev S64x1 : Shape := ⟨2, ![64, 1]⟩
abbrev S64x1x128 : Shape := ⟨3, ![64, 1, 128]⟩
abbrev S1x64x128 : Shape := ⟨3, ![1, 64, 128]⟩
abbrev S64x64x128 : Shape := ⟨3, ![64, 64, 128]⟩
abbrev S64x64 : Shape := ⟨2, ![64, 64]⟩
abbrev S1 : Shape := ⟨1, ![1]⟩
abbrev S2 : Shape := ⟨1, ![2]⟩

abbrev nBuf : Space → Nat
  | .hbm => 79
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S_, .f32⟩
  | .hbm, ⟨3, _⟩ => ⟨S64x128, .f32⟩
  | .hbm, ⟨4, _⟩ => ⟨S1000000x1, .i32⟩
  | .hbm, ⟨5, _⟩ => ⟨S64x128, .f32⟩
  | .hbm, ⟨6, _⟩ => ⟨S_, .f32⟩
  | .hbm, ⟨7, _⟩ => ⟨S1000000, .f32⟩
  | .hbm, ⟨8, _⟩ => ⟨S_, .f32⟩
  | .hbm, ⟨9, _⟩ => ⟨S64, .f32⟩
  | .hbm, ⟨10, _⟩ => ⟨S1000000x1, .i32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64x1, .f32⟩
  | .hbm, ⟨17, _⟩ => ⟨S64x128, .f32⟩
  | .hbm, ⟨18, _⟩ => ⟨S64x128, .f32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1000000x128, .f32⟩
  | .hbm, ⟨28, _⟩ => ⟨S1000000x128, .f32⟩
  | .hbm, ⟨29, _⟩ => ⟨S1000000x128, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S64x1x128, .f32⟩
  | .hbm, ⟨35, _⟩ => ⟨S1x64x128, .f32⟩
  | .hbm, ⟨36, _⟩ => ⟨S64x64x128, .f32⟩
  | .hbm, ⟨37, _⟩ => ⟨S64x64x128, .f32⟩
  | .hbm, ⟨38, _⟩ => ⟨S64x64x128, .f32⟩
  | .hbm, ⟨39, _⟩ => ⟨S64x64x128, .f32⟩
  | .hbm, ⟨40, _⟩ => ⟨S_, .f32⟩
  | .hbm, ⟨41, _⟩ => ⟨S64x64, .f32⟩
  | .hbm, ⟨42, _⟩ => ⟨S_, .f32⟩
  | .hbm, ⟨43, _⟩ => ⟨S64x64, .f32⟩
  | .hbm, ⟨44, _⟩ => ⟨S_, .i32⟩
  | .hbm, ⟨45, _⟩ => ⟨S1, .i32⟩
  | .hbm, ⟨46, _⟩ => ⟨S_, .i32⟩
  | .hbm, ⟨47, _⟩ => ⟨S1, .i32⟩
  | .hbm, ⟨48, _⟩ => ⟨S2, .i32⟩
  | .hbm, ⟨49, _⟩ => ⟨S_, .f32⟩
  | .hbm, ⟨50, _⟩ => ⟨S64x64, .f32⟩
  | .hbm, ⟨51, _⟩ => ⟨S_, .f32⟩
  | .hbm, ⟨52, _⟩ => ⟨S64x64, .f32⟩
  | .hbm, ⟨53, _⟩ => ⟨S64x64, .i32⟩
  | .hbm, ⟨54, _⟩ => ⟨S_, .i32⟩
  | .hbm, ⟨55, _⟩ => ⟨S64x64, .i32⟩
  | .hbm, ⟨56, _⟩ => ⟨S64x64, .i32⟩
  | .hbm, ⟨57, _⟩ => ⟨S64x64, .i32⟩
  | .hbm, ⟨58, _⟩ => ⟨S64x64, .i1⟩
  | .hbm, ⟨59, _⟩ => ⟨S_, .f32⟩
  | .hbm, ⟨60, _⟩ => ⟨S64x64, .f32⟩
  | .hbm, ⟨61, _⟩ => ⟨S64x64, .f32⟩
  | .hbm, ⟨62, _⟩ => ⟨S_, .f32⟩
  | .hbm, ⟨63, _⟩ => ⟨S64x64, .f32⟩
  | .hbm, ⟨64, _⟩ => ⟨S64x64, .f32⟩
  | .hbm, ⟨65, _⟩ => ⟨S_, .f32⟩
  | .hbm, ⟨66, _⟩ => ⟨S64x64, .f32⟩
  | .hbm, ⟨67, _⟩ => ⟨S64x64, .f32⟩
  | .hbm, ⟨68, _⟩ => ⟨S64x64, .f32⟩
  | .hbm, ⟨69, _⟩ => ⟨S64x64, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_c_8 : Ref sig .tc := ⟨.hbm, 44, rfl⟩
abbrev main_v30 : Ref sig .tc := ⟨.hbm, 45, rfl⟩
abbrev main_c_9 : Ref sig .tc := ⟨.hbm, 46, rfl⟩
abbrev main_v31 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_call1_v0 : Ref sig .tc := ⟨.hbm, 53, rfl⟩
abbrev main_call1_c : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_cst : Ref sig .tc := ⟨.hbm, 59, rfl⟩
abbrev main_call1_v5 : Ref sig .tc := ⟨.hbm, 60, rfl⟩
abbrev main_v35 : Ref sig .tc := ⟨.hbm, 61, rfl⟩
abbrev main_cst_12 : Ref sig .tc := ⟨.hbm, 62, rfl⟩
abbrev main_v36 : Ref sig .tc := ⟨.hbm, 63, rfl⟩
abbrev main_v37 : Ref sig .tc := ⟨.hbm, 64, rfl⟩
abbrev main_cst_13 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_14 : Ref sig .tc := ⟨.hbm, 70, rfl⟩
abbrev main_v42 : Ref sig .tc := ⟨.hbm, 71, rfl⟩
abbrev main_cst_15 : Ref sig .tc := ⟨.hbm, 72, rfl⟩
abbrev main_v43 : Ref sig .tc := ⟨.hbm, 73, rfl⟩
abbrev main_cst_16 : Ref sig .tc := ⟨.hbm, 74, rfl⟩
abbrev main_v44 : Ref sig .tc := ⟨.hbm, 75, rfl⟩
abbrev main_cst_17 : Ref sig .tc := ⟨.hbm, 76, rfl⟩
abbrev main_v45 : Ref sig .tc := ⟨.hbm, 77, rfl⟩
abbrev main_v46 : Ref sig .tc := ⟨.hbm, 78, rfl⟩

abbrev nD : Nat := 1
abbrev τ : Topo := Topo.v7x

variable {F : FTy → Type} [FloatOps F]

class Facts₀ : Prop where
  bcast_S_S64x128 : S_.BroadcastsInDim S64x128 (![] : Fin 0 → Fin S64x128.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  reducesTo_S1000000x128_S_d0_1 : S1000000x128.ReducesTo [0, 1] S_
  h_S_ : 0 < S_.numel
  bcast_S64x128_S64x1x128_0_2 : S64x128.BroadcastsInDim S64x1x128 (![0, 2] : Fin 2 → Fin S64x1x128.rank)
  bcast_S64x128_S1x64x128_1_2 : S64x128.BroadcastsInDim S1x64x128 (![1, 2] : Fin 2 → Fin S1x64x128.rank)
  bcast_S64x1x128_S64x64x128_0_1_2 : S64x1x128.BroadcastsInDim S64x64x128 (![0, 1, 2] : Fin 3 → Fin S64x64x128.rank)
  bcast_S1x64x128_S64x64x128_0_1_2 : S1x64x128.BroadcastsInDim S64x64x128 (![0, 1, 2] : Fin 3 → Fin S64x64x128.rank)
  reducesTo_S64x64x128_S64x64_d2 : S64x64x128.ReducesTo [2] S64x64
  bcast_S_S64x64 : S_.BroadcastsInDim S64x64 (![] : Fin 0 → Fin S64x64.rank)
  bcast_S_S1 : S_.BroadcastsInDim S1 (![] : Fin 0 → Fin S1.rank)
  concatenates_S1_S1_S2_d0 : Shape.Concatenates [S1, S1] S2 0
  reducesTo_S64x64_S_d0_1 : S64x64.ReducesTo [0, 1] S_
  scatter_S64x128_S1000000x1_S1000000x128_1_0_0_1_wf : ScatterDims.WF S64x128 S1000000x1 S1000000x128 [1] [0] [0] 1
  scatter_S64_S1000000x1_S1000000_n_0_0_1_wf : ScatterDims.WF S64 S1000000x1 S1000000 [] [0] [0] 1
  gather_S64x128_S1000000x1_S1000000x128_1_0_n_n_0_1_1128_wf : GatherDims.WF S64x128 S1000000x1 S1000000x128 [1] [0] [] [0] [] 1 ![1, 128]
  scatter_S64x64_S2_S__n_01_01_0_wf : ScatterDims.WF S64x64 S2 S_ [] [0, 1] [0, 1] 0

variable [Facts₀]

def scatter_S64x128_S1000000x1_S1000000x128_1_0_0_1 : ScatterDims S64x128 S1000000x1 S1000000x128 where
  updateWindowDims := [1]
  insertedWindowDims := [0]
  scatterDimsToOperandDims := [0]
  indexVectorDim := 1
  wf := scatter_S64x128_S1000000x1_S1000000x128_1_0_0_1_wf
def scatter_S64_S1000000x1_S1000000_n_0_0_1 : ScatterDims S64 S1000000x1 S1000000 where
  updateWindowDims := []
  insertedWindowDims := [0]
  scatterDimsToOperandDims := [0]
  indexVectorDim := 1
  wf := scatter_S64_S1000000x1_S1000000_n_0_0_1_wf
def gather_S64x128_S1000000x1_S1000000x128_1_0_n_n_0_1_1128 : GatherDims S64x128 S1000000x1 S1000000x128 where
  offsetDims := [1]
  collapsedSliceDims := [0]
  operandBatchingDims := []
  startIndicesBatchingDims := []
  startIndexMap := [0]
  indexVectorDim := 1
  sliceSizes := ![1, 128]
  wf := gather_S64x128_S1000000x1_S1000000x128_1_0_n_n_0_1_1128_wf
def scatter_S64x64_S2_S__n_01_01_0 : ScatterDims S64x64 S2 S_ where
  updateWindowDims := []
  insertedWindowDims := [0, 1]
  scatterDimsToOperandDims := [0, 1]
  indexVectorDim := 0
  wf := scatter_S64x64_S2_S__n_01_01_0_wf

class Facts : Prop extends Facts₀ where

variable [Facts]
-- ==== Proof.Kernel.Around.lean ====
/-
  @main of this program is one reshape of the label vector, the kernel's region, and 68 host operations that reduce
  the kernel's three per-core results and finish the loss. This module fixes what the region's frame is stated over:
  the buffers' contents when the region is entered (`V`: the launch memory after the one reshape), the host
  operations after the region as five lists, that they touch only buffers outside the region's scope, allocate
  nothing and write none of the region's five arrays nor the label vector, @main reduced to the region continued by
  those operations, each window's block at a grid point, that an input window's buffer holds its block at every
  point, the one branch of the body (the accumulators are reset when the inner grid coordinate is 0, that is at the
  first of each core's 25 points) in closed form over the 50 points, and the staging memrefs the body is called
  with. The grid is 2 cores × 25 steps; point t is core t / 25, step t % 25.
-/
import proofs.«404953_j32289564131920_3_alg».proof.Proof.Gen.Kernel.Launch
import proofs.«404953_j32289564131920_3_alg».proof.Proof.Gen.Kernel.Skeleton
import proofs.«404953_j32289564131920_3_alg».proof.Proof.Gen.Kernel.Points
import Idealize.ShloMosaic.Lib.Pipeline.FrameBody
import Idealize.ShloMosaic.Lib.Pipeline.FrameSuffix
import Idealize.ShloMosaic.Lib.StableHlo.Run
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the region's entry, and the operations after the region -/

/-- Core `c`'s buffer contents when the region is entered: the launch memory after the reshape of the labels. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The 68 host operations after the region, as @main's five stretches. -/
abbrev sfxOps : List (List (HloOp τ sig (Elt F))) := [hostOps1, hostOps1_1, hostOps1_2, hostOps1_3, hostOps1_4]

/-- The buffers no operation after the region may write: the region's five arrays and the label vector. -/
abbrev keepRefs : List (Ref sig .tc) := [main_arg0, main_arg1, main_v0, main_v1_0, main_v1_1, main_v1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- Each operation writes only its own result buffer, which is none of the kept ones: stretch by stretch. -/
theorem hostOps1_keeps : (hostOps1 : List (HloOp τ sig (Elt F))).Forall fun op => ∀ r ∈ keepRefs, Proc.devRef (τ := τ) .tc r ∉ op.writes := by
  simp only [List.Forall, keepRefs, List.mem_cons, List.mem_nil_iff, or_false, forall_eq_or_imp, forall_eq,
    StableHlo.nullary_writes, StableHlo.unary_writes, StableHlo.binary_writes, StableHlo.ternary_writes, StableHlo.reshape_writes, Finset.mem_singleton]
  repeat' constructor
  all_goals exact StableHlo.devRef_ne_of_ne (by decide)
theorem hostOps1_1_keeps : (hostOps1_1 : List (HloOp τ sig (Elt F))).Forall fun op => ∀ r ∈ keepRefs, Proc.devRef (τ := τ) .tc r ∉ op.writes := by
  simp only [List.Forall, keepRefs, List.mem_cons, List.mem_nil_iff, or_false, forall_eq_or_imp, forall_eq,
    StableHlo.nullary_writes, StableHlo.unary_writes, StableHlo.binary_writes, StableHlo.ternary_writes, StableHlo.reshape_writes, Finset.mem_singleton]
  repeat' constructor
  all_goals exact StableHlo.devRef_ne_of_ne (by decide)
theorem hostOps1_2_keeps : (hostOps1_2 : List (HloOp τ sig (Elt F))).Forall fun op => ∀ r ∈ keepRefs, Proc.devRef (τ := τ) .tc r ∉ op.writes := by
  simp only [List.Forall, keepRefs, List.mem_cons, List.mem_nil_iff, or_false, forall_eq_or_imp, forall_eq,
    StableHlo.nullary_writes, StableHlo.unary_writes, StableHlo.binary_writes, StableHlo.ternary_writes, StableHlo.reshape_writes, Finset.mem_singleton]
  repeat' constructor
  all_goals exact StableHlo.devRef_ne_of_ne (by decide)
theorem hostOps1_3_keeps : (hostOps1_3 : List (HloOp τ sig (Elt F))).Forall fun op => ∀ r ∈ keepRefs, Proc.devRef (τ := τ) .tc r ∉ op.writes := by
  simp only [List.Forall, keepRefs, List.mem_cons, List.mem_nil_iff, or_false, forall_eq_or_imp, forall_eq,
    StableHlo.nullary_writes, StableHlo.unary_writes, StableHlo.binary_writes, StableHlo.ternary_writes, StableHlo.reshape_writes, Finset.mem_singleton]
  repeat' constructor
  all_goals exact StableHlo.devRef_ne_of_ne (by decide)
theorem hostOps1_4_keeps : (hostOps1_4 : List (HloOp τ sig (Elt F))).Forall fun op => ∀ r ∈ keepRefs, Proc.devRef (τ := τ) .tc r ∉ op.writes := by
  simp only [List.Forall, keepRefs, List.mem_cons, List.mem_nil_iff, or_false, forall_eq_or_imp, forall_eq,
    StableHlo.nullary_writes, StableHlo.unary_writes, StableHlo.binary_writes, StableHlo.ternary_writes, StableHlo.reshape_writes, Finset.mem_singleton]
  repeat' constructor
  all_goals exact StableHlo.devRef_ne_of_ne (by decide)

/-- No operation after the region writes a kept buffer. -/
theorem sfx_keepRefs : ∀ ops ∈ (sfxOps : List (List (HloOp τ sig (Elt F)))), ∀ op ∈ ops, ∀ r ∈ keepRefs, Proc.devRef (τ := τ) .tc r ∉ op.writes := by
  intro ops hops op hop
  simp only [List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

/-- So a kept buffer holds after those operations what it held before them. -/
theorem sfx_after_keep (W : Valuation τ sig (Elt F)) (r : Ref sig .tc) (hr : r ∈ keepRefs) :
    StableHlo.after (sfxOps (F := F)).flatten W (Proc.devRef .tc r) = W (Proc.devRef .tc r) :=
  StableHlo.after_of_forall_not_mem _ W fun op hop => by
    obtain ⟨ops, hops, hop'⟩ := List.mem_flatten.mp hop
    exact sfx_keepRefs ops hops op hop' r hr

/-- @main reduces to the region CONTINUED BY the operations after it, the buffers at `V` when it is entered. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((sfxOps (F := F)).map StableHlo.seq)) :=
  Pipeline.hmain_around cfgs 0 defs₀ 𝒱₀ m main [hostOps0] sfxOps (by simp only [List.Forall]; exact hostOps0_sub)
    (by simp only [List.Forall]; exact hostOps0_fresh) main_chain

/-- The operations after the region touch the region's arrays and the buffers outside it only. -/
theorem sfx_sub : ∀ ops ∈ (sfxOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (sfxOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- And they write none of the region's five arrays. -/
theorem sfx_keeps : ∀ ops ∈ (sfxOps : List (List (HloOp τ sig (Elt F)))), ∀ op ∈ ops,
    ∀ w, Proc.devRef .tc (Pipeline.arrRef spec0 w) ∉ op.writes := by
  intro ops hops op hop w
  refine sfx_keepRefs ops hops op hop (Pipeline.arrRef spec0 w) ?_
  fin_cases w <;> simp [keepRefs, Pipeline.arrRef]

/-- The feature matrix is untouched by the reshape before the region. -/
theorem V_main_arg0 (c : Dev nD) : V m c main_arg0 = m ((c : Thread nD τ).loc main_arg0) := by
  show StableHlo.after hostOps0 (fun b => m (c, b)) (Proc.devRef .tc main_arg0) = _
  after_results
/-- So is the label vector. -/
theorem V_main_arg1 (c : Dev nD) : V m c main_arg1 = m ((c : Thread nD τ).loc main_arg1) := by
  show StableHlo.after hostOps0 (fun b => m (c, b)) (Proc.devRef .tc main_arg1) = _
  after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature window's buffer holds its block at every point, for any proof data whose array is the entry contents and
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the label window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's one branch -/

/-- The body resets its three accumulators when the inner grid coordinate is 0 (the printed scalar chain). -/
abbrev cond0_0 (i : grid0.Coords) : Prop := (Scalar.cmpi .ne (Scalar.extui (Scalar.cmpi .eq (BitVec.ofNat 32 (i 1).val) 0#32)) 0#32) = 1#1
/-- That is at the first of each core's 25 points. -/
theorem hcond0_0 : ∀ t : Fin cfg0.N, cond0_0 (grid0.coords t) ↔ t.val % 25 = 0 :=
  (by decide +kernel : ∀ t : Fin grid0.N, cond0_0 (grid0.coords t) ↔ t.val % 25 = 0)

/-! ## The staging memrefs the body is called with -/

abbrev ms0_0 (t : Fin cfg0.N) : Memref sig .tc .vmem S20000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S20000x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1 .f32 := win0_4.stage (cfg0.slots t 4)
abbrev hs0_4 (t : Fin cfg0.N) : (ms0_4 t).IsWhole := hstage0_4 ((cfg0.slots t 4).cast nbuf0_4)

/-- One staging buffer of each result window, through which its contents are stated (the choice does not matter). -/
abbrev VO0_2 : View sig .tc .vmem S1x64x128 .f32 := (Memref.whole cc0_stg2_0 : Memref sig .tc .vmem S1x64x128 .f32).view
abbrev VO0_3 : View sig .tc .vmem S1x1x64 .f32 := (Memref.whole cc0_stg3_0 : Memref sig .tc .vmem S1x1x64 .f32).view
abbrev VO0_4 : View sig .tc .vmem S1x1x1 .f32 := (Memref.whole cc0_stg4_0 : Memref sig .tc .vmem S1x1x1 .f32).view

end Cert.Kernel.Hand

end
-- ==== Proof.Kernel.RunFirst.lean ====
/-
  The kernel body run at a point where the inner grid coordinate is 0 (the first of a core's 25 points): it zeroes its
  three accumulators, then adds this block's class sums (one-hot transposed times the features), class counts and sum of
  squares. Stated on any whole staging memrefs: the two inputs at their blocks, the three results at anything; it ends
  with the inputs as they were and each result's buffer overwritten by the stores the run meets (a zero fill, then the
  update that reads it back), recorded as the list of pieces the run finds.
-/
import proofs.«404953_j32289564131920_3_alg».proof.Proof.Kernel.Around

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces each result's buffer ends with at a RESETTING point (last store first), with the proof that the body runs
    to its continuation from the inputs' blocks and any contents of the results. -/
noncomputable def kernelRun0_A (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : cond0_0 i)
    (x0 : Vec F S20000x128 .f32) (x1 : Vec F S20000x1 .i32) :
    Σ' (L2 : List (View.Piece (Elt F) S1x64x128 .f32)), Σ' (L3 : List (View.Piece (Elt F) S1x1x64 .f32)), { L4 : List (View.Piece (Elt F) S1x1x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__stats_kernel i arg2 harg2 arg3 harg3 arg4 harg4 arg5 harg5 arg6 harg6) K } := by
  refine ⟨?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

end Cert.Kernel.Hand

end
-- ==== Proof.Kernel.RunLater.lean ====
/-
  The kernel body run at a point where the inner grid coordinate is not 0: it adds this block's class sums, class
  counts and sum of squares to the three accumulators, which hold what the point before left. Stated on any whole staging
  memrefs: the two inputs at their blocks, the three results at their running contents; it ends with the inputs as they
  were and each result's buffer overwritten by the one store the run meets, recorded as a list of pieces.
-/
import proofs.«404953_j32289564131920_3_alg».proof.Proof.Kernel.RunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces each result's buffer ends with at an ACCUMULATING point, with the proof that the body runs to its
    continuation from the inputs' blocks and the results' running contents. -/
noncomputable def kernelRun0_B (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : ¬cond0_0 i)
    (x0 : Vec F S20000x128 .f32) (x1 : Vec F S20000x1 .i32) (xo2 : Vec F S1x64x128 .f32) (xo3 : Vec F S1x1x64 .f32) (xo4 : Vec F S1x1x1 .f32) :
    Σ' (L2 : List (View.Piece (Elt F) S1x64x128 .f32)), Σ' (L3 : List (View.Piece (Elt F) S1x1x64 .f32)), { L4 : List (View.Piece (Elt F) S1x1x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo2 ∗ owns (c : Thread nD τ) arg5 fullShare xo3 ∗ owns (c : Thread nD τ) arg6 fullShare xo4
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__stats_kernel i arg2 harg2 arg3 harg3 arg4 harg4 arg5 harg5 arg6 harg6) K } := by
  refine ⟨?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

end Cert.Kernel.Hand

end
-- ==== Proof.Kernel.Frame.lean ====
/-
  The frame of the program: what the three results' staging buffers hold after every grid point (the recursion
  `outsAt0`: reset at the first of a core's 25 points, accumulated over the point before otherwise), the pipeline's
  proof data over it, the body obligation at a generic point from the two runs of the body, the run of @main (the one
  reshape, the region, the 68 operations after it) and the frame claim: the program terminates without fault and its
  two argument arrays end unchanged.
-/
import proofs.«404953_j32289564131920_3_alg».proof.Proof.Kernel.RunLater

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a resetting point the stores into result 0's buffer cover it. -/
theorem cover0_A_2 (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : cond0_0 i)
    (x0 : Vec F S20000x128 .f32) (x1 : Vec F S20000x1 .i32) (y : S1x64x128.Idx) :
    ∃ pc ∈ (kernelRun0_A c i arg2 harg2 arg3 harg3 arg4 harg4 arg5 harg5 arg6 harg6 hc0 x0 x1).1, y ∈ pc.1.set :=
  View.cover_of_tiledL (kernelRun0_A c i arg2 harg2 arg3 harg3 arg4 harg4 arg5 harg5 arg6 harg6 hc0 x0 x1).1 S1x64x128.size (by sl_kernel_rfl) y

/-- What a resetting point leaves in result 0's buffer: its stores read back. -/
def out0_A_2 (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : cond0_0 i)
    (x0 : Vec F S20000x128 .f32) (x1 : Vec F S20000x1 .i32) : Vec F S1x64x128 .f32 :=
  VO0_2.read (Elt F) (VO0_2.writes (Elt F) VO0_2.junk (kernelRun0_A c i arg2 harg2 arg3 harg3 arg4 harg4 arg5 harg5 arg6 harg6 hc0 x0 x1).1)

/-- At an accumulating point the store into result 0's buffer covers it. -/
theorem cover0_B_2 (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : ¬cond0_0 i)
    (x0 : Vec F S20000x128 .f32) (x1 : Vec F S20000x1 .i32) (xo2 : Vec F S1x64x128 .f32) (xo3 : Vec F S1x1x64 .f32) (xo4 : Vec F S1x1x1 .f32) (y : S1x64x128.Idx) :
    ∃ pc ∈ (kernelRun0_B c i arg2 harg2 arg3 harg3 arg4 harg4 arg5 harg5 arg6 harg6 hc0 x0 x1 xo2 xo3 xo4).1, y ∈ pc.1.set :=
  View.cover_of_tiledL (kernelRun0_B c i arg2 harg2 arg3 harg3 arg4 harg4 arg5 harg5 arg6 harg6 hc0 x0 x1 xo2 xo3 xo4).1 S1x64x128.size (by sl_kernel_rfl) y

/-- What an accumulating point leaves in result 0's buffer, over the running contents `xo·`: its store read back. -/
def out0_B_2 (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : ¬cond0_0 i)
    (x0 : Vec F S20000x128 .f32) (x1 : Vec F S20000x1 .i32) (xo2 : Vec F S1x64x128 .f32) (xo3 : Vec F S1x1x64 .f32) (xo4 : Vec F S1x1x1 .f32) : Vec F S1x64x128 .f32 :=
  VO0_2.read (Elt F) (VO0_2.writes (Elt F) VO0_2.junk (kernelRun0_B c i arg2 harg2 arg3 harg3 arg4 harg4 arg5 harg5 arg6 harg6 hc0 x0 x1 xo2 xo3 xo4).1)

/-- At a resetting point the stores into result 1's buffer cover it. -/
theorem cover0_A_3 (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : cond0_0 i)
    (x0 : Vec F S20000x128 .f32) (x1 : Vec F S20000x1 .i32) (y : S1x1x64.Idx) :
    ∃ pc ∈ (kernelRun0_A c i arg2 harg2 arg3 harg3 arg4 harg4 arg5 harg5 arg6 harg6 hc0 x0 x1).2.1, y ∈ pc.1.set :=
  View.cover_of_tiledL (kernelRun0_A c i arg2 harg2 arg3 harg3 arg4 harg4 arg5 harg5 arg6 harg6 hc0 x0 x1).2.1 S1x1x64.size (by sl_kernel_rfl) y

/-- What a resetting point leaves in result 1's buffer: its stores read back. -/
def out0_A_3 (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : cond0_0 i)
    (x0 : Vec F S20000x128 .f32) (x1 : Vec F S20000x1 .i32) : Vec F S1x1x64 .f32 :=
  VO0_3.read (Elt F) (VO0_3.writes (Elt F) VO0_3.junk (kernelRun0_A c i arg2 harg2 arg3 harg3 arg4 harg4 arg5 harg5 arg6 harg6 hc0 x0 x1).2.1)

/-- At an accumulating point the store into result 1's buffer covers it. -/
theorem cover0_B_3 (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : ¬cond0_0 i)
    (x0 : Vec F S20000x128 .f32) (x1 : Vec F S20000x1 .i32) (xo2 : Vec F S1x64x128 .f32) (xo3 : Vec F S1x1x64 .f32) (xo4 : Vec F S1x1x1 .f32) (y : S1x1x64.Idx) :
    ∃ pc ∈ (kernelRun0_B c i arg2 harg2 arg3 harg3 arg4 harg4 arg5 harg5 arg6 harg6 hc0 x0 x1 xo2 xo3 xo4).2.1, y ∈ pc.1.set :=
  View.cover_of_tiledL (kernelRun0_B c i arg2 harg2 arg3 harg3 arg4 harg4 arg5 harg5 arg6 harg6 hc0 x0 x1 xo2 xo3 xo4).2.1 S1x1x64.size (by sl_kernel_rfl) y

/-- What an accumulating point leaves in result 1's buffer, over the running contents `xo·`: its store read back. -/
def out0_B_3 (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : ¬cond0_0 i)
    (x0 : Vec F S20000x128 .f32) (x1 : Vec F S20000x1 .i32) (xo2 : Vec F S1x64x128 .f32) (xo3 : Vec F S1x1x64 .f32) (xo4 : Vec F S1x1x1 .f32) : Vec F S1x1x64 .f32 :=
  VO0_3.read (Elt F) (VO0_3.writes (Elt F) VO0_3.junk (kernelRun0_B c i arg2 harg2 arg3 harg3 arg4 harg4 arg5 harg5 arg6 harg6 hc0 x0 x1 xo2 xo3 xo4).2.1)

/-- At a resetting point the stores into result 2's buffer cover it. -/
theorem cover0_A_4 (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : cond0_0 i)
    (x0 : Vec F S20000x128 .f32) (x1 : Vec F S20000x1 .i32) (y : S1x1x1.Idx) :
    ∃ pc ∈ (kernelRun0_A c i arg2 harg2 arg3 harg3 arg4 harg4 arg5 harg5 arg6 harg6 hc0 x0 x1).2.2.1, y ∈ pc.1.set :=
  View.cover_of_tiledL (kernelRun0_A c i arg2 harg2 arg3 harg3 arg4 harg4 arg5 harg5 arg6 harg6 hc0 x0 x1).2.2.1 S1x1x1.size (by sl_kernel_rfl) y

/-- What a resetting point leaves in result 2's buffer: its stores read back. -/
def out0_A_4 (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : cond0_0 i)
    (x0 : Vec F S20000x128 .f32) (x1 : Vec F S20000x1 .i32) : Vec F S1x1x1 .f32 :=
  VO0_4.read (Elt F) (VO0_4.writes (Elt F) VO0_4.junk (kernelRun0_A c i arg2 harg2 arg3 harg3 arg4 harg4 arg5 harg5 arg6 harg6 hc0 x0 x1).2.2.1)

/-- At an accumulating point the store into result 2's buffer covers it. -/
theorem cover0_B_4 (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : ¬cond0_0 i)
    (x0 : Vec F S20000x128 .f32) (x1 : Vec F S20000x1 .i32) (xo2 : Vec F S1x64x128 .f32) (xo3 : Vec F S1x1x64 .f32) (xo4 : Vec F S1x1x1 .f32) (y : S1x1x1.Idx) :
    ∃ pc ∈ (kernelRun0_B c i arg2 harg2 arg3 harg3 arg4 harg4 arg5 harg5 arg6 harg6 hc0 x0 x1 xo2 xo3 xo4).2.2.1, y ∈ pc.1.set :=
  View.cover_of_tiledL (kernelRun0_B c i arg2 harg2 arg3 harg3 arg4 harg4 arg5 harg5 arg6 harg6 hc0 x0 x1 xo2 xo3 xo4).2.2.1 S1x1x1.size (by sl_kernel_rfl) y

/-- What an accumulating point leaves in result 2's buffer, over the running contents `xo·`: its store read back. -/
def out0_B_4 (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : ¬cond0_0 i)
    (x0 : Vec F S20000x128 .f32) (x1 : Vec F S20000x1 .i32) (xo2 : Vec F S1x64x128 .f32) (xo3 : Vec F S1x1x64 .f32) (xo4 : Vec F S1x1x1 .f32) : Vec F S1x1x1 .f32 :=
  VO0_4.read (Elt F) (VO0_4.writes (Elt F) VO0_4.junk (kernelRun0_B c i arg2 harg2 arg3 harg3 arg4 harg4 arg5 harg5 arg6 harg6 hc0 x0 x1 xo2 xo3 xo4).2.2.1)

/-! ## What the three results' buffers hold after each point -/

/-- THE ACCUMULATION, point by point: at the first of a core's 25 points what a resetting run leaves from the point's two
    input blocks; at every other point what an accumulating run leaves from them over what the point before left (the
    buffers are not written back in between: a core's results go back to memory only after its last point). -/
def outsAt0 (c : Dev nD) : (n : ℕ) → n < cfg0.N → Vec F S1x64x128 .f32 × Vec F S1x1x64 .f32 × Vec F S1x1x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩))
  | n + 1, hn =>
    if h0 : (n + 1) % 25 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2)

/-- `outsAt0` at a resetting point. -/
theorem outsAt0_A (c : Dev nD) (t : Fin cfg0.N) (h0 : t.val % 25 = 0) :
    outsAt0 m c t.val t.isLt = (out0_A_2 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t), out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t), out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)) := by
  obtain ⟨n, hn⟩ := t
  cases n with
  | zero => exact rfl
  | succ n => exact (dif_pos h0).trans rfl

/-- `outsAt0` at an accumulating point: over what the point before left. -/
theorem outsAt0_B (c : Dev nD) (t : Fin cfg0.N) (h0 : ¬t.val % 25 = 0) :
    outsAt0 m c t.val t.isLt = (out0_B_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the three
    results' at `outsAt0`; nothing else carried, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2 := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At an accumulating point result 0's buffer holds what the body left at the point before: the point is not a core's
    first, and the buffer is written back only after a core's last point. -/
theorem before0_2_B (c : Dev nD) (t : Fin cfg0.N) (h0 : ¬t.val % 25 = 0) (d) :
    (dats m 0 c).before 2 t d = (outsAt0 m c (t.val - 1) (Nat.lt_of_le_of_lt (Nat.sub_le _ _) t.isLt)).1 := by
  have hN : t.val < 50 := lt_of_lt_of_eq t.isLt (show cfg0.N = 50 from N_0)
  rw [Dat.before_out_kept _ 2 rfl t (by omega) (Bool.eq_false_iff.mpr fun h => by have := (flush0_2 _).mp h; dsimp only at this; omega)
    (fun _ => rfl) (fun _ _ => rfl)]
  dsimp only [dats]

/-- At an accumulating point result 1's buffer holds what the body left at the point before: the point is not a core's
    first, and the buffer is written back only after a core's last point. -/
theorem before0_3_B (c : Dev nD) (t : Fin cfg0.N) (h0 : ¬t.val % 25 = 0) (d) :
    (dats m 0 c).before 3 t d = (outsAt0 m c (t.val - 1) (Nat.lt_of_le_of_lt (Nat.sub_le _ _) t.isLt)).2.1 := by
  have hN : t.val < 50 := lt_of_lt_of_eq t.isLt (show cfg0.N = 50 from N_0)
  rw [Dat.before_out_kept _ 3 rfl t (by omega) (Bool.eq_false_iff.mpr fun h => by have := (flush0_3 _).mp h; dsimp only at this; omega)
    (fun _ => rfl) (fun _ _ => rfl)]
  dsimp only [dats]

/-- At an accumulating point result 2's buffer holds what the body left at the point before: the point is not a core's
    first, and the buffer is written back only after a core's last point. -/
theorem before0_4_B (c : Dev nD) (t : Fin cfg0.N) (h0 : ¬t.val % 25 = 0) (d) :
    (dats m 0 c).before 4 t d = (outsAt0 m c (t.val - 1) (Nat.lt_of_le_of_lt (Nat.sub_le _ _) t.isLt)).2.2 := by
  have hN : t.val < 50 := lt_of_lt_of_eq t.isLt (show cfg0.N = 50 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' memrefs hold their blocks; the closed form of the branch says whether the point
    resets or accumulates; at an accumulating point the three results' buffers hold what the point before left; so the
    matching run applies, and its pieces, which cover each buffer, read back as `outsAt0`'s components. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 50 := lt_of_lt_of_eq t.isLt (show cfg0.N = 50 from N_0)
  by_cases h0 : t.val % 25 = 0
  · rw [outsAt0_A m c t h0]
    unfold out0_A_2 out0_A_3 out0_A_4; (try dsimp only)
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _)
    unfold owns; iexists _; isplitr
    swap; · iexact H4
    ipureintro; exact View.read_writes_of_cover _ _ _ _ _ (cover0_A_4 c _ _ _ _ _ _ _ _ _ _ _ _ _ _)
  · rw [outsAt0_B m c t h0]
    simp only [before0_2_B m c t h0, before0_3_B m c t h0, before0_4_B m c t h0]
    unfold out0_B_2 out0_B_3 out0_B_4; (try dsimp only)
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) _ _ _).2.2.2 Set.univ _)
    isplitl [H0]; · iexact H0
    isplitl [H1]; · iexact H1
    isplitl [H2]; · iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each of the region's five arrays at what
    the proof data give (an input as it was; a result its blocks as the last point of each core left them) and every
    other buffer as the 68 operations after the region leave it. -/
theorem run_main : θ_run defs (onTc (τ := τ) (main (F := F))) (s₀ m ρ) (Pipeline.FramePost cfgs (dats m) 0 (Pipeline.afterTail₀ cfgs (dats m) 0 (V0 m) sfxOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := sfxOps) (hsub := sfx_sub) (hfresh := sfx_fresh) (hkeep := sfx_keeps)
    (hmain := hmain m Variants.none) (hA := A_eq m) (hΦ := fun _ _ => rfl)

/-- A buffer the region does not stage and no later operation writes ends as the launch memory had it: the label vector. -/
theorem tail_main_arg1 (c : Dev nD) :
    Pipeline.afterTail₀ cfgs (dats m) 0 (V0 m) sfxOps c main_arg1 = m ((c.tc : Thread nD τ).loc main_arg1) := by
  unfold Pipeline.afterTail₀
  rw [sfx_after_keep _ main_arg1 (by simp [keepRefs]),
    Pipeline.withArrays_of_ne _ c _ _ main_arg1 (by decide)]
  exact V_main_arg1 m c

/-- THE FRAME: the program runs to the end and leaves its two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 rfl (by decide))).trans (tail_main_arg1 m c)⟩) (run_main m ρ)

end Cert.Kernel.Hand

end
-- ==== Proof.KernelIdeal.Around.lean ====
/-
  @main of this program is one reshape of the label vector, the kernel's region, and 68 host operations that reduce
  the kernel's three per-core results and finish the loss. This module fixes what the region's frame is stated over:
  the buffers' contents when the region is entered (`V`: the launch memory after the one reshape), the host
  operations after the region as five lists, that they touch only buffers outside the region's scope, allocate
  nothing and write none of the region's five arrays nor the label vector, @main reduced to the region continued by
  those operations, each window's block at a grid point, that an input window's buffer holds its block at every
  point, the one branch of the body (the accumulators are reset when the inner grid coordinate is 0, that is at the
  first of each core's 25 points) in closed form over the 50 points, and the staging memrefs the body is called
  with. The grid is 2 cores × 25 steps; point t is core t / 25, step t % 25.
-/
import proofs.«404953_j32289564131920_3_alg».proof.Proof.Gen.KernelIdeal.Launch
import proofs.«404953_j32289564131920_3_alg».proof.Proof.Gen.KernelIdeal.Skeleton
import proofs.«404953_j32289564131920_3_alg».proof.Proof.Gen.KernelIdeal.Points
import Idealize.ShloMosaic.Lib.Pipeline.FrameBody
import Idealize.ShloMosaic.Lib.Pipeline.FrameSuffix
import Idealize.ShloMosaic.Lib.StableHlo.Run
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the region's entry, and the operations after the region -/

/-- Core `c`'s buffer contents when the region is entered: the launch memory after the reshape of the labels. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The 68 host operations after the region, as @main's five stretches. -/
abbrev sfxOps : List (List (HloOp τ sig (Elt F))) := [hostOps1, hostOps1_1, hostOps1_2, hostOps1_3, hostOps1_4]

/-- The buffers no operation after the region may write: the region's five arrays and the label vector. -/
abbrev keepRefs : List (Ref sig .tc) := [main_arg0, main_arg1, main_v0, main_v1_0, main_v1_1, main_v1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- Each operation writes only its own result buffer, which is none of the kept ones: stretch by stretch. -/
theorem hostOps1_keeps : (hostOps1 : List (HloOp τ sig (Elt F))).Forall fun op => ∀ r ∈ keepRefs, Proc.devRef (τ := τ) .tc r ∉ op.writes := by
  simp only [List.Forall, keepRefs, List.mem_cons, List.mem_nil_iff, or_false, forall_eq_or_imp, forall_eq,
    StableHlo.nullary_writes, StableHlo.unary_writes, StableHlo.binary_writes, StableHlo.ternary_writes, StableHlo.reshape_writes, Finset.mem_singleton]
  repeat' constructor
  all_goals exact StableHlo.devRef_ne_of_ne (by decide)
theorem hostOps1_1_keeps : (hostOps1_1 : List (HloOp τ sig (Elt F))).Forall fun op => ∀ r ∈ keepRefs, Proc.devRef (τ := τ) .tc r ∉ op.writes := by
  simp only [List.Forall, keepRefs, List.mem_cons, List.mem_nil_iff, or_false, forall_eq_or_imp, forall_eq,
    StableHlo.nullary_writes, StableHlo.unary_writes, StableHlo.binary_writes, StableHlo.ternary_writes, StableHlo.reshape_writes, Finset.mem_singleton]
  repeat' constructor
  all_goals exact StableHlo.devRef_ne_of_ne (by decide)
theorem hostOps1_2_keeps : (hostOps1_2 : List (HloOp τ sig (Elt F))).Forall fun op => ∀ r ∈ keepRefs, Proc.devRef (τ := τ) .tc r ∉ op.writes := by
  simp only [List.Forall, keepRefs, List.mem_cons, List.mem_nil_iff, or_false, forall_eq_or_imp, forall_eq,
    StableHlo.nullary_writes, StableHlo.unary_writes, StableHlo.binary_writes, StableHlo.ternary_writes, StableHlo.reshape_writes, Finset.mem_singleton]
  repeat' constructor
  all_goals exact StableHlo.devRef_ne_of_ne (by decide)
theorem hostOps1_3_keeps : (hostOps1_3 : List (HloOp τ sig (Elt F))).Forall fun op => ∀ r ∈ keepRefs, Proc.devRef (τ := τ) .tc r ∉ op.writes := by
  simp only [List.Forall, keepRefs, List.mem_cons, List.mem_nil_iff, or_false, forall_eq_or_imp, forall_eq,
    StableHlo.nullary_writes, StableHlo.unary_writes, StableHlo.binary_writes, StableHlo.ternary_writes, StableHlo.reshape_writes, Finset.mem_singleton]
  repeat' constructor
  all_goals exact StableHlo.devRef_ne_of_ne (by decide)
theorem hostOps1_4_keeps : (hostOps1_4 : List (HloOp τ sig (Elt F))).Forall fun op => ∀ r ∈ keepRefs, Proc.devRef (τ := τ) .tc r ∉ op.writes := by
  simp only [List.Forall, keepRefs, List.mem_cons, List.mem_nil_iff, or_false, forall_eq_or_imp, forall_eq,
    StableHlo.nullary_writes, StableHlo.unary_writes, StableHlo.binary_writes, StableHlo.ternary_writes, StableHlo.reshape_writes, Finset.mem_singleton]
  repeat' constructor
  all_goals exact StableHlo.devRef_ne_of_ne (by decide)

/-- No operation after the region writes a kept buffer. -/
theorem sfx_keepRefs : ∀ ops ∈ (sfxOps : List (List (HloOp τ sig (Elt F)))), ∀ op ∈ ops, ∀ r ∈ keepRefs, Proc.devRef (τ := τ) .tc r ∉ op.writes := by
  intro ops hops op hop
  simp only [List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

/-- So a kept buffer holds after those operations what it held before them. -/
theorem sfx_after_keep (W : Valuation τ sig (Elt F)) (r : Ref sig .tc) (hr : r ∈ keepRefs) :
    StableHlo.after (sfxOps (F := F)).flatten W (Proc.devRef .tc r) = W (Proc.devRef .tc r) :=
  StableHlo.after_of_forall_not_mem _ W fun op hop => by
    obtain ⟨ops, hops, hop'⟩ := List.mem_flatten.mp hop
    exact sfx_keepRefs ops hops op hop' r hr

/-- @main reduces to the region CONTINUED BY the operations after it, the buffers at `V` when it is entered. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((sfxOps (F := F)).map StableHlo.seq)) :=
  Pipeline.hmain_around cfgs 0 defs₀ 𝒱₀ m main [hostOps0] sfxOps (by simp only [List.Forall]; exact hostOps0_sub)
    (by simp only [List.Forall]; exact hostOps0_fresh) main_chain

/-- The operations after the region touch the region's arrays and the buffers outside it only. -/
theorem sfx_sub : ∀ ops ∈ (sfxOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (sfxOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- And they write none of the region's five arrays. -/
theorem sfx_keeps : ∀ ops ∈ (sfxOps : List (List (HloOp τ sig (Elt F)))), ∀ op ∈ ops,
    ∀ w, Proc.devRef .tc (Pipeline.arrRef spec0 w) ∉ op.writes := by
  intro ops hops op hop w
  refine sfx_keepRefs ops hops op hop (Pipeline.arrRef spec0 w) ?_
  fin_cases w <;> simp [keepRefs, Pipeline.arrRef]

/-- The feature matrix is untouched by the reshape before the region. -/
theorem V_main_arg0 (c : Dev nD) : V m c main_arg0 = m ((c : Thread nD τ).loc main_arg0) := by
  show StableHlo.after hostOps0 (fun b => m (c, b)) (Proc.devRef .tc main_arg0) = _
  after_results
/-- So is the label vector. -/
theorem V_main_arg1 (c : Dev nD) : V m c main_arg1 = m ((c : Thread nD τ).loc main_arg1) := by
  show StableHlo.after hostOps0 (fun b => m (c, b)) (Proc.devRef .tc main_arg1) = _
  after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature window's buffer holds its block at every point, for any proof data whose array is the entry contents and
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the label window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's one branch -/

/-- The body resets its three accumulators when the inner grid coordinate is 0 (the printed scalar chain). -/
abbrev cond0_0 (i : grid0.Coords) : Prop := (Scalar.cmpi .ne (Scalar.extui (Scalar.cmpi .eq (BitVec.ofNat 32 (i 1).val) 0#32)) 0#32) = 1#1
/-- That is at the first of each core's 25 points. -/
theorem hcond0_0 : ∀ t : Fin cfg0.N, cond0_0 (grid0.coords t) ↔ t.val % 25 = 0 :=
  (by decide +kernel : ∀ t : Fin grid0.N, cond0_0 (grid0.coords t) ↔ t.val % 25 = 0)

/-! ## The staging memrefs the body is called with -/

abbrev ms0_0 (t : Fin cfg0.N) : Memref sig .tc .vmem S20000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S20000x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1 .f32 := win0_4.stage (cfg0.slots t 4)
abbrev hs0_4 (t : Fin cfg0.N) : (ms0_4 t).IsWhole := hstage0_4 ((cfg0.slots t 4).cast nbuf0_4)

/-- One staging buffer of each result window, through which its contents are stated (the choice does not matter). -/
abbrev VO0_2 : View sig .tc .vmem S1x64x128 .f32 := (Memref.whole cc0_stg2_0 : Memref sig .tc .vmem S1x64x128 .f32).view
abbrev VO0_3 : View sig .tc .vmem S1x1x64 .f32 := (Memref.whole cc0_stg3_0 : Memref sig .tc .vmem S1x1x64 .f32).view
abbrev VO0_4 : View sig .tc .vmem S1x1x1 .f32 := (Memref.whole cc0_stg4_0 : Memref sig .tc .vmem S1x1x1 .f32).view

end Cert.KernelIdeal.Hand

end
-- ==== Proof.KernelIdeal.RunFirst.lean ====
/-
  The kernel body run at a point where the inner grid coordinate is 0 (the first of a core's 25 points): it zeroes its
  three accumulators, then adds this block's class sums (one-hot transposed times the features), class counts and sum of
  squares. Stated on any whole staging memrefs: the two inputs at their blocks, the three results at anything; it ends
  with the inputs as they were and each result's buffer overwritten by the stores the run meets (a zero fill, then the
  update that reads it back), recorded as the list of pieces the run finds.
-/
import proofs.«404953_j32289564131920_3_alg».proof.Proof.KernelIdeal.Around

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces each result's buffer ends with at a RESETTING point (last store first), with the proof that the body runs
    to its continuation from the inputs' blocks and any contents of the results. -/
noncomputable def kernelRun0_A (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : cond0_0 i)
    (x0 : Vec F S20000x128 .f32) (x1 : Vec F S20000x1 .i32) :
    Σ' (L2 : List (View.Piece (Elt F) S1x64x128 .f32)), Σ' (L3 : List (View.Piece (Elt F) S1x1x64 .f32)), { L4 : List (View.Piece (Elt F) S1x1x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__stats_kernel i arg2 harg2 arg3 harg3 arg4 harg4 arg5 harg5 arg6 harg6) K } := by
  refine ⟨?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

end Cert.KernelIdeal.Hand

end
-- ==== Proof.KernelIdeal.RunLater.lean ====
/-
  The kernel body run at a point where the inner grid coordinate is not 0: it adds this block's class sums, class
  counts and sum of squares to the three accumulators, which hold what the point before left. Stated on any whole staging
  memrefs: the two inputs at their blocks, the three results at their running contents; it ends with the inputs as they
  were and each result's buffer overwritten by the one store the run meets, recorded as a list of pieces.
-/
import proofs.«404953_j32289564131920_3_alg».proof.Proof.KernelIdeal.RunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces each result's buffer ends with at an ACCUMULATING point, with the proof that the body runs to its
    continuation from the inputs' blocks and the results' running contents. -/
noncomputable def kernelRun0_B (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : ¬cond0_0 i)
    (x0 : Vec F S20000x128 .f32) (x1 : Vec F S20000x1 .i32) (xo2 : Vec F S1x64x128 .f32) (xo3 : Vec F S1x1x64 .f32) (xo4 : Vec F S1x1x1 .f32) :
    Σ' (L2 : List (View.Piece (Elt F) S1x64x128 .f32)), Σ' (L3 : List (View.Piece (Elt F) S1x1x64 .f32)), { L4 : List (View.Piece (Elt F) S1x1x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo2 ∗ owns (c : Thread nD τ) arg5 fullShare xo3 ∗ owns (c : Thread nD τ) arg6 fullShare xo4
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__stats_kernel i arg2 harg2 arg3 harg3 arg4 harg4 arg5 harg5 arg6 harg6) K } := by
  refine ⟨?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

end Cert.KernelIdeal.Hand

end
-- ==== Proof.KernelIdeal.Frame.lean ====
/-
  The frame of the program: what the three results' staging buffers hold after every grid point (the recursion
  `outsAt0`: reset at the first of a core's 25 points, accumulated over the point before otherwise), the pipeline's
  proof data over it, the body obligation at a generic point from the two runs of the body, the run of @main (the one
  reshape, the region, the 68 operations after it) and the frame claim: the program terminates without fault and its
  two argument arrays end unchanged.
-/
import proofs.«404953_j32289564131920_3_alg».proof.Proof.KernelIdeal.RunLater

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a resetting point the stores into result 0's buffer cover it. -/
theorem cover0_A_2 (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : cond0_0 i)
    (x0 : Vec F S20000x128 .f32) (x1 : Vec F S20000x1 .i32) (y : S1x64x128.Idx) :
    ∃ pc ∈ (kernelRun0_A c i arg2 harg2 arg3 harg3 arg4 harg4 arg5 harg5 arg6 harg6 hc0 x0 x1).1, y ∈ pc.1.set :=
  View.cover_of_tiledL (kernelRun0_A c i arg2 harg2 arg3 harg3 arg4 harg4 arg5 harg5 arg6 harg6 hc0 x0 x1).1 S1x64x128.size (by sl_kernel_rfl) y

/-- What a resetting point leaves in result 0's buffer: its stores read back. -/
def out0_A_2 (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : cond0_0 i)
    (x0 : Vec F S20000x128 .f32) (x1 : Vec F S20000x1 .i32) : Vec F S1x64x128 .f32 :=
  VO0_2.read (Elt F) (VO0_2.writes (Elt F) VO0_2.junk (kernelRun0_A c i arg2 harg2 arg3 harg3 arg4 harg4 arg5 harg5 arg6 harg6 hc0 x0 x1).1)

/-- At an accumulating point the store into result 0's buffer covers it. -/
theorem cover0_B_2 (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : ¬cond0_0 i)
    (x0 : Vec F S20000x128 .f32) (x1 : Vec F S20000x1 .i32) (xo2 : Vec F S1x64x128 .f32) (xo3 : Vec F S1x1x64 .f32) (xo4 : Vec F S1x1x1 .f32) (y : S1x64x128.Idx) :
    ∃ pc ∈ (kernelRun0_B c i arg2 harg2 arg3 harg3 arg4 harg4 arg5 harg5 arg6 harg6 hc0 x0 x1 xo2 xo3 xo4).1, y ∈ pc.1.set :=
  View.cover_of_tiledL (kernelRun0_B c i arg2 harg2 arg3 harg3 arg4 harg4 arg5 harg5 arg6 harg6 hc0 x0 x1 xo2 xo3 xo4).1 S1x64x128.size (by sl_kernel_rfl) y

/-- What an accumulating point leaves in result 0's buffer, over the running contents `xo·`: its store read back. -/
def out0_B_2 (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : ¬cond0_0 i)
    (x0 : Vec F S20000x128 .f32) (x1 : Vec F S20000x1 .i32) (xo2 : Vec F S1x64x128 .f32) (xo3 : Vec F S1x1x64 .f32) (xo4 : Vec F S1x1x1 .f32) : Vec F S1x64x128 .f32 :=
  VO0_2.read (Elt F) (VO0_2.writes (Elt F) VO0_2.junk (kernelRun0_B c i arg2 harg2 arg3 harg3 arg4 harg4 arg5 harg5 arg6 harg6 hc0 x0 x1 xo2 xo3 xo4).1)

/-- At a resetting point the stores into result 1's buffer cover it. -/
theorem cover0_A_3 (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : cond0_0 i)
    (x0 : Vec F S20000x128 .f32) (x1 : Vec F S20000x1 .i32) (y : S1x1x64.Idx) :
    ∃ pc ∈ (kernelRun0_A c i arg2 harg2 arg3 harg3 arg4 harg4 arg5 harg5 arg6 harg6 hc0 x0 x1).2.1, y ∈ pc.1.set :=
  View.cover_of_tiledL (kernelRun0_A c i arg2 harg2 arg3 harg3 arg4 harg4 arg5 harg5 arg6 harg6 hc0 x0 x1).2.1 S1x1x64.size (by sl_kernel_rfl) y

/-- What a resetting point leaves in result 1's buffer: its stores read back. -/
def out0_A_3 (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : cond0_0 i)
    (x0 : Vec F S20000x128 .f32) (x1 : Vec F S20000x1 .i32) : Vec F S1x1x64 .f32 :=
  VO0_3.read (Elt F) (VO0_3.writes (Elt F) VO0_3.junk (kernelRun0_A c i arg2 harg2 arg3 harg3 arg4 harg4 arg5 harg5 arg6 harg6 hc0 x0 x1).2.1)

/-- At an accumulating point the store into result 1's buffer covers it. -/
theorem cover0_B_3 (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : ¬cond0_0 i)
    (x0 : Vec F S20000x128 .f32) (x1 : Vec F S20000x1 .i32) (xo2 : Vec F S1x64x128 .f32) (xo3 : Vec F S1x1x64 .f32) (xo4 : Vec F S1x1x1 .f32) (y : S1x1x64.Idx) :
    ∃ pc ∈ (kernelRun0_B c i arg2 harg2 arg3 harg3 arg4 harg4 arg5 harg5 arg6 harg6 hc0 x0 x1 xo2 xo3 xo4).2.1, y ∈ pc.1.set :=
  View.cover_of_tiledL (kernelRun0_B c i arg2 harg2 arg3 harg3 arg4 harg4 arg5 harg5 arg6 harg6 hc0 x0 x1 xo2 xo3 xo4).2.1 S1x1x64.size (by sl_kernel_rfl) y

/-- What an accumulating point leaves in result 1's buffer, over the running contents `xo·`: its store read back. -/
def out0_B_3 (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : ¬cond0_0 i)
    (x0 : Vec F S20000x128 .f32) (x1 : Vec F S20000x1 .i32) (xo2 : Vec F S1x64x128 .f32) (xo3 : Vec F S1x1x64 .f32) (xo4 : Vec F S1x1x1 .f32) : Vec F S1x1x64 .f32 :=
  VO0_3.read (Elt F) (VO0_3.writes (Elt F) VO0_3.junk (kernelRun0_B c i arg2 harg2 arg3 harg3 arg4 harg4 arg5 harg5 arg6 harg6 hc0 x0 x1 xo2 xo3 xo4).2.1)

/-- At a resetting point the stores into result 2's buffer cover it. -/
theorem cover0_A_4 (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : cond0_0 i)
    (x0 : Vec F S20000x128 .f32) (x1 : Vec F S20000x1 .i32) (y : S1x1x1.Idx) :
    ∃ pc ∈ (kernelRun0_A c i arg2 harg2 arg3 harg3 arg4 harg4 arg5 harg5 arg6 harg6 hc0 x0 x1).2.2.1, y ∈ pc.1.set :=
  View.cover_of_tiledL (kernelRun0_A c i arg2 harg2 arg3 harg3 arg4 harg4 arg5 harg5 arg6 harg6 hc0 x0 x1).2.2.1 S1x1x1.size (by sl_kernel_rfl) y

/-- What a resetting point leaves in result 2's buffer: its stores read back. -/
def out0_A_4 (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : cond0_0 i)
    (x0 : Vec F S20000x128 .f32) (x1 : Vec F S20000x1 .i32) : Vec F S1x1x1 .f32 :=
  VO0_4.read (Elt F) (VO0_4.writes (Elt F) VO0_4.junk (kernelRun0_A c i arg2 harg2 arg3 harg3 arg4 harg4 arg5 harg5 arg6 harg6 hc0 x0 x1).2.2.1)

/-- At an accumulating point the store into result 2's buffer covers it. -/
theorem cover0_B_4 (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : ¬cond0_0 i)
    (x0 : Vec F S20000x128 .f32) (x1 : Vec F S20000x1 .i32) (xo2 : Vec F S1x64x128 .f32) (xo3 : Vec F S1x1x64 .f32) (xo4 : Vec F S1x1x1 .f32) (y : S1x1x1.Idx) :
    ∃ pc ∈ (kernelRun0_B c i arg2 harg2 arg3 harg3 arg4 harg4 arg5 harg5 arg6 harg6 hc0 x0 x1 xo2 xo3 xo4).2.2.1, y ∈ pc.1.set :=
  View.cover_of_tiledL (kernelRun0_B c i arg2 harg2 arg3 harg3 arg4 harg4 arg5 harg5 arg6 harg6 hc0 x0 x1 xo2 xo3 xo4).2.2.1 S1x1x1.size (by sl_kernel_rfl) y

/-- What an accumulating point leaves in result 2's buffer, over the running contents `xo·`: its store read back. -/
def out0_B_4 (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : ¬cond0_0 i)
    (x0 : Vec F S20000x128 .f32) (x1 : Vec F S20000x1 .i32) (xo2 : Vec F S1x64x128 .f32) (xo3 : Vec F S1x1x64 .f32) (xo4 : Vec F S1x1x1 .f32) : Vec F S1x1x1 .f32 :=
  VO0_4.read (Elt F) (VO0_4.writes (Elt F) VO0_4.junk (kernelRun0_B c i arg2 harg2 arg3 harg3 arg4 harg4 arg5 harg5 arg6 harg6 hc0 x0 x1 xo2 xo3 xo4).2.2.1)

/-! ## What the three results' buffers hold after each point -/

/-- THE ACCUMULATION, point by point: at the first of a core's 25 points what a resetting run leaves from the point's two
    input blocks; at every other point what an accumulating run leaves from them over what the point before left (the
    buffers are not written back in between: a core's results go back to memory only after its last point). -/
def outsAt0 (c : Dev nD) : (n : ℕ) → n < cfg0.N → Vec F S1x64x128 .f32 × Vec F S1x1x64 .f32 × Vec F S1x1x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩))
  | n + 1, hn =>
    if h0 : (n + 1) % 25 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2)

/-- `outsAt0` at a resetting point. -/
theorem outsAt0_A (c : Dev nD) (t : Fin cfg0.N) (h0 : t.val % 25 = 0) :
    outsAt0 m c t.val t.isLt = (out0_A_2 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t), out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t), out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)) := by
  obtain ⟨n, hn⟩ := t
  cases n with
  | zero => exact rfl
  | succ n => exact (dif_pos h0).trans rfl

/-- `outsAt0` at an accumulating point: over what the point before left. -/
theorem outsAt0_B (c : Dev nD) (t : Fin cfg0.N) (h0 : ¬t.val % 25 = 0) :
    outsAt0 m c t.val t.isLt = (out0_B_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the three
    results' at `outsAt0`; nothing else carried, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2 := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At an accumulating point result 0's buffer holds what the body left at the point before: the point is not a core's
    first, and the buffer is written back only after a core's last point. -/
theorem before0_2_B (c : Dev nD) (t : Fin cfg0.N) (h0 : ¬t.val % 25 = 0) (d) :
    (dats m 0 c).before 2 t d = (outsAt0 m c (t.val - 1) (Nat.lt_of_le_of_lt (Nat.sub_le _ _) t.isLt)).1 := by
  have hN : t.val < 50 := lt_of_lt_of_eq t.isLt (show cfg0.N = 50 from N_0)
  rw [Dat.before_out_kept _ 2 rfl t (by omega) (Bool.eq_false_iff.mpr fun h => by have := (flush0_2 _).mp h; dsimp only at this; omega)
    (fun _ => rfl) (fun _ _ => rfl)]
  dsimp only [dats]

/-- At an accumulating point result 1's buffer holds what the body left at the point before: the point is not a core's
    first, and the buffer is written back only after a core's last point. -/
theorem before0_3_B (c : Dev nD) (t : Fin cfg0.N) (h0 : ¬t.val % 25 = 0) (d) :
    (dats m 0 c).before 3 t d = (outsAt0 m c (t.val - 1) (Nat.lt_of_le_of_lt (Nat.sub_le _ _) t.isLt)).2.1 := by
  have hN : t.val < 50 := lt_of_lt_of_eq t.isLt (show cfg0.N = 50 from N_0)
  rw [Dat.before_out_kept _ 3 rfl t (by omega) (Bool.eq_false_iff.mpr fun h => by have := (flush0_3 _).mp h; dsimp only at this; omega)
    (fun _ => rfl) (fun _ _ => rfl)]
  dsimp only [dats]

/-- At an accumulating point result 2's buffer holds what the body left at the point before: the point is not a core's
    first, and the buffer is written back only after a core's last point. -/
theorem before0_4_B (c : Dev nD) (t : Fin cfg0.N) (h0 : ¬t.val % 25 = 0) (d) :
    (dats m 0 c).before 4 t d = (outsAt0 m c (t.val - 1) (Nat.lt_of_le_of_lt (Nat.sub_le _ _) t.isLt)).2.2 := by
  have hN : t.val < 50 := lt_of_lt_of_eq t.isLt (show cfg0.N = 50 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' memrefs hold their blocks; the closed form of the branch says whether the point
    resets or accumulates; at an accumulating point the three results' buffers hold what the point before left; so the
    matching run applies, and its pieces, which cover each buffer, read back as `outsAt0`'s components. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 50 := lt_of_lt_of_eq t.isLt (show cfg0.N = 50 from N_0)
  by_cases h0 : t.val % 25 = 0
  · rw [outsAt0_A m c t h0]
    unfold out0_A_2 out0_A_3 out0_A_4; (try dsimp only)
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _)
    unfold owns; iexists _; isplitr
    swap; · iexact H4
    ipureintro; exact View.read_writes_of_cover _ _ _ _ _ (cover0_A_4 c _ _ _ _ _ _ _ _ _ _ _ _ _ _)
  · rw [outsAt0_B m c t h0]
    simp only [before0_2_B m c t h0, before0_3_B m c t h0, before0_4_B m c t h0]
    unfold out0_B_2 out0_B_3 out0_B_4; (try dsimp only)
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) _ _ _).2.2.2 Set.univ _)
    isplitl [H0]; · iexact H0
    isplitl [H1]; · iexact H1
    isplitl [H2]; · iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each of the region's five arrays at what
    the proof data give (an input as it was; a result its blocks as the last point of each core left them) and every
    other buffer as the 68 operations after the region leave it. -/
theorem run_main : θ_run defs (onTc (τ := τ) (main (F := F))) (s₀ m ρ) (Pipeline.FramePost cfgs (dats m) 0 (Pipeline.afterTail₀ cfgs (dats m) 0 (V0 m) sfxOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := sfxOps) (hsub := sfx_sub) (hfresh := sfx_fresh) (hkeep := sfx_keeps)
    (hmain := hmain m Variants.none) (hA := A_eq m) (hΦ := fun _ _ => rfl)

/-- A buffer the region does not stage and no later operation writes ends as the launch memory had it: the label vector. -/
theorem tail_main_arg1 (c : Dev nD) :
    Pipeline.afterTail₀ cfgs (dats m) 0 (V0 m) sfxOps c main_arg1 = m ((c.tc : Thread nD τ).loc main_arg1) := by
  unfold Pipeline.afterTail₀
  rw [sfx_after_keep _ main_arg1 (by simp [keepRefs]),
    Pipeline.withArrays_of_ne _ c _ _ main_arg1 (by decide)]
  exact V_main_arg1 m c

/-- THE FRAME: the program runs to the end and leaves its two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 rfl (by decide))).trans (tail_main_arg1 m c)⟩) (run_main m ρ)

end Cert.KernelIdeal.Hand

end
-- ==== Proof.KernelIdeal.Pieces.lean ====
/-
  The body's stores read back as values. The two runs of the kernel body (at a point that resets the accumulators and at
  a point that accumulates) found each result buffer's contents as a list of stores; here each list is read back as the
  body's own arithmetic: the update of the class sums, of the class counts and of the sum of squares, applied to the zero
  fill read back (at a resetting point) or to the running contents (at an accumulating point).
-/
import proofs.«404953_j32289564131920_3_alg».proof.Proof.KernelIdeal.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a rank-3 and of a rank-2 whole-buffer access. -/
theorem zeroOff3 : (![0, 0, 0] : Fin 3 → Nat) = fun _ => 0 := funext fun a => by fin_cases a <;> rfl
theorem zeroOff2 : (![0, 0] : Fin 2 → Nat) = fun _ => 0 := funext fun a => by fin_cases a <;> rfl

/-- At a resetting point result 0's buffer ends at the update of the zero fill, which the body stored first and read back. -/
theorem out0_A_2_eq (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : cond0_0 i)
    (x0 : Vec F S20000x128 .f32) (x1 : Vec F S20000x1 .i32) :
    out0_A_2 c i arg2 harg2 arg3 harg3 arg4 harg4 arg5 harg5 arg6 harg6 hc0 x0 x1 = k0_pay6 x0 x1 (k0_pay2 (F := F)) := by
  unfold out0_A_2
  rw [View.read_writes_eq_canon _ _ _ (cover0_A_2 c i arg2 harg2 arg3 harg3 arg4 harg4 arg5 harg5 arg6 harg6 hc0 x0 x1)]
  unfold kernelRun0_A
  dsimp only
  sl_unfold_words
  rw [View.canon_cons_unit_zero (S := S1x64x128) zeroOff3, View.readCov_unit_zero (S := S1x64x128) _ zeroOff3]
  simp only [View.readAt_eq_ld, harg2.read_unread, harg3.read_unread,
    View.ld_unit_zero (S := S20000x128) zeroOff2, View.ld_unit_zero (S := S20000x1) zeroOff2, View.readCov_unit_zero (S := S1x64x128) _ zeroOff3]

/-- At a resetting point result 1's buffer ends at the update of the zero fill, which the body stored first and read back. -/
theorem out0_A_3_eq (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : cond0_0 i)
    (x0 : Vec F S20000x128 .f32) (x1 : Vec F S20000x1 .i32) :
    out0_A_3 c i arg2 harg2 arg3 harg3 arg4 harg4 arg5 harg5 arg6 harg6 hc0 x0 x1 = k0_pay7 x1 (k0_pay3 (F := F)) := by
  unfold out0_A_3
  rw [View.read_writes_eq_canon _ _ _ (cover0_A_3 c i arg2 harg2 arg3 harg3 arg4 harg4 arg5 harg5 arg6 harg6 hc0 x0 x1)]
  unfold kernelRun0_A
  dsimp only
  sl_unfold_words
  rw [View.canon_cons_unit_zero (S := S1x1x64) zeroOff3, View.readCov_unit_zero (S := S1x1x64) _ zeroOff3]
  simp only [View.readAt_eq_ld, harg2.read_unread, harg3.read_unread,
    View.ld_unit_zero (S := S20000x128) zeroOff2, View.ld_unit_zero (S := S20000x1) zeroOff2, View.readCov_unit_zero (S := S1x1x64) _ zeroOff3]

/-- At a resetting point result 2's buffer ends at the update of the zero fill, which the body stored first and read back. -/
theorem out0_A_4_eq (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : cond0_0 i)
    (x0 : Vec F S20000x128 .f32) (x1 : Vec F S20000x1 .i32) :
    out0_A_4 c i arg2 harg2 arg3 harg3 arg4 harg4 arg5 harg5 arg6 harg6 hc0 x0 x1 = k0_pay1 (k0_pay8 (k0_pay4 (F := F))) (k0_pay9 x0) := by
  unfold out0_A_4
  rw [View.read_writes_eq_canon _ _ _ (cover0_A_4 c i arg2 harg2 arg3 harg3 arg4 harg4 arg5 harg5 arg6 harg6 hc0 x0 x1)]
  unfold kernelRun0_A
  dsimp only
  sl_unfold_words
  rw [View.canon_cons_unit_zero (S := S1x1x1) zeroOff3, View.readCov_unit_zero (S := S1x1x1) _ zeroOff3]
  simp only [View.readAt_eq_ld, harg2.read_unread, harg3.read_unread,
    View.ld_unit_zero (S := S20000x128) zeroOff2, View.ld_unit_zero (S := S20000x1) zeroOff2, View.readCov_unit_zero (S := S1x1x1) _ zeroOff3]

/-- At an accumulating point result 0's buffer ends at the update of its running contents. -/
theorem out0_B_2_eq (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : ¬cond0_0 i)
    (x0 : Vec F S20000x128 .f32) (x1 : Vec F S20000x1 .i32) (xo2 : Vec F S1x64x128 .f32) (xo3 : Vec F S1x1x64 .f32) (xo4 : Vec F S1x1x1 .f32) :
    out0_B_2 c i arg2 harg2 arg3 harg3 arg4 harg4 arg5 harg5 arg6 harg6 hc0 x0 x1 xo2 xo3 xo4 = k0_pay6 x0 x1 xo2 := by
  unfold out0_B_2
  rw [View.read_writes_eq_canon _ _ _ (cover0_B_2 c i arg2 harg2 arg3 harg3 arg4 harg4 arg5 harg5 arg6 harg6 hc0 x0 x1 xo2 xo3 xo4)]
  unfold kernelRun0_B
  dsimp only
  sl_unfold_words
  rw [View.canon_unit_zero zeroOff3]
  simp only [View.readAt_eq_ld, harg2.read_unread, harg3.read_unread, harg4.read_unread, harg5.read_unread, harg6.read_unread,
    View.ld_unit_zero (S := S20000x128) zeroOff2, View.ld_unit_zero (S := S20000x1) zeroOff2, View.ld_unit_zero (S := S1x64x128) zeroOff3]

/-- At an accumulating point result 1's buffer ends at the update of its running contents. -/
theorem out0_B_3_eq (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : ¬cond0_0 i)
    (x0 : Vec F S20000x128 .f32) (x1 : Vec F S20000x1 .i32) (xo2 : Vec F S1x64x128 .f32) (xo3 : Vec F S1x1x64 .f32) (xo4 : Vec F S1x1x1 .f32) :
    out0_B_3 c i arg2 harg2 arg3 harg3 arg4 harg4 arg5 harg5 arg6 harg6 hc0 x0 x1 xo2 xo3 xo4 = k0_pay7 x1 xo3 := by
  unfold out0_B_3
  rw [View.read_writes_eq_canon _ _ _ (cover0_B_3 c i arg2 harg2 arg3 harg3 arg4 harg4 arg5 harg5 arg6 harg6 hc0 x0 x1 xo2 xo3 xo4)]
  unfold kernelRun0_B
  dsimp only
  sl_unfold_words
  rw [View.canon_unit_zero zeroOff3]
  simp only [View.readAt_eq_ld, harg2.read_unread, harg3.read_unread, harg4.read_unread, harg5.read_unread, harg6.read_unread,
    View.ld_unit_zero (S := S20000x128) zeroOff2, View.ld_unit_zero (S := S20000x1) zeroOff2, View.ld_unit_zero (S := S1x1x64) zeroOff3]

/-- At an accumulating point result 2's buffer ends at the update of its running contents. -/
theorem out0_B_4_eq (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : ¬cond0_0 i)
    (x0 : Vec F S20000x128 .f32) (x1 : Vec F S20000x1 .i32) (xo2 : Vec F S1x64x128 .f32) (xo3 : Vec F S1x1x64 .f32) (xo4 : Vec F S1x1x1 .f32) :
    out0_B_4 c i arg2 harg2 arg3 harg3 arg4 harg4 arg5 harg5 arg6 harg6 hc0 x0 x1 xo2 xo3 xo4 = k0_pay1 (k0_pay8 xo4) (k0_pay9 x0) := by
  unfold out0_B_4
  rw [View.read_writes_eq_canon _ _ _ (cover0_B_4 c i arg2 harg2 arg3 harg3 arg4 harg4 arg5 harg5 arg6 harg6 hc0 x0 x1 xo2 xo3 xo4)]
  unfold kernelRun0_B
  dsimp only
  sl_unfold_words
  rw [View.canon_unit_zero zeroOff3]
  simp only [View.readAt_eq_ld, harg2.read_unread, harg3.read_unread, harg4.read_unread, harg5.read_unread, harg6.read_unread,
    View.ld_unit_zero (S := S20000x128) zeroOff2, View.ld_unit_zero (S := S20000x1) zeroOff2, View.ld_unit_zero (S := S1x1x1) zeroOff3]

end Cert.KernelIdeal.Hand

end
-- ==== Proof.Spec.lean ====
/-
  The quantities both programs are written in terms of, as plain functions of the two argument arrays: the feature
  matrix X (1,000,000 rows of 128 extended reals) and the label vector T (1,000,000 words). For a class k < 64:
  the one-hot weight of row i (1 if T i is the word k, else 0), the class's sum of rows, its count, the sum of all
  squares; and the same three sums taken over one core's half of the rows, block by block (2 cores, 25 blocks of
  20,000 rows each), which is how the kernel accumulates them.
-/
import Idealize.ShloMosaic.PureOps.Ideal
import Idealize.ShloMosaic.Lib.ValueIdx

noncomputable section

open scoped BigOperators

namespace Cert.Centroid

open Idealize.ShloMosaic Idealize.ShloMosaic.ValueIdx

/-- The feature matrix's shape, the label vector's, and the shapes of the kernel's three per-core results. -/
abbrev SX : Shape := ⟨2, ![1000000, 128]⟩
abbrev ST : Shape := ⟨1, ![1000000]⟩
abbrev SP : Shape := ⟨3, ![2, 64, 128]⟩
abbrev SC : Shape := ⟨3, ![2, 1, 64]⟩
abbrev SQ : Shape := ⟨3, ![2, 1, 1]⟩

/-- The one-hot weight of row `i` for class `k`: 1 when the row's label is the word `k`, else 0. -/
def oh (T : IVec ST 32) (i : Fin 1000000) (k : Fin 64) : EReal :=
  if T (ix1 i) = BitVec.ofNat 32 k.val then 1 else 0

/-- Class `k`'s sum of feature `d` over all rows. -/
def classSum (X : FVec Ideal SX .f32) (T : IVec ST 32) (k : Fin 64) (d : Fin 128) : EReal :=
  ∑ i : Fin 1000000, oh T i k * (X (ix2 i d) : EReal)

/-- Class `k`'s number of rows. -/
def classCount (T : IVec ST 32) (k : Fin 64) : EReal := ∑ i : Fin 1000000, oh T i k

/-- The sum of the squares of all features. -/
def sqSum (X : FVec Ideal SX .f32) : EReal :=
  ∑ i : Fin 1000000, ∑ d : Fin 128, (X (ix2 i d) : EReal) * (X (ix2 i d) : EReal)

/-- Row `r` of block `s` of core `c`'s half, as a row of the whole batch: (25 c + s) · 20000 + r. -/
def rowOf (c : Fin 2) (s : Fin 25) (r : Fin 20000) : Fin 1000000 :=
  ⟨(c.val * 25 + s.val) * 20000 + r.val, by have := c.isLt; have := s.isLt; have := r.isLt; omega⟩

/-- One block's contribution to class `k`'s sum of feature `d`. -/
def blockSum (X : FVec Ideal SX .f32) (T : IVec ST 32) (c : Fin 2) (s : Fin 25) (k : Fin 64) (d : Fin 128) : EReal :=
  ∑ r : Fin 20000, oh T (rowOf c s r) k * (X (ix2 (rowOf c s r) d) : EReal)

/-- One block's contribution to class `k`'s count. -/
def blockCount (T : IVec ST 32) (c : Fin 2) (s : Fin 25) (k : Fin 64) : EReal :=
  ∑ r : Fin 20000, oh T (rowOf c s r) k

/-- One block's sum of squares. -/
def blockSq (X : FVec Ideal SX .f32) (c : Fin 2) (s : Fin 25) : EReal :=
  ∑ r : Fin 20000, ∑ d : Fin 128, (X (ix2 (rowOf c s r) d) : EReal) * (X (ix2 (rowOf c s r) d) : EReal)

/-- What core `c` accumulates over its 25 blocks, as whole arrays of the kernel's three result shapes. -/
def coreSums (X : FVec Ideal SX .f32) (T : IVec ST 32) : FVec Ideal SP .f32 :=
  fun j => ∑ s : Fin 25, blockSum X T (j 0) s (j 1) (j 2)
def coreCounts (T : IVec ST 32) : FVec Ideal SC .f32 :=
  fun j => ∑ s : Fin 25, blockCount T (j 0) s (j 2)
def coreSqs (X : FVec Ideal SX .f32) : FVec Ideal SQ .f32 :=
  fun j => ∑ s : Fin 25, blockSq X (j 0) s

end Cert.Centroid

end
-- ==== Proof.PayloadAt.lean ====
/-
  The block update's arithmetic, read one entry at a time on the extended reals (where every change of float format is the
  identity). For a block of 20,000 rows with features x0 (r, d) and labels x1 (r, 0):
  * the one-hot matrix has, at (r, k), 1 when the label of row r is the word k and 0 otherwise;
  * the class sums' update at (0, k, d) is the accumulator plus Σ_r onehot (r, k) · x0 (r, d) — one product of the transposed
    one-hot matrix with the features, accumulated into the zero array and then added;
  * the class counts' update at (0, 0, k) is the accumulator plus Σ_r onehot (r, k) — the one-hot matrix's column sums;
  * the sum of squares' update at (0, 0, 0) is the accumulator plus Σ_r Σ_d x0 (r, d)² — the total of the squared block;
  * the three resets are zero arrays.
-/
import proofs.«404953_j32289564131920_3_alg».proof.Proof.Gen.KernelIdeal.Skeleton
import proofs.«404953_j32289564131920_3_alg».proof.Proof.Spec
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws
import Mathlib.Algebra.BigOperators.Fin
import Mathlib.Algebra.BigOperators.Group.Finset.Defs
import Mathlib.Data.Fintype.BigOperators

noncomputable section

open scoped BigOperators

namespace Cert.KernelIdeal.Hand

open Cert.KernelIdeal Cert.KernelIdeal.Gen Idealize.ShloMosaic Idealize.ShloMosaic.ValueIdx

namespace PayloadAt

/-! ## The one-hot matrix at an entry -/

/-- The label column stretched along the classes, read at (r, k): the label of row r. -/
theorem labels_at (x1 : Vec Ideal S20000x1 .i32) (r : Fin 20000) (k : Fin 64) :
    broadcastTo S20000x64 (shapeCast S20000x1 x1 shapeCasts_S20000x1_S20000x1) broadcasts_S20000x1_S20000x64 (ix2 r k)
      = x1 (ix2 r 0) := by
  rw [shapeCast_self]
  refine broadcastTo_apply x1 _ (ix2 r k) (ix2 r (0 : Fin 1)) fun a => ?_
  match a with
  | ⟨0, _⟩ => rfl
  | ⟨1, _⟩ => rfl

/-- The class counter along axis 1, read at (r, k): the word k. -/
theorem iota_at (r : Fin 20000) (k : Fin 64) :
    iota .tc S20000x64 32 [1] iota_S20000x64_d1_w32 (ix2 r k) = BitVec.ofNat 32 k.val :=
  iota_single_apply .tc S20000x64 32 1 iota_S20000x64_d1_w32 (ix2 r k)

/-- A one-bit comparison result, widened to 32 bits and converted to an extended real: 1 if the words are equal, else 0. -/
theorem indicator_word (a b : BitVec 32) :
    (FloatOps.sitofp (F := Ideal) .f32 ((IntOp.cmpi .eq a b).setWidth 32) : EReal) = if a = b then (1 : EReal) else 0 := by
  by_cases h : a = b
  · rw [if_pos h, StableHlo.Predicate.cmpi_eq_iff.mpr h]
    show (((1#1 : BitVec 1).setWidth 32).toInt : ℝ) = (1 : EReal)
    have : ((1#1 : BitVec 1).setWidth 32).toInt = 1 := by decide
    rw [this]; simp
  · rw [if_neg h, eq_zero_of_ne_one (fun h1 => h (StableHlo.Predicate.cmpi_eq_iff.mp h1))]
    show (((0#1 : BitVec 1).setWidth 32).toInt : ℝ) = (0 : EReal)
    have : ((0#1 : BitVec 1).setWidth 32).toInt = 0 := by decide
    rw [this]; simp

/-- The one-hot matrix at (r, k): 1 when row r's label is the word k, else 0. -/
theorem onehot_at (x1 : Vec Ideal S20000x1 .i32) (r : Fin 20000) (k : Fin 64) :
    k0_pay5 (F := Ideal) x1 (ix2 r k) = if x1 (ix2 r 0) = BitVec.ofNat 32 k.val then (1 : EReal) else 0 := by
  unfold k0_pay5
  show FloatOps.sitofp (F := Ideal) .f32 ((IntOp.cmpi .eq
      (broadcastTo S20000x64 (shapeCast S20000x1 x1 shapeCasts_S20000x1_S20000x1) broadcasts_S20000x1_S20000x64 (ix2 r k))
      (iota .tc S20000x64 32 [1] iota_S20000x64_d1_w32 (ix2 r k))).setWidth 32) = _
  rw [labels_at, iota_at]
  exact indicator_word _ _

/-! ## The product of the transposed one-hot matrix with the features at an entry -/

/-! The product's dimension record contracts axis 0 of both operands; its operand indices, axis by axis. -/

theorem lhs_dot_0 (i : S64x128.Idx) (q : dot_S20000x64_S20000x128_S64x128_0_0_1_1_n_n.contr.Idx) :
    (dot_S20000x64_S20000x128_S64x128_0_0_1_1_n_n.lhsIdx i q 0).val = (q ⟨0, by decide⟩).val :=
  dot_S20000x64_S20000x128_S64x128_0_0_1_1_n_n.lhsIdx_val_of_single rfl i q

theorem lhs_dot_1 (i : S64x128.Idx) (q : dot_S20000x64_S20000x128_S64x128_0_0_1_1_n_n.contr.Idx) :
    (dot_S20000x64_S20000x128_S64x128_0_0_1_1_n_n.lhsIdx i q 1).val = (i 0).val := by
  unfold DotDims.lhsIdx
  rw [dif_neg (show ¬(1 : Fin S20000x64.rank) ∈ dot_S20000x64_S20000x128_S64x128_0_0_1_1_n_n.lhsBatch by decide),
    dif_pos (show (1 : Fin S20000x64.rank) ∈ dot_S20000x64_S20000x128_S64x128_0_0_1_1_n_n.lhsNonContracting by decide)]
  rfl

theorem rhs_dot_0 (i : S64x128.Idx) (q : dot_S20000x64_S20000x128_S64x128_0_0_1_1_n_n.contr.Idx) :
    (dot_S20000x64_S20000x128_S64x128_0_0_1_1_n_n.rhsIdx i q 0).val = (q ⟨0, by decide⟩).val :=
  dot_S20000x64_S20000x128_S64x128_0_0_1_1_n_n.rhsIdx_val_of_single rfl i q

theorem rhs_dot_1 (i : S64x128.Idx) (q : dot_S20000x64_S20000x128_S64x128_0_0_1_1_n_n.contr.Idx) :
    (dot_S20000x64_S20000x128_S64x128_0_0_1_1_n_n.rhsIdx i q 1).val = (i 1).val := by
  unfold DotDims.rhsIdx
  rw [dif_neg (show ¬(1 : Fin S20000x128.rank) ∈ dot_S20000x64_S20000x128_S64x128_0_0_1_1_n_n.rhsBatch by decide),
    dif_pos (show (1 : Fin S20000x128.rank) ∈ dot_S20000x64_S20000x128_S64x128_0_0_1_1_n_n.rhsNonContracting by decide)]
  rfl

/-- The product of the transposed left operand with the right one, accumulated into the zero array, at (k, d):
    the sum over the rows r of A (r, k) · B (r, d). -/
theorem matmul_at (A : FVec Ideal S20000x64 .bf16) (B : FVec Ideal S20000x128 .bf16) (k : Fin 64) (d : Fin 128) :
    matmul (F := Ideal) dot_S20000x64_S20000x128_S64x128_0_0_1_1_n_n none A B
        (constant (F := Ideal) S64x128 .f32 0x00000000#32) (ix2 k d)
      = ∑ r : Fin 20000, A (ix2 r k) * B (ix2 r d) := by
  show FloatOps.matmul _ none A B _ (ix2 k d) = _
  rw [Ideal.matmul_constant_zero_apply,
    ← Equiv.sum_comp (contrEquiv1 dot_S20000x64_S20000x128_S64x128_0_0_1_1_n_n 20000 rfl rfl).symm]
  refine Finset.sum_congr rfl fun r _ => ?_
  have hk := contrEquiv1_symm_val dot_S20000x64_S20000x128_S64x128_0_0_1_1_n_n 20000 rfl rfl r
  have el : dot_S20000x64_S20000x128_S64x128_0_0_1_1_n_n.lhsIdx (ix2 k d)
      ((contrEquiv1 dot_S20000x64_S20000x128_S64x128_0_0_1_1_n_n 20000 rfl rfl).symm r) = ix2 r k :=
    funext fun a => Fin.ext (by
      match a with
      | ⟨0, _⟩ => exact (lhs_dot_0 _ _).trans hk
      | ⟨1, _⟩ => exact lhs_dot_1 _ _)
  have er : dot_S20000x64_S20000x128_S64x128_0_0_1_1_n_n.rhsIdx (ix2 k d)
      ((contrEquiv1 dot_S20000x64_S20000x128_S64x128_0_0_1_1_n_n 20000 rfl rfl).symm r) = ix2 r d :=
    funext fun a => Fin.ext (by
      match a with
      | ⟨0, _⟩ => exact (rhs_dot_0 _ _).trans hk
      | ⟨1, _⟩ => exact rhs_dot_1 _ _)
  rw [el, er]

/-! ## Column sums, the total, and constant arrays -/

/-- A sum over the rows of a [20000, 64] array (an add-reduction along axis 0 from the zero word), at column k. -/
theorem colsum_at (src : FVec Ideal S20000x64 .f32) (hφ : FKind.Formats .f32)
    (hacc : (0x00000000#32 : BitVec 32) = FKind.add.neutral .f32 hφ) (k : Fin 64) :
    multiReduction (F := Ideal) .add [0] S64 src 0x00000000#32 reduces_S20000x64_S64 hφ hacc (ix1 k)
      = ∑ r : Fin 20000, src (ix2 r k) := by
  refine (Ideal.multiReduction_add_single src 0x00000000#32 reduces_S20000x64_S64 hφ hacc (ix1 k)).trans ?_
  show ∑ r : Fin 20000, src (reduces_S20000x64_S64.lift (ix1 k) r) = _
  refine Finset.sum_congr rfl fun r _ => congrArg src ?_
  funext a
  refine Fin.ext ?_
  match a with
  | ⟨0, _⟩ => rfl
  | ⟨1, _⟩ => rfl

/-- A rank-3 index set is the triple product of its coordinate ranges, so a sum over it is the triple sum over the
    coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  let e : (⟨3, ![n0, n1, n2]⟩ : Shape).Idx ≃ Fin n0 × Fin n1 × Fin n2 :=
    { toFun := fun i => (i 0, i 1, i 2)
      invFun := fun p => ix3 p.1 p.2.1 p.2.2
      left_inv := fun i => (eq_ix3 i).symm
      right_inv := fun _ => rfl }
  rw [← Equiv.sum_comp e.symm f, Fintype.sum_prod_type]
  refine Finset.sum_congr rfl fun a _ => ?_
  rw [Fintype.sum_prod_type]
  rfl

/-- A reshape of an array that has one value everywhere has that value everywhere. -/
theorem shapeCast_of_const {s t : Shape} {α : Type} (v : s.Idx → α) (c : α) (hv : ∀ j, v j = c) (h : s.ShapeCasts t)
    (i : t.Idx) : shapeCast t v h i = c := by
  unfold shapeCast
  exact hv _

/-- The add-reduction of a [1, 20000, 128] array along its last two axes from the zero word, at its one index: the sum
    of every entry. -/
theorem total_at (src : FVec Ideal S1x20000x128 .f32) (hφ : FKind.Formats .f32)
    (hacc : (0x00000000#32 : BitVec 32) = FKind.add.neutral .f32 hφ) (j : S1.Idx) :
    multiReduction (F := Ideal) .add [1, 2] S1 src 0x00000000#32 reduces_S1x20000x128_S1 hφ hacc j
      = ∑ r : Fin 20000, ∑ d : Fin 128, src (ix3 0 r d) := by
  refine (Ideal.multiReduction_add_total src 0x00000000#32 reduces_S1x20000x128_S1
    (fun b => by match b with | ⟨0, _⟩ => rfl) hφ hacc j).trans ?_
  refine (sum_idx3 (n0 := 1) (n1 := 20000) (n2 := 128) src).trans ?_
  exact Fin.sum_univ_one _

/-- The zero word, as an extended real, is 0. -/
theorem zero_word : (Scalar.ofBits (F := Ideal) .f32 0x00000000#32 : EReal) = 0 :=
  Ideal.ofBits_zero_f32

end PayloadAt

open PayloadAt

/-! ## The payloads at an index -/

/-- The class sums' reset is the zero array. -/
theorem pay2_zero (j : S1x64x128.Idx) : k0_pay2 (F := Ideal) j = 0 := by
  unfold k0_pay2
  exact shapeCast_of_const _ _ (fun _ => zero_word) shapeCasts_S64x128_S1x64x128 j

/-- The class counts' reset is the zero array. -/
theorem pay3_zero (j : S1x1x64.Idx) : k0_pay3 (F := Ideal) j = 0 := by
  unfold k0_pay3
  exact shapeCast_of_const _ _ (fun _ => zero_word) shapeCasts_S1x64_S1x1x64 j

/-- The sum of squares' reset is the zero array. -/
theorem pay4_zero (j : S1x1x1.Idx) : k0_pay4 (F := Ideal) j = 0 := by
  unfold k0_pay4
  exact shapeCast_of_const _ _ (fun _ => zero_word) shapeCasts_S1x1_S1x1x1 j

/-- The class sums' update at (0, k, d): the accumulator plus the sum over the block's rows of the one-hot weight
    times the feature. -/
theorem pay6_at (x0 : Vec Ideal S20000x128 .f32) (x1 : Vec Ideal S20000x1 .i32) (acc : Vec Ideal S1x64x128 .f32)
    (k : Fin 64) (d : Fin 128) :
    k0_pay6 x0 x1 acc (ix3 0 k d) = acc (ix3 0 k d)
      + ∑ r : Fin 20000, (if x1 (ix2 r 0) = BitVec.ofNat 32 k.val then (1 : EReal) else 0) * x0 (ix2 r d) := by
  unfold k0_pay6
  refine (shapeCast_ab_1ab_apply _ shapeCasts_S64x128_S1x64x128 (0 : Fin 1) k d).trans ?_
  rw [addf_apply]
  refine congrArg₂ (· + ·) (shapeCast_1ab_ab_apply acc shapeCasts_S1x64x128_S64x128 k d) ?_
  refine (matmul_at _ _ k d).trans ?_
  refine Finset.sum_congr rfl fun r _ => ?_
  rw [truncf_apply, truncf_apply, onehot_at]

/-- The class counts' update at (0, 0, k): the accumulator plus the number of the block's rows labelled k. -/
theorem pay7_at (x1 : Vec Ideal S20000x1 .i32) (acc : Vec Ideal S1x1x64 .f32) (k : Fin 64) :
    k0_pay7 x1 acc (ix3 0 0 k) = acc (ix3 0 0 k)
      + ∑ r : Fin 20000, (if x1 (ix2 r 0) = BitVec.ofNat 32 k.val then (1 : EReal) else 0) := by
  unfold k0_pay7
  refine (shapeCast_ab_1ab_apply _ shapeCasts_S1x64_S1x1x64 (0 : Fin 1) (0 : Fin 1) k).trans ?_
  rw [addf_apply]
  refine congrArg₂ (· + ·) (shapeCast_1ab_ab_apply acc shapeCasts_S1x1x64_S1x64 (0 : Fin 1) k) ?_
  refine (shapeCast_a_1a_apply _ shapeCasts_S64_S1x64 (0 : Fin 1) k).trans ?_
  refine (colsum_at _ _ _ k).trans ?_
  exact Finset.sum_congr rfl fun r _ => onehot_at x1 r k

/-- The sum of squares' update at (0, 0, 0): the accumulator plus the sum of the squares of the block's entries. -/
theorem pay1_at (x0 : Vec Ideal S20000x128 .f32) (acc : Vec Ideal S1x1x1 .f32) :
    k0_pay1 (k0_pay8 acc) (k0_pay9 x0) (ix3 0 0 0) = acc (ix3 0 0 0)
      + ∑ r : Fin 20000, ∑ d : Fin 128, x0 (ix2 r d) * x0 (ix2 r d) := by
  unfold k0_pay1 k0_pay8 k0_pay9
  refine (shapeCast_ab_1ab_apply _ shapeCasts_S1x1_S1x1x1 (0 : Fin 1) (0 : Fin 1) (0 : Fin 1)).trans ?_
  rw [addf_apply]
  refine congrArg₂ (· + ·) (shapeCast_1ab_ab_apply acc shapeCasts_S1x1x1_S1x1 (0 : Fin 1) (0 : Fin 1)) ?_
  rw [broadcast_apply]
  unfold extractAt
  refine shapeCast_of_const _ _ (fun j => ?_) shapeCasts_S1_S1x1x1 _
  refine (total_at _ _ _ j).trans ?_
  refine Finset.sum_congr rfl fun r _ => Finset.sum_congr rfl fun d _ => ?_
  refine (shapeCast_ab_1ab_apply _ shapeCasts_S20000x128_S1x20000x128 (0 : Fin 1) r d).trans ?_
  exact mulf_apply _ _ (ix2 r d)

end Cert.KernelIdeal.Hand

end
-- ==== Proof.KernelIdeal.Accum.lean ====
/-
  The kernel's three result arrays after the run, as functions of the feature matrix X and the label vector T.

  The grid has 2 cores × 25 steps; point t = 25 · core + step reads block t of the rows (20,000 rows: rows
  20000 t … 20000 t + 19999 of X, and the same rows of T, which the region finds reshaped to one column). Three steps:

  * each input block read at an index is an entry of X or of T, so a point's weighted column sums, class counts and
    sum of squares are one block's contribution to its core's share (`blockSum`, `blockCount`, `blockSq`);
  * by induction on the step within a core, after point 25 · cc + s the three accumulators hold the sums of the
    contributions of blocks 0 … s of core cc: the core's first point stores zero plus its block's contribution
    (0 + a = a), every later point adds its block's contribution to what the point before left;
  * the accumulators are written back only after a core's last point (step 24), to plane cc of each result array, and
    the two planes cover each array; so each array ends at the sum over the core's 25 blocks, entry by entry.
-/
import proofs.«404953_j32289564131920_3_alg».proof.Proof.KernelIdeal.Frame
import proofs.«404953_j32289564131920_3_alg».proof.Proof.KernelIdeal.Pieces
import proofs.«404953_j32289564131920_3_alg».proof.Proof.PayloadAt
import proofs.«404953_j32289564131920_3_alg».proof.Proof.Spec
import Idealize.ShloMosaic.Lib.Pipeline.Value
import Idealize.ShloMosaic.Lib.ValueIdx
import Mathlib.Algebra.BigOperators.Fin
import Mathlib.Algebra.BigOperators.Group.Finset.Basic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The whole feature matrix and the whole label vector, as the launch memory holds them. -/
abbrev Xarr (c : Dev nD) : FVec Ideal Cert.Centroid.SX .f32 := m ((c.tc : Thread nD τ).loc main_arg0)
abbrev Tarr (c : Dev nD) : IVec Cert.Centroid.ST 32 := m ((c.tc : Thread nD τ).loc main_arg1)

/-- The feature block and the label block of grid point t. -/
abbrev xblk (c : Dev nD) (t : Fin cfg0.N) : Vec Ideal S20000x128 .f32 := iblk m c 0 t
abbrev tblk (c : Dev nD) (t : Fin cfg0.N) : Vec Ideal S20000x1 .i32 := iblk m c 1 t

/-! ## The input blocks, read at an index -/

/-- Both input windows' block index at point t is (t, 0): point t = 25 · core + step reads block 25 · core + step. -/
theorem in_idx : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Entry (r, d) of the feature block at point t is entry (20000 t + r, d) of the feature matrix. -/
theorem xblk_at (c : Dev nD) (t : Fin cfg0.N) (r : Fin 20000) (d : Fin 128) (i : Fin 1000000)
    (hi : i.val = t.val * 20000 + r.val) :
    xblk m c t (ix2 r d) = Xarr m c (ix2 i d) := by
  obtain ⟨e0, e1, -, -⟩ := in_idx t
  unfold xblk iblk
  rw [View.read_apply]
  show V m c main_arg0 (((cfg0.win 0).blk t).view.emb (ix2 r d)) = _
  rw [V_main_arg0]
  show m ((c.tc : Thread nD τ).loc main_arg0) _ = m ((c.tc : Thread nD τ).loc main_arg0) _
  refine congrArg _ ?_
  funext a
  apply Fin.ext
  match a with
  | ⟨0, _⟩ => show win0_0.index t (0 : Fin 2) * 20000 + 1 * r.val = i.val; omega
  | ⟨1, _⟩ => show win0_0.index t (1 : Fin 2) * 128 + 1 * d.val = d.val; omega

/-- The label column the region finds is the label vector reshaped to one column. -/
theorem V_main_v0 (c : Dev nD) : (V m c main_v0 : S1000000x1.Idx → BitVec 32)
    = shapeCast S1000000x1 (Tarr m c) shapeCasts_S1000000_S1000000x1 := by
  show StableHlo.after hostOps0 (fun b => m (c, b)) (Proc.devRef .tc main_v0) = _
  after_results
  rfl

/-- Entry (r, 0) of the label block at point t is entry 20000 t + r of the label vector. -/
theorem tblk_at (c : Dev nD) (t : Fin cfg0.N) (r : Fin 20000) (i : Fin 1000000)
    (hi : i.val = t.val * 20000 + r.val) :
    tblk m c t (ix2 r 0) = Tarr m c (ix1 i) := by
  obtain ⟨-, -, e0, e1⟩ := in_idx t
  unfold tblk iblk
  rw [View.read_apply]
  show V m c main_v0 (((cfg0.win 1).blk t).view.emb (ix2 r 0)) = _
  rw [V_main_v0]
  refine shapeCast_apply _ _ _ (ix1 i) ?_
  rw [Shape.rowMajor_val_two, Shape.rowMajor_val_one]
  show i.val = (win0_1.index t (0 : Fin 2) * 20000 + 1 * r.val) * 1 + (win0_1.index t (1 : Fin 2) * 1 + 1 * 0)
  omega

/-! ## One point's contribution -/

/-- At point 25 · cc + s the block's one-hot-weighted column sums are block s of core cc's share of the class sums. -/
theorem blk_sum (c : Dev nD) (cc : Fin 2) (s : Fin 25) (t : Fin cfg0.N) (ht : t.val = cc.val * 25 + s.val)
    (k : Fin 64) (d : Fin 128) :
    (∑ r : Fin 20000, (if tblk m c t (ix2 r 0) = BitVec.ofNat 32 k.val then (1 : EReal) else 0) * xblk m c t (ix2 r d))
      = Cert.Centroid.blockSum (Xarr m c) (Tarr m c) cc s k d := by
  unfold Cert.Centroid.blockSum Cert.Centroid.oh
  refine Finset.sum_congr rfl fun r _ => ?_
  rw [xblk_at m c t r d (Cert.Centroid.rowOf cc s r) (by show (cc.val * 25 + s.val) * 20000 + r.val = _; rw [ht]),
    tblk_at m c t r (Cert.Centroid.rowOf cc s r) (by show (cc.val * 25 + s.val) * 20000 + r.val = _; rw [ht])]

theorem blk_count (c : Dev nD) (cc : Fin 2) (s : Fin 25) (t : Fin cfg0.N) (ht : t.val = cc.val * 25 + s.val)
    (k : Fin 64) :
    (∑ r : Fin 20000, (if tblk m c t (ix2 r 0) = BitVec.ofNat 32 k.val then (1 : EReal) else 0))
      = Cert.Centroid.blockCount (Tarr m c) cc s k := by
  unfold Cert.Centroid.blockCount Cert.Centroid.oh
  refine Finset.sum_congr rfl fun r _ => ?_
  rw [tblk_at m c t r (Cert.Centroid.rowOf cc s r) (by show (cc.val * 25 + s.val) * 20000 + r.val = _; rw [ht])]

theorem blk_sq (c : Dev nD) (cc : Fin 2) (s : Fin 25) (t : Fin cfg0.N) (ht : t.val = cc.val * 25 + s.val) :
    (∑ r : Fin 20000, ∑ d : Fin 128, xblk m c t (ix2 r d) * xblk m c t (ix2 r d))
      = Cert.Centroid.blockSq (Xarr m c) cc s := by
  unfold Cert.Centroid.blockSq
  refine Finset.sum_congr rfl fun r _ => Finset.sum_congr rfl fun d _ => ?_
  rw [xblk_at m c t r d (Cert.Centroid.rowOf cc s r) (by show (cc.val * 25 + s.val) * 20000 + r.val = _; rw [ht])]

/-! ## What one point leaves in the three buffers, at an index -/

/-- A resetting point leaves in the class-sums buffer, at (0, k, d), its block's weighted column sum. -/
theorem reset_sum (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : cond0_0 i)
    (x0 : Vec Ideal S20000x128 .f32) (x1 : Vec Ideal S20000x1 .i32) (k : Fin 64) (d : Fin 128) :
    out0_A_2 (F := Ideal) c i arg2 harg2 arg3 harg3 arg4 harg4 arg5 harg5 arg6 harg6 hc0 x0 x1 (ix3 0 k d)
      = ∑ r : Fin 20000, (if x1 (ix2 r 0) = BitVec.ofNat 32 k.val then (1 : EReal) else 0) * x0 (ix2 r d) := by
  refine (congrFun (out0_A_2_eq (F := Ideal) c i arg2 harg2 arg3 harg3 arg4 harg4 arg5 harg5 arg6 harg6 hc0 x0 x1) (ix3 0 k d)).trans ?_
  refine (pay6_at x0 x1 (k0_pay2 (F := Ideal)) k d).trans ?_
  rw [pay2_zero, zero_add]

/-- A resetting point leaves in the class-counts buffer, at (0, 0, k), its block's count of class k. -/
theorem reset_count (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : cond0_0 i)
    (x0 : Vec Ideal S20000x128 .f32) (x1 : Vec Ideal S20000x1 .i32) (k : Fin 64) :
    out0_A_3 (F := Ideal) c i arg2 harg2 arg3 harg3 arg4 harg4 arg5 harg5 arg6 harg6 hc0 x0 x1 (ix3 0 0 k)
      = ∑ r : Fin 20000, (if x1 (ix2 r 0) = BitVec.ofNat 32 k.val then (1 : EReal) else 0) := by
  refine (congrFun (out0_A_3_eq (F := Ideal) c i arg2 harg2 arg3 harg3 arg4 harg4 arg5 harg5 arg6 harg6 hc0 x0 x1) (ix3 0 0 k)).trans ?_
  refine (pay7_at x1 (k0_pay3 (F := Ideal)) k).trans ?_
  rw [pay3_zero, zero_add]

/-- A resetting point leaves in the square-sum buffer its block's sum of squares. -/
theorem reset_sq (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : cond0_0 i)
    (x0 : Vec Ideal S20000x128 .f32) (x1 : Vec Ideal S20000x1 .i32) :
    out0_A_4 (F := Ideal) c i arg2 harg2 arg3 harg3 arg4 harg4 arg5 harg5 arg6 harg6 hc0 x0 x1 (ix3 0 0 0)
      = ∑ r : Fin 20000, ∑ d : Fin 128, x0 (ix2 r d) * x0 (ix2 r d) := by
  refine (congrFun (out0_A_4_eq (F := Ideal) c i arg2 harg2 arg3 harg3 arg4 harg4 arg5 harg5 arg6 harg6 hc0 x0 x1) (ix3 0 0 0)).trans ?_
  refine (pay1_at x0 (k0_pay4 (F := Ideal))).trans ?_
  rw [pay4_zero, zero_add]

/-- An accumulating point adds its block's weighted column sum to what the class-sums buffer held. -/
theorem step_sum (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : ¬cond0_0 i)
    (x0 : Vec Ideal S20000x128 .f32) (x1 : Vec Ideal S20000x1 .i32)
    (xo2 : Vec Ideal S1x64x128 .f32) (xo3 : Vec Ideal S1x1x64 .f32) (xo4 : Vec Ideal S1x1x1 .f32) (k : Fin 64) (d : Fin 128) :
    out0_B_2 (F := Ideal) c i arg2 harg2 arg3 harg3 arg4 harg4 arg5 harg5 arg6 harg6 hc0 x0 x1 xo2 xo3 xo4 (ix3 0 k d)
      = xo2 (ix3 0 k d)
        + ∑ r : Fin 20000, (if x1 (ix2 r 0) = BitVec.ofNat 32 k.val then (1 : EReal) else 0) * x0 (ix2 r d) :=
  (congrFun (out0_B_2_eq (F := Ideal) c i arg2 harg2 arg3 harg3 arg4 harg4 arg5 harg5 arg6 harg6 hc0 x0 x1 xo2 xo3 xo4) (ix3 0 k d)).trans
    (pay6_at x0 x1 xo2 k d)

/-- An accumulating point adds its block's count of class k to what the class-counts buffer held. -/
theorem step_count (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : ¬cond0_0 i)
    (x0 : Vec Ideal S20000x128 .f32) (x1 : Vec Ideal S20000x1 .i32)
    (xo2 : Vec Ideal S1x64x128 .f32) (xo3 : Vec Ideal S1x1x64 .f32) (xo4 : Vec Ideal S1x1x1 .f32) (k : Fin 64) :
    out0_B_3 (F := Ideal) c i arg2 harg2 arg3 harg3 arg4 harg4 arg5 harg5 arg6 harg6 hc0 x0 x1 xo2 xo3 xo4 (ix3 0 0 k)
      = xo3 (ix3 0 0 k) + ∑ r : Fin 20000, (if x1 (ix2 r 0) = BitVec.ofNat 32 k.val then (1 : EReal) else 0) :=
  (congrFun (out0_B_3_eq (F := Ideal) c i arg2 harg2 arg3 harg3 arg4 harg4 arg5 harg5 arg6 harg6 hc0 x0 x1 xo2 xo3 xo4) (ix3 0 0 k)).trans
    (pay7_at x1 xo3 k)

/-- An accumulating point adds its block's sum of squares to what the square-sum buffer held. -/
theorem step_sq (c : Dev nD) (i : grid0.Coords) (arg2 : Memref sig .tc .vmem S20000x128 .f32) (harg2 : arg2.IsWhole) (arg3 : Memref sig .tc .vmem S20000x1 .i32) (harg3 : arg3.IsWhole) (arg4 : Memref sig .tc .vmem S1x64x128 .f32) (harg4 : arg4.IsWhole) (arg5 : Memref sig .tc .vmem S1x1x64 .f32) (harg5 : arg5.IsWhole) (arg6 : Memref sig .tc .vmem S1x1x1 .f32) (harg6 : arg6.IsWhole) (hc0 : ¬cond0_0 i)
    (x0 : Vec Ideal S20000x128 .f32) (x1 : Vec Ideal S20000x1 .i32)
    (xo2 : Vec Ideal S1x64x128 .f32) (xo3 : Vec Ideal S1x1x64 .f32) (xo4 : Vec Ideal S1x1x1 .f32) :
    out0_B_4 (F := Ideal) c i arg2 harg2 arg3 harg3 arg4 harg4 arg5 harg5 arg6 harg6 hc0 x0 x1 xo2 xo3 xo4 (ix3 0 0 0)
      = xo4 (ix3 0 0 0) + ∑ r : Fin 20000, ∑ d : Fin 128, x0 (ix2 r d) * x0 (ix2 r d) :=
  (congrFun (out0_B_4_eq (F := Ideal) c i arg2 harg2 arg3 harg3 arg4 harg4 arg5 harg5 arg6 harg6 hc0 x0 x1 xo2 xo3 xo4) (ix3 0 0 0)).trans
    (pay1_at x0 xo4)

/-! ## The three buffers after each point of a core -/

/-- Block s' of core cc's share, the block a natural number: zero past the core's 25 blocks. -/
def bSum (c : Dev nD) (cc : Fin 2) (k : Fin 64) (d : Fin 128) (s' : ℕ) : EReal :=
  if h : s' < 25 then Cert.Centroid.blockSum (Xarr m c) (Tarr m c) cc ⟨s', h⟩ k d else 0
def bCount (c : Dev nD) (cc : Fin 2) (k : Fin 64) (s' : ℕ) : EReal :=
  if h : s' < 25 then Cert.Centroid.blockCount (Tarr m c) cc ⟨s', h⟩ k else 0
def bSq (c : Dev nD) (cc : Fin 2) (s' : ℕ) : EReal :=
  if h : s' < 25 then Cert.Centroid.blockSq (Xarr m c) cc ⟨s', h⟩ else 0

/-- After point 25 · cc + s the three buffers hold the sums of the contributions of blocks 0 … s of core cc:
    the first point of a core resets and adds its block, every later one adds its block to what the point before left. -/
theorem acc_inv (c : Dev nD) (cc : Fin 2) : ∀ (s : ℕ) (hs : s < 25) (t : Fin cfg0.N), t.val = cc.val * 25 + s →
    (∀ (k : Fin 64) (d : Fin 128), (outsAt0 m c t.val t.isLt).1 (ix3 0 k d) = ∑ s' ∈ Finset.range (s + 1), bSum m c cc k d s')
    ∧ (∀ k : Fin 64, (outsAt0 m c t.val t.isLt).2.1 (ix3 0 0 k) = ∑ s' ∈ Finset.range (s + 1), bCount m c cc k s')
    ∧ (outsAt0 m c t.val t.isLt).2.2 (ix3 0 0 0) = ∑ s' ∈ Finset.range (s + 1), bSq m c cc s' := by
  intro s
  induction s with
  | zero =>
    intro hs t ht
    have h0 : t.val % 25 = 0 := by omega
    rw [outsAt0_A m c t h0]
    dsimp only
    refine ⟨fun k d => ?_, fun k => ?_, ?_⟩
    · rw [Finset.sum_range_one]
      refine (reset_sum c (grid0.coords t) (ms0_0 t) (hs0_0 t) (ms0_1 t) (hs0_1 t) (ms0_2 t) (hs0_2 t) (ms0_3 t) (hs0_3 t) (ms0_4 t) (hs0_4 t) ((hcond0_0 t).mpr h0) (xblk m c t) (tblk m c t) k d).trans ?_
      rw [blk_sum m c cc ⟨0, hs⟩ t ht k d]
      unfold bSum
      rw [dif_pos hs]
    · rw [Finset.sum_range_one]
      refine (reset_count c (grid0.coords t) (ms0_0 t) (hs0_0 t) (ms0_1 t) (hs0_1 t) (ms0_2 t) (hs0_2 t) (ms0_3 t) (hs0_3 t) (ms0_4 t) (hs0_4 t) ((hcond0_0 t).mpr h0) (xblk m c t) (tblk m c t) k).trans ?_
      rw [blk_count m c cc ⟨0, hs⟩ t ht k]
      unfold bCount
      rw [dif_pos hs]
    · rw [Finset.sum_range_one]
      refine (reset_sq c (grid0.coords t) (ms0_0 t) (hs0_0 t) (ms0_1 t) (hs0_1 t) (ms0_2 t) (hs0_2 t) (ms0_3 t) (hs0_3 t) (ms0_4 t) (hs0_4 t) ((hcond0_0 t).mpr h0) (xblk m c t) (tblk m c t)).trans ?_
      rw [blk_sq m c cc ⟨0, hs⟩ t ht]
      unfold bSq
      rw [dif_pos hs]
  | succ s ih =>
    intro hs t ht
    have h0 : ¬t.val % 25 = 0 := by omega
    have hp : t.val - 1 < cfg0.N := Nat.lt_of_le_of_lt (Nat.sub_le _ _) t.isLt
    obtain ⟨i2, i3, i4⟩ := ih (by omega) ⟨t.val - 1, hp⟩ (by show t.val - 1 = _; omega)
    rw [outsAt0_B m c t h0]
    dsimp only
    refine ⟨fun k d => ?_, fun k => ?_, ?_⟩
    · rw [Finset.sum_range_succ]
      refine (step_sum c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (xblk m c t) (tblk m c t)
        (outsAt0 m c (t.val - 1) hp).1 (outsAt0 m c (t.val - 1) hp).2.1 (outsAt0 m c (t.val - 1) hp).2.2 k d).trans ?_
      refine congrArg₂ (· + ·) (i2 k d) ?_
      rw [blk_sum m c cc ⟨s + 1, hs⟩ t ht k d]
      unfold bSum
      rw [dif_pos hs]
    · rw [Finset.sum_range_succ]
      refine (step_count c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (xblk m c t) (tblk m c t)
        (outsAt0 m c (t.val - 1) hp).1 (outsAt0 m c (t.val - 1) hp).2.1 (outsAt0 m c (t.val - 1) hp).2.2 k).trans ?_
      refine congrArg₂ (· + ·) (i3 k) ?_
      rw [blk_count m c cc ⟨s + 1, hs⟩ t ht k]
      unfold bCount
      rw [dif_pos hs]
    · rw [Finset.sum_range_succ]
      refine (step_sq c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (xblk m c t) (tblk m c t)
        (outsAt0 m c (t.val - 1) hp).1 (outsAt0 m c (t.val - 1) hp).2.1 (outsAt0 m c (t.val - 1) hp).2.2).trans ?_
      refine congrArg₂ (· + ·) i4 ?_
      rw [blk_sq m c cc ⟨s + 1, hs⟩ t ht]
      unfold bSq
      rw [dif_pos hs]

/-! ## From the last point of each core to the three arrays -/

/-- The three result windows' block index at point t is (core of t, 0, 0). -/
theorem out_idx : ∀ t : Fin cfg0.N, win0_2.index t (0 : Fin 3) = t.val / 25 ∧ win0_2.index t (1 : Fin 3) = 0 ∧ win0_2.index t (2 : Fin 3) = 0
    ∧ win0_3.index t (0 : Fin 3) = t.val / 25 ∧ win0_3.index t (1 : Fin 3) = 0 ∧ win0_3.index t (2 : Fin 3) = 0
    ∧ win0_4.index t (0 : Fin 3) = t.val / 25 ∧ win0_4.index t (1 : Fin 3) = 0 ∧ win0_4.index t (2 : Fin 3) = 0 :=
  (by decide +kernel : ∀ t : Fin grid0.N, _)

/-- After a core's last point the class-sums buffer holds, entry by entry, the core's plane of the per-core class sums. -/
theorem last_sums (c : Dev nD) (cc : Fin 2) (t : Fin cfg0.N) (ht : t.val = cc.val * 25 + 24)
    (y : S1x64x128.Idx) (j : Cert.Centroid.SP.Idx)
    (h0 : (j 0).val = cc.val) (h1 : (j 1).val = (y 1).val) (h2 : (j 2).val = (y 2).val) :
    (outsAt0 m c t.val t.isLt).1 y = Cert.Centroid.coreSums (Xarr m c) (Tarr m c) j := by
  obtain ⟨a, k, d, rfl⟩ : ∃ (a : Fin 1) (k : Fin 64) (d : Fin 128), y = ix3 a k d := ⟨y 0, y 1, y 2, eq_ix3 y⟩
  obtain ⟨b, k', d', rfl⟩ : ∃ (b : Fin 2) (k' : Fin 64) (d' : Fin 128), j = ix3 b k' d' := ⟨j 0, j 1, j 2, eq_ix3 j⟩
  obtain rfl : a = 0 := Subsingleton.elim _ _
  obtain rfl : cc = b := Fin.ext h0.symm
  obtain rfl : k = k' := Fin.ext h1.symm
  obtain rfl : d = d' := Fin.ext h2.symm
  rw [(acc_inv m c cc 24 (by omega) t ht).1 k d, Finset.sum_range]
  show _ = ∑ s : Fin 25, Cert.Centroid.blockSum (Xarr m c) (Tarr m c) cc s k d
  refine Finset.sum_congr rfl fun s _ => ?_
  unfold bSum
  rw [dif_pos s.isLt]

/-- The same for the class counts. -/
theorem last_counts (c : Dev nD) (cc : Fin 2) (t : Fin cfg0.N) (ht : t.val = cc.val * 25 + 24)
    (y : S1x1x64.Idx) (j : Cert.Centroid.SC.Idx)
    (h0 : (j 0).val = cc.val) (h2 : (j 2).val = (y 2).val) :
    (outsAt0 m c t.val t.isLt).2.1 y = Cert.Centroid.coreCounts (Tarr m c) j := by
  obtain ⟨a, a', k, rfl⟩ : ∃ (a : Fin 1) (a' : Fin 1) (k : Fin 64), y = ix3 a a' k := ⟨y 0, y 1, y 2, eq_ix3 y⟩
  obtain ⟨b, b', k', rfl⟩ : ∃ (b : Fin 2) (b' : Fin 1) (k' : Fin 64), j = ix3 b b' k' := ⟨j 0, j 1, j 2, eq_ix3 j⟩
  obtain rfl : a = 0 := Subsingleton.elim _ _
  obtain rfl : a' = 0 := Subsingleton.elim _ _
  obtain rfl : cc = b := Fin.ext h0.symm
  obtain rfl : k = k' := Fin.ext h2.symm
  rw [(acc_inv m c cc 24 (by omega) t ht).2.1 k, Finset.sum_range]
  show _ = ∑ s : Fin 25, Cert.Centroid.blockCount (Tarr m c) cc s k
  refine Finset.sum_congr rfl fun s _ => ?_
  unfold bCount
  rw [dif_pos s.isLt]

/-- The same for the sum of squares. -/
theorem last_sqs (c : Dev nD) (cc : Fin 2) (t : Fin cfg0.N) (ht : t.val = cc.val * 25 + 24)
    (y : S1x1x1.Idx) (j : Cert.Centroid.SQ.Idx) (h0 : (j 0).val = cc.val) :
    (outsAt0 m c t.val t.isLt).2.2 y = Cert.Centroid.coreSqs (Xarr m c) j := by
  obtain ⟨a, a', a'', rfl⟩ : ∃ (a : Fin 1) (a' : Fin 1) (a'' : Fin 1), y = ix3 a a' a'' := ⟨y 0, y 1, y 2, eq_ix3 y⟩
  obtain ⟨b, b', b'', rfl⟩ : ∃ (b : Fin 2) (b' : Fin 1) (b'' : Fin 1), j = ix3 b b' b'' := ⟨j 0, j 1, j 2, eq_ix3 j⟩
  obtain rfl : a = 0 := Subsingleton.elim _ _
  obtain rfl : a' = 0 := Subsingleton.elim _ _
  obtain rfl : a'' = 0 := Subsingleton.elim _ _
  obtain rfl : cc = b := Fin.ext h0.symm
  rw [(acc_inv m c cc 24 (by omega) t ht).2.2, Finset.sum_range]
  show _ = ∑ s : Fin 25, Cert.Centroid.blockSq (Xarr m c) cc s
  refine Finset.sum_congr rfl fun s _ => ?_
  unfold bSq
  rw [dif_pos s.isLt]

/-- What a core's last point writes back to the class-sums array is its block of the per-core class sums. -/
theorem flushed_sums (c : Dev nD) (t : Fin cfg0.N) (hf : t.val % 25 = 24) :
    (dats m 0 c).flushed 2 t = ((cfg0.win 2).blk t).view.read (Elt Ideal) (Cert.Centroid.coreSums (Xarr m c) (Tarr m c)) := by
  have hN : t.val < 50 := lt_of_lt_of_eq t.isLt (show cfg0.N = 50 from N_0)
  obtain ⟨e0, e1, e2, -⟩ := out_idx t
  show (cfg0.win 2).cut (grid0.coords t) ((dats m 0 c).after 2 t) = _
  rw [after0_2]
  funext y
  show (outsAt0 m c t.val t.isLt).1 y = Cert.Centroid.coreSums (Xarr m c) (Tarr m c) (((cfg0.win 2).blk t).view.emb y)
  refine last_sums m c ⟨t.val / 25, by omega⟩ t (by show t.val = t.val / 25 * 25 + 24; omega) y _ ?_ ?_ ?_
  · show win0_2.index t (0 : Fin 3) * 1 + 1 * (y 0).val = t.val / 25
    have : (y 0).val < 1 := (y 0).isLt
    omega
  · show win0_2.index t (1 : Fin 3) * 64 + 1 * (y 1).val = (y 1).val
    omega
  · show win0_2.index t (2 : Fin 3) * 128 + 1 * (y 2).val = (y 2).val
    omega

/-- What a core's last point writes back to the class-counts array is its block of the per-core class counts. -/
theorem flushed_counts (c : Dev nD) (t : Fin cfg0.N) (hf : t.val % 25 = 24) :
    (dats m 0 c).flushed 3 t = ((cfg0.win 3).blk t).view.read (Elt Ideal) (Cert.Centroid.coreCounts (Tarr m c)) := by
  have hN : t.val < 50 := lt_of_lt_of_eq t.isLt (show cfg0.N = 50 from N_0)
  obtain ⟨-, -, -, e0, e1, e2, -⟩ := out_idx t
  show (cfg0.win 3).cut (grid0.coords t) ((dats m 0 c).after 3 t) = _
  rw [after0_3]
  funext y
  show (outsAt0 m c t.val t.isLt).2.1 y = Cert.Centroid.coreCounts (Tarr m c) (((cfg0.win 3).blk t).view.emb y)
  refine last_counts m c ⟨t.val / 25, by omega⟩ t (by show t.val = t.val / 25 * 25 + 24; omega) y _ ?_ ?_
  · show win0_3.index t (0 : Fin 3) * 1 + 1 * (y 0).val = t.val / 25
    have : (y 0).val < 1 := (y 0).isLt
    omega
  · show win0_3.index t (2 : Fin 3) * 64 + 1 * (y 2).val = (y 2).val
    omega

/-- What a core's last point writes back to the square-sums array is its block of the per-core sums of squares. -/
theorem flushed_sqs (c : Dev nD) (t : Fin cfg0.N) (hf : t.val % 25 = 24) :
    (dats m 0 c).flushed 4 t = ((cfg0.win 4).blk t).view.read (Elt Ideal) (Cert.Centroid.coreSqs (Xarr m c)) := by
  have hN : t.val < 50 := lt_of_lt_of_eq t.isLt (show cfg0.N = 50 from N_0)
  obtain ⟨-, -, -, -, -, -, e0, e1, e2⟩ := out_idx t
  show (cfg0.win 4).cut (grid0.coords t) ((dats m 0 c).after 4 t) = _
  rw [after0_4]
  funext y
  show (outsAt0 m c t.val t.isLt).2.2 y = Cert.Centroid.coreSqs (Xarr m c) (((cfg0.win 4).blk t).view.emb y)
  refine last_sqs m c ⟨t.val / 25, by omega⟩ t (by show t.val = t.val / 25 * 25 + 24; omega) y _ ?_
  show win0_4.index t (0 : Fin 3) * 1 + 1 * (y 0).val = t.val / 25
  have : (y 0).val < 1 := (y 0).isLt
  omega

/-- Every entry (cc, k, d) of the class-sums array lies in the block the last point of core cc writes back. -/
theorem cover_sums (i : Cert.Centroid.SP.Idx) :
    ∃ t : Fin cfg0.N, (cfg0.win 2).flush t = true ∧ i ∈ ((cfg0.win 2).blk t).view.set := by
  have h0 : (i 0).val < 2 := (i 0).isLt
  have h1 : (i 1).val < 64 := (i 1).isLt
  have h2 : (i 2).val < 128 := (i 2).isLt
  have hN : cfg0.N = 50 := N_0
  let t : Fin cfg0.N := ⟨(i 0).val * 25 + 24, by omega⟩
  have htv : t.val = (i 0).val * 25 + 24 := rfl
  obtain ⟨e0, e1, e2, -⟩ := out_idx t
  refine ⟨t, (flush0_2 t).mpr (by omega), ?_⟩
  show i ∈ ((View.whole main_v1_0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 64 ≤ (i 1).val ∧ (i 1).val < win0_2.index t (1 : Fin 3) * 64 + 64; omega
  | ⟨2, _⟩ => show win0_2.index t (2 : Fin 3) * 128 ≤ (i 2).val ∧ (i 2).val < win0_2.index t (2 : Fin 3) * 128 + 128; omega

/-- Every entry (cc, 0, k) of the class-counts array lies in the block the last point of core cc writes back. -/
theorem cover_counts (i : Cert.Centroid.SC.Idx) :
    ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 64 := (i 2).isLt
  have hN : cfg0.N = 50 := N_0
  let t : Fin cfg0.N := ⟨(i 0).val * 25 + 24, by omega⟩
  have htv : t.val = (i 0).val * 25 + 24 := rfl
  obtain ⟨-, -, -, e0, e1, e2, -⟩ := out_idx t
  refine ⟨t, (flush0_3 t).mpr (by omega), ?_⟩
  show i ∈ ((View.whole main_v1_1).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 64 ≤ (i 2).val ∧ (i 2).val < win0_3.index t (2 : Fin 3) * 64 + 64; omega

/-- Every entry (cc, 0, 0) of the square-sums array lies in the block the last point of core cc writes back. -/
theorem cover_sqs (i : Cert.Centroid.SQ.Idx) :
    ∃ t : Fin cfg0.N, (cfg0.win 4).flush t = true ∧ i ∈ ((cfg0.win 4).blk t).view.set := by
  have h0 : (i 0).val < 2 := (i 0).isLt
  have h1 : (i 1).val < 1 := (i 1).isLt
  have h2 : (i 2).val < 1 := (i 2).isLt
  have hN : cfg0.N = 50 := N_0
  let t : Fin cfg0.N := ⟨(i 0).val * 25 + 24, by omega⟩
  have htv : t.val = (i 0).val * 25 + 24 := rfl
  obtain ⟨-, -, -, -, -, -, e0, e1, e2⟩ := out_idx t
  refine ⟨t, (flush0_4 t).mpr (by omega), ?_⟩
  show i ∈ ((View.whole main_v1_2).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 1 ≤ (i 2).val ∧ (i 2).val < win0_4.index t (2 : Fin 3) * 1 + 1; omega

/-! ## The three arrays after the run -/

/-- The class-sums array ends at the per-core class sums of the two argument arrays. -/
theorem final_sums (c : Dev nD) : (dats (F := Ideal) m 0 c).arrAt 2 cfg0.N
    = Cert.Centroid.coreSums (m ((c.tc : Thread nD τ).loc main_arg0)) (m ((c.tc : Thread nD τ).loc main_arg1)) :=
  (dats m 0 c).arrAt_eq_of_cover 2 (Cert.Centroid.coreSums (Xarr m c) (Tarr m c))
    (fun t hf => flushed_sums m c t ((flush0_2 t).mp hf)) cover_sums

/-- The class-counts array ends at the per-core class counts of the label vector. -/
theorem final_counts (c : Dev nD) : (dats (F := Ideal) m 0 c).arrAt 3 cfg0.N
    = Cert.Centroid.coreCounts (m ((c.tc : Thread nD τ).loc main_arg1)) :=
  (dats m 0 c).arrAt_eq_of_cover 3 (Cert.Centroid.coreCounts (Tarr m c))
    (fun t hf => flushed_counts m c t ((flush0_3 t).mp hf)) cover_counts

/-- The square-sums array ends at the per-core sums of squares of the feature matrix. -/
theorem final_sqs (c : Dev nD) : (dats (F := Ideal) m 0 c).arrAt 4 cfg0.N
    = Cert.Centroid.coreSqs (m ((c.tc : Thread nD τ).loc main_arg0)) :=
  (dats m 0 c).arrAt_eq_of_cover 4 (Cert.Centroid.coreSqs (Xarr m c))
    (fun t hf => flushed_sqs m c t ((flush0_4 t).mp hf)) cover_sqs

end Cert.KernelIdeal.Hand

end
-- ==== Proof.LossShape.lean ====
/-
  The part of the loss that both programs compute by the same chain of tensor operations, as three functions over
  literal shapes, for any float instance: the class centres from the class sums and counts (each sum divided by its
  count, the count raised to at least 1); the pairwise hinge term of the centres; the weighted total.
-/
import Idealize.ShloMosaic.Lib.StableHlo
import Idealize.ShloMosaic.PureOps

noncomputable section

namespace Cert.Centroid

open Idealize.ShloMosaic

/-! ## The shapes, written out -/

local notation "𝕊₀" => (⟨0, ![]⟩ : Shape)
local notation "𝕊1" => (⟨1, ![1]⟩ : Shape)
local notation "𝕊2" => (⟨1, ![2]⟩ : Shape)
local notation "𝕊64" => (⟨1, ![64]⟩ : Shape)
local notation "𝕊64x1" => (⟨2, ![64, 1]⟩ : Shape)
local notation "𝕊64x64" => (⟨2, ![64, 64]⟩ : Shape)
local notation "𝕊64x128" => (⟨2, ![64, 128]⟩ : Shape)
local notation "𝕊64x1x128" => (⟨3, ![64, 1, 128]⟩ : Shape)
local notation "𝕊1x64x128" => (⟨3, ![1, 64, 128]⟩ : Shape)
local notation "𝕊64x64x128" => (⟨3, ![64, 64, 128]⟩ : Shape)

/-! ## The shape relations the operations ask of their operands: each a decidable fact about literal shapes -/

namespace Side

theorem h_S_ : 0 < (𝕊₀).numel := by decide
theorem bcast_S_S64 : (𝕊₀).BroadcastsInDim 𝕊64 (![] : Fin 0 → Fin (𝕊64).rank) := by decide
theorem bcast_S64_S64x1_0 : (𝕊64).BroadcastsInDim 𝕊64x1 (![0] : Fin 1 → Fin (𝕊64x1).rank) := by decide
theorem bcast_S64x1_S64x128_0_1 : (𝕊64x1).BroadcastsInDim 𝕊64x128 (![0, 1] : Fin 2 → Fin (𝕊64x128).rank) := by decide
theorem bcast_S64x128_S64x1x128_0_2 : (𝕊64x128).BroadcastsInDim 𝕊64x1x128 (![0, 2] : Fin 2 → Fin (𝕊64x1x128).rank) := by decide
theorem bcast_S64x128_S1x64x128_1_2 : (𝕊64x128).BroadcastsInDim 𝕊1x64x128 (![1, 2] : Fin 2 → Fin (𝕊1x64x128).rank) := by decide
theorem bcast_S64x1x128_S64x64x128_0_1_2 : (𝕊64x1x128).BroadcastsInDim 𝕊64x64x128 (![0, 1, 2] : Fin 3 → Fin (𝕊64x64x128).rank) := by decide
theorem bcast_S1x64x128_S64x64x128_0_1_2 : (𝕊1x64x128).BroadcastsInDim 𝕊64x64x128 (![0, 1, 2] : Fin 3 → Fin (𝕊64x64x128).rank) := by decide
theorem reducesTo_S64x64x128_S64x64_d2 : (𝕊64x64x128).ReducesTo [2] 𝕊64x64 := by decide
theorem bcast_S_S64x64 : (𝕊₀).BroadcastsInDim 𝕊64x64 (![] : Fin 0 → Fin (𝕊64x64).rank) := by decide
theorem bcast_S_S1 : (𝕊₀).BroadcastsInDim 𝕊1 (![] : Fin 0 → Fin (𝕊1).rank) := by decide
theorem concatenates_S1_S1_S2_d0 : Shape.Concatenates [𝕊1, 𝕊1] 𝕊2 0 := by decide
theorem reducesTo_S64x64_S_d0_1 : (𝕊64x64).ReducesTo [0, 1] 𝕊₀ := by decide
theorem scatter_S64x64_S2_S__n_01_01_0_wf : ScatterDims.WF 𝕊64x64 𝕊2 𝕊₀ [] [0, 1] [0, 1] 0 := by decide

/-- The dimension numbers of the scatter that writes ONE element of a [64, 64] matrix: the index vector (length 2)
    names both axes of the operand, the update is a scalar. -/
def scatter_S64x64_S2_S__n_01_01_0 : ScatterDims 𝕊64x64 𝕊2 𝕊₀ where
  updateWindowDims := []
  insertedWindowDims := [0, 1]
  scatterDimsToOperandDims := [0, 1]
  indexVectorDim := 0
  wf := scatter_S64x64_S2_S__n_01_01_0_wf

end Side

open Side

variable {F : FTy → Type} [FloatOps F]

/-- The class centres: row k of the sums divided by max(1, count k), the clipped counts broadcast first to a column
    and then along the 128 features. -/
def centresOf (sums : FVec F ⟨2, ![64, 128]⟩ .f32) (counts : FVec F ⟨1, ![64]⟩ .f32) : FVec F ⟨2, ![64, 128]⟩ .f32 :=
  Host.divf sums (broadcastInDim 𝕊64x128 ![0, 1] bcast_S64x1_S64x128_0_1 (broadcastInDim 𝕊64x1 ![0] bcast_S64_S64x1_0 (maximumf (broadcastInDim 𝕊64 ![] bcast_S_S64 (id (constant 𝕊₀ .f32 0x3F800000#32))) counts)))

/-- The pairwise hinge term: with d²(i, j) = Σ_d (ctr i d − ctr j d)², the sum over all (i, j) of
    w(i, j) · max(2 − d²(i, j), 0) · u(i, j), divided by 2016, where w is 1 everywhere but 2 at (1, 2) and u is the
    indicator of the strict upper triangle (0 where i ≥ j, else 1). -/
def interLoss (ctr : FVec F ⟨2, ![64, 128]⟩ .f32) : FVec F ⟨0, ![]⟩ .f32 :=
  Host.divf (Host.reduceAdd (mulf (mulf (Host.scatter scatter_S64x64_S2_S__n_01_01_0 (fun _ b => b) (broadcastInDim 𝕊64x64 ![] bcast_S_S64x64 (constant 𝕊₀ .f32 0x3F800000#32)) (concatenate 𝕊2 0 [⟨𝕊1, (broadcastInDim 𝕊1 ![] bcast_S_S1 (constantI 𝕊₀ 32 1#32))⟩, ⟨𝕊1, (broadcastInDim 𝕊1 ![] bcast_S_S1 (constantI 𝕊₀ 32 2#32))⟩] concatenates_S1_S1_S2_d0) (constant 𝕊₀ .f32 0x40000000#32)) (maximumf (subf (broadcastInDim 𝕊64x64 ![] bcast_S_S64x64 (constant 𝕊₀ .f32 0x40000000#32)) (Host.reduceAdd (mulf (subf (broadcastInDim 𝕊64x64x128 ![0, 1, 2] bcast_S64x1x128_S64x64x128_0_1_2 (broadcastInDim 𝕊64x1x128 ![0, 2] bcast_S64x128_S64x1x128_0_2 ctr)) (broadcastInDim 𝕊64x64x128 ![0, 1, 2] bcast_S1x64x128_S64x64x128_0_1_2 (broadcastInDim 𝕊1x64x128 ![1, 2] bcast_S64x128_S1x64x128_1_2 ctr))) (subf (broadcastInDim 𝕊64x64x128 ![0, 1, 2] bcast_S64x1x128_S64x64x128_0_1_2 (broadcastInDim 𝕊64x1x128 ![0, 2] bcast_S64x128_S64x1x128_0_2 ctr)) (broadcastInDim 𝕊64x64x128 ![0, 1, 2] bcast_S1x64x128_S64x64x128_0_1_2 (broadcastInDim 𝕊1x64x128 ![1, 2] bcast_S64x128_S1x64x128_1_2 ctr)))) (constant 𝕊₀ .f32 0x00000000#32) reducesTo_S64x64x128_S64x64_d2 h_S_)) (broadcastInDim 𝕊64x64 ![] bcast_S_S64x64 (constant 𝕊₀ .f32 0x00000000#32)))) (select (cmpi .sge (addi (iotaInDim 𝕊64x64 32 0) (broadcastInDim 𝕊64x64 ![] bcast_S_S64x64 (constantI 𝕊₀ 32 0#32))) (iotaInDim 𝕊64x64 32 1)) (broadcastInDim 𝕊64x64 ![] bcast_S_S64x64 (constant 𝕊₀ .f32 0x00000000#32)) (broadcastInDim 𝕊64x64 ![] bcast_S_S64x64 (constant 𝕊₀ .f32 0x3F800000#32)))) (constant 𝕊₀ .f32 0x00000000#32) reducesTo_S64x64_S_d0_1 h_S_) (constant 𝕊₀ .f32 0x44FC0000#32)

/-- The total: 1 · (intraSum / 1000000) + 1 · (the hinge term of the centres). -/
def totalLoss (intraSum : FVec F ⟨0, ![]⟩ .f32) (ctr : FVec F ⟨2, ![64, 128]⟩ .f32) : FVec F ⟨0, ![]⟩ .f32 :=
  addf (mulf (constant 𝕊₀ .f32 0x3F800000#32) (Host.divf intraSum (constant 𝕊₀ .f32 0x49742400#32))) (mulf (constant 𝕊₀ .f32 0x3F800000#32) (interLoss ctr))

end Cert.Centroid

end
-- ==== Proof.KernelTail.lean ====
/-
  The host operations that follow the kernel, read back as one function of the kernel's three result arrays: the
  per-core class sums P [2, 64, 128], per-core class counts C [2, 1, 64] and per-core sums of squares Q [2, 1, 1] are
  each summed over the core axis; the centres are the sums over the clipped counts; the within-class term is
  Σ x² − Σ_k count_k · Σ_d centre(k, d)², and the loss is the weighted total of it and the pairwise hinge term.
-/
import proofs.«404953_j32289564131920_3_alg».proof.Proof.Gen.KernelIdeal.Launch
import proofs.«404953_j32289564131920_3_alg».proof.Proof.LossShape
import Idealize.ShloMosaic.Lib.StableHlo.Run
import Idealize.ShloMosaic.Lib.Pipeline.FrameSuffix
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- The 68 host operations after the kernel, as the five stretches the program is cut into. -/
abbrev tailOps : List (List (HloOp τ sig (Elt F))) := [hostOps1, hostOps1_1, hostOps1_2, hostOps1_3, hostOps1_4]

/-- The class sums: the per-core sums added over the core axis. -/
def sumsOf (P : FVec F S2x64x128 .f32) : FVec F S64x128 .f32 :=
  Host.reduceAdd P (constant S_ .f32 0x00000000#32) reducesTo_S2x64x128_S64x128_d0 h_S_

/-- The class counts: the per-core counts added over the core axis, the unit axis dropped. -/
def countsOf (C : FVec F S2x1x64 .f32) : FVec F S64 .f32 :=
  shapeCast S64 (Host.reduceAdd C (constant S_ .f32 0x00000000#32) reducesTo_S2x1x64_S1x64_d0 h_S_) shapeCasts_S1x64_S64

/-- The sum of all squares: the per-core sums added over every axis. -/
def sqOf (Q : FVec F S2x1x1 .f32) : FVec F S_ .f32 :=
  Host.reduceAdd Q (constant S_ .f32 0x00000000#32) reducesTo_S2x1x1_S_d0_1_2 h_S_

/-- The within-class sum of squared distances to the centres: Σ x² − Σ_k count_k · Σ_d centre(k, d)². -/
def intraOf (sq : FVec F S_ .f32) (counts : FVec F S64 .f32) (ctr : FVec F S64x128 .f32) : FVec F S_ .f32 :=
  subf sq (Host.reduceAdd (mulf counts (Host.reduceAdd (mulf ctr ctr) (constant S_ .f32 0x00000000#32) reducesTo_S64x128_S64_d1 h_S_)) (constant S_ .f32 0x00000000#32) reducesTo_S64_S_d0 h_S_)

/-- The loss as the host operations after the kernel compute it from the kernel's three results. -/
def kernelTail (P : FVec F S2x64x128 .f32) (C : FVec F S2x1x64 .f32) (Q : FVec F S2x1x1 .f32) : FVec F S_ .f32 :=
  Cert.Centroid.totalLoss
    (intraOf (sqOf Q) (countsOf C) (Cert.Centroid.centresOf (sumsOf P) (countsOf C)))
    (Cert.Centroid.centresOf (sumsOf P) (countsOf C))

set_option maxRecDepth 8192 in
set_option maxHeartbeats 4000000 in
/-- The result buffer after the 68 operations holds that function of the three arrays the kernel wrote. -/
theorem tail_result (W : Valuation τ sig (Elt F)) :
    StableHlo.after (tailOps (F := F)).flatten W (Proc.devRef .tc main_v40)
      = kernelTail (W (Proc.devRef .tc main_v1_0)) (W (Proc.devRef .tc main_v1_1)) (W (Proc.devRef .tc main_v1_2)) := by
  simp only [tailOps, hostOps1, hostOps1_1, hostOps1_2, hostOps1_3, hostOps1_4, List.flatten_cons, List.flatten_nil,
    List.append_nil, List.cons_append, List.nil_append]
  after_results_simp
  rfl

set_option maxRecDepth 8192 in
set_option maxHeartbeats 4000000 in
/-- The operations after the kernel write neither argument: the feature matrix is what it was. -/
theorem tail_arg0 (W : Valuation τ sig (Elt F)) :
    StableHlo.after (tailOps (F := F)).flatten W (Proc.devRef .tc main_arg0) = W (Proc.devRef .tc main_arg0) := by
  simp only [tailOps, hostOps1, hostOps1_1, hostOps1_2, hostOps1_3, hostOps1_4, List.flatten_cons, List.flatten_nil,
    List.append_nil, List.cons_append, List.nil_append]
  after_results_simp <;> rfl

set_option maxRecDepth 8192 in
set_option maxHeartbeats 4000000 in
/-- … and so is the label vector. -/
theorem tail_arg1 (W : Valuation τ sig (Elt F)) :
    StableHlo.after (tailOps (F := F)).flatten W (Proc.devRef .tc main_arg1) = W (Proc.devRef .tc main_arg1) := by
  simp only [tailOps, hostOps1, hostOps1_1, hostOps1_2, hostOps1_3, hostOps1_4, List.flatten_cons, List.flatten_nil,
    List.append_nil, List.cons_append, List.nil_append]
  after_results_simp <;> rfl

/-! ## The three sums over the core axis, read at an index (extended reals) -/

section AtIdeal

open scoped BigOperators
open Idealize.ShloMosaic.ValueIdx

/-- The class sum at (k, d) is core 0's plus core 1's. -/
theorem sumsOf_apply (P : FVec Ideal ⟨3, ![2, 64, 128]⟩ .f32) (k : Fin 64) (d : Fin 128) :
    sumsOf P (ix2 k d) = P (ix3 0 k d) + P (ix3 1 k d) := by
  have h : S2x64x128.Reduces [0] S64x128 := by decide
  unfold sumsOf
  rw [hostReduceAdd_apply, Ideal.hostReduceAdd_single _ h, constant_apply, Ideal.ofBits_zero_f32, zero_add]
  refine (Fin.sum_univ_two (f := fun c : Fin 2 => P (h.lift (ix2 k d) c))).trans ?_
  exact congrArg₂ (· + ·)
    (congrArg P (funext fun a => match a with | ⟨0, _⟩ => rfl | ⟨1, _⟩ => rfl | ⟨2, _⟩ => rfl))
    (congrArg P (funext fun a => match a with | ⟨0, _⟩ => rfl | ⟨1, _⟩ => rfl | ⟨2, _⟩ => rfl))

/-- The class count at k is core 0's plus core 1's. -/
theorem countsOf_apply (C : FVec Ideal ⟨3, ![2, 1, 64]⟩ .f32) (k : Fin 64) :
    countsOf C (ix1 k) = C (ix3 0 0 k) + C (ix3 1 0 k) := by
  have h : S2x1x64.Reduces [0] S1x64 := by decide
  unfold countsOf
  rw [shapeCast_1a_a_apply, hostReduceAdd_apply, Ideal.hostReduceAdd_single _ h, constant_apply, Ideal.ofBits_zero_f32,
    zero_add]
  refine (Fin.sum_univ_two (f := fun c : Fin 2 => C (h.lift (ix2 (0 : Fin 1) k) c))).trans ?_
  exact congrArg₂ (· + ·)
    (congrArg C (funext fun a => match a with | ⟨0, _⟩ => rfl | ⟨1, _⟩ => rfl | ⟨2, _⟩ => rfl))
    (congrArg C (funext fun a => match a with | ⟨0, _⟩ => rfl | ⟨1, _⟩ => rfl | ⟨2, _⟩ => rfl))

/-- The indices of a [2, 1, 1] array are its two core coordinates. -/
def coreIdx : Fin 2 ≃ (⟨3, ![2, 1, 1]⟩ : Shape).Idx where
  toFun c := ix3 c 0 0
  invFun j := j 0
  left_inv _ := rfl
  right_inv j := funext fun a => match a with
    | ⟨0, _⟩ => rfl
    | ⟨1, _⟩ => (Fin.eq_zero (j 1)).symm
    | ⟨2, _⟩ => (Fin.eq_zero (j 2)).symm

/-- The sum of all squares is core 0's plus core 1's. -/
theorem sqOf_apply (Q : FVec Ideal ⟨3, ![2, 1, 1]⟩ .f32) (j : (⟨0, ![]⟩ : Shape).Idx) :
    sqOf Q j = Q (ix3 0 0 0) + Q (ix3 1 0 0) := by
  unfold sqOf
  rw [hostReduceAdd_apply, Ideal.hostReduceAdd_total _ (fun b => b.elim0), constant_apply, Ideal.ofBits_zero_f32, zero_add]
  exact ((Equiv.sum_comp coreIdx Q).symm).trans (Fin.sum_univ_two (f := fun c : Fin 2 => Q (coreIdx c)))

end AtIdeal

end Cert.KernelIdeal.Hand

end
-- ==== Proof.KernelIdeal.Value.lean ====
/-
  The idealized kernel's run with its result NAMED: the frame run leaves every buffer the 68 operations after the region
  write at those operations' term over the region's exit contents; the three result arrays of the region hold each core's
  25-block sums (class sums, class counts, sum of squares); so the program's one result is the operations' composed
  function of those three arrays, and its two arguments end unchanged.
-/
import proofs.«404953_j32289564131920_3_alg».proof.Proof.KernelIdeal.Accum
import proofs.«404953_j32289564131920_3_alg».proof.Proof.KernelTail

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

/-- What the program returns, as a function of the feature matrix and the label vector. -/
def result (X : FVec Ideal Cert.Centroid.SX .f32) (T : IVec Cert.Centroid.ST 32) : FVec Ideal S_ .f32 :=
  kernelTail (F := Ideal) (Cert.Centroid.coreSums X T) (Cert.Centroid.coreCounts T) (Cert.Centroid.coreSqs X)

/-- The result buffer after the operations that follow the region: their composed function of the three per-core arrays. -/
theorem tail_value (c : Dev nD) :
    Pipeline.afterTail₀ cfgs (dats (F := Ideal) m) 0 (V0 m) sfxOps c main_v40
      = result (m ((c.tc : Thread nD τ).loc main_arg0)) (m ((c.tc : Thread nD τ).loc main_arg1)) := by
  have h1 := tail_result (F := Ideal) (Pipeline.withArrays (cfgs 0).spec c (V0 m c) fun w => (dats (F := Ideal) m 0 c).arrAt w (cfgs 0).N)
  have h2 : Pipeline.afterTail₀ cfgs (dats (F := Ideal) m) 0 (V0 m) sfxOps c main_v40 = StableHlo.after (tailOps (F := Ideal)).flatten (Pipeline.withArrays (cfgs 0).spec c (V0 m c) fun w => (dats (F := Ideal) m 0 c).arrAt w (cfgs 0).N) (Proc.devRef .tc main_v40) := rfl
  have e2 := (Pipeline.withArrays_arr spec0 launch0.win.arr_inj c (V0 m c) (fun w => (dats (F := Ideal) m 0 c).arrAt w (cfgs 0).N) 2).trans (final_sums m c)
  have e3 := (Pipeline.withArrays_arr spec0 launch0.win.arr_inj c (V0 m c) (fun w => (dats (F := Ideal) m 0 c).arrAt w (cfgs 0).N) 3).trans (final_counts m c)
  have e4 := (Pipeline.withArrays_arr spec0 launch0.win.arr_inj c (V0 m c) (fun w => (dats (F := Ideal) m 0 c).arrAt w (cfgs 0).N) 4).trans (final_sqs m c)
  exact h2.trans (h1.trans (congr (congr (congrArg (kernelTail (F := Ideal)) e2) e3) e4))

/-- THE VALUE RUN: every weakly fair execution terminates with the result at `result` of the arguments, the arguments unchanged. -/
theorem value_run : θ_run defs (onTc (τ := τ) (main (F := Ideal))) ⟨m, fun _ => 0, ρ⟩ (fun r => ∀ c : Dev nD,
      r.2.mem ((c.tc : Thread nD τ).loc main_v40) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v40 (Pipeline.mem_restRefs_of main_v40 rfl (by decide))).trans (tail_value m c),
     ((h c).1 0).trans (((dats m 0 c).arrAt_in 0 rfl _).trans ((A_eq m c 0).trans (V_main_arg0 m c))),
     ((h c).2 main_arg1 (Pipeline.mem_restRefs_of main_arg1 rfl (by decide))).trans (tail_main_arg1 m c)⟩) (run_main (F := Ideal) m ρ)

end Cert.KernelIdeal.Hand

end
-- ==== Proof.Variance.lean ====
/-
  The within-class scatter law, without a second pass over the rows.

  Rows i (a finite type I) carry real features x i d (d in a finite type D) and a class ℓ i (in a finite type K).
  For a class k write n k for the number of its rows, s k d for the sum of feature d over its rows, and
  μ k d = s k d / max 1 (n k) for its centre (an empty class has centre 0). Then

      Σ_i Σ_d (x i d − μ (ℓ i) d)²  =  Σ_i Σ_d (x i d)²  −  Σ_k n k · Σ_d (μ k d)².

  Proof: expand the square and group the rows by class. For every class, s k d = n k · μ k d (a class with a row has
  n k ≥ 1, so max 1 (n k) = n k ≠ 0; an empty class has s k d = 0 = n k). Hence the cross term
  Σ_i Σ_d x i d · μ (ℓ i) d = Σ_k Σ_d s k d · μ k d = Σ_k n k Σ_d (μ k d)², and the last term
  Σ_i Σ_d (μ (ℓ i) d)² = Σ_k n k Σ_d (μ k d)² as well; the sum is Σ x² − 2 Σ_k n Σ_d μ² + Σ_k n Σ_d μ².

  The law is proved over the reals first. The extended-real statement follows because every term in it is the
  coercion of the corresponding real term: the count, the class sum, max 1 of the count, the quotient (the divisor is
  a nonzero real), products, differences and finite sums of coerced reals are coerced reals. Extended-real
  subtraction and multiplication are not ring operations, so all algebra is done over the reals.
-/
import Mathlib.Algebra.BigOperators.Group.Finset.Basic
import Mathlib.Algebra.BigOperators.Group.Finset.Piecewise
import Mathlib.Algebra.BigOperators.Ring.Finset
import Mathlib.Algebra.Order.BigOperators.Group.Finset
import Mathlib.Data.EReal.Basic
import Mathlib.Data.EReal.Operations
import Mathlib.Tactic.Ring
import Mathlib.Tactic.FieldSimp
import Mathlib.Tactic.Linarith
import Idealize.ShloMosaic.PureOps.Ideal

noncomputable section

open scoped BigOperators

namespace Cert.Centroid

variable {I K D : Type} [Fintype I] [Fintype K] [Fintype D] [DecidableEq K]

/-! ### The law over the reals -/

/-- The number of rows of class `k`, as a real: the sum of the 0/1 indicators. -/
def nR (ℓ : I → K) (k : K) : ℝ := ∑ i, (if ℓ i = k then (1 : ℝ) else 0)

/-- The sum of feature `d` over the rows of class `k`. -/
def sR (x : I → D → ℝ) (ℓ : I → K) (k : K) (d : D) : ℝ :=
  ∑ i, (if ℓ i = k then (1 : ℝ) else 0) * x i d

/-- The centre of class `k`: its sum divided by max 1 of its count (so an empty class has centre 0). -/
def muR (x : I → D → ℝ) (ℓ : I → K) (k : K) (d : D) : ℝ := sR x ℓ k d / max 1 (nR ℓ k)

/-- A count is not negative. -/
theorem nR_nonneg (ℓ : I → K) (k : K) : 0 ≤ nR ℓ k :=
  Finset.sum_nonneg fun i _ => by split_ifs <;> norm_num

/-- The divisor max 1 (n k) is positive. -/
theorem max_one_nR_pos (ℓ : I → K) (k : K) : 0 < max 1 (nR ℓ k) :=
  lt_of_lt_of_le one_pos (le_max_left _ _)

/-- Grouping the rows by class: a sum over the rows of a term that depends on the row's class is the sum over the
classes of the indicator-weighted sums. -/
theorem sum_by_class (ℓ : I → K) (g : I → K → ℝ) :
    ∑ i, g i (ℓ i) = ∑ k, ∑ i, (if ℓ i = k then (1 : ℝ) else 0) * g i k := by
  rw [Finset.sum_comm]
  refine Finset.sum_congr rfl fun i _ => ?_
  simp only [ite_mul, one_mul, zero_mul, Finset.sum_ite_eq, Finset.mem_univ, if_true]

/-- A class's sum is its count times its centre: with a row in the class the count is at least 1, so
max 1 (n k) = n k ≠ 0; with none, both the sum and the count are 0. -/
theorem sR_eq_nR_mul_muR (x : I → D → ℝ) (ℓ : I → K) (k : K) (d : D) :
    sR x ℓ k d = nR ℓ k * muR x ℓ k d := by
  unfold muR
  by_cases h : ∃ i, ℓ i = k
  · obtain ⟨i₀, h₀⟩ := h
    have h1 : (1 : ℝ) ≤ nR ℓ k := by
      have := Finset.single_le_sum (f := fun i => if ℓ i = k then (1 : ℝ) else 0) (s := Finset.univ)
        (fun i _ => by split_ifs <;> norm_num) (Finset.mem_univ i₀)
      simpa [nR, h₀] using this
    rw [max_eq_right h1]
    have hne : nR ℓ k ≠ 0 := by linarith
    field_simp
  · have h : ∀ i, ℓ i ≠ k := fun i hi => h ⟨i, hi⟩
    have hs : sR x ℓ k d = 0 := by
      unfold sR
      exact Finset.sum_eq_zero fun i _ => by rw [if_neg (h i), zero_mul]
    have hn : nR ℓ k = 0 := by
      unfold nR
      exact Finset.sum_eq_zero fun i _ => if_neg (h i)
    rw [hs, hn, zero_mul]

/-- The within-class scatter law over the reals. -/
theorem scatter_split_real (x : I → D → ℝ) (ℓ : I → K) :
    (∑ i, ∑ d, x i d * x i d) - ∑ k, nR ℓ k * ∑ d, muR x ℓ k d * muR x ℓ k d
      = ∑ i, ∑ d, (x i d - muR x ℓ (ℓ i) d) * (x i d - muR x ℓ (ℓ i) d) := by
  -- the cross term, grouped by class, then s k d = n k · μ k d
  have hcross : ∑ i, ∑ d, x i d * muR x ℓ (ℓ i) d
      = ∑ k, nR ℓ k * ∑ d, muR x ℓ k d * muR x ℓ k d := by
    rw [sum_by_class ℓ (fun i k => ∑ d, x i d * muR x ℓ k d)]
    refine Finset.sum_congr rfl fun k _ => ?_
    simp only [Finset.mul_sum]
    rw [Finset.sum_comm]
    refine Finset.sum_congr rfl fun d _ => ?_
    have h : ∑ i, (if ℓ i = k then (1 : ℝ) else 0) * (x i d * muR x ℓ k d)
        = sR x ℓ k d * muR x ℓ k d := by
      unfold sR
      rw [Finset.sum_mul]
      exact Finset.sum_congr rfl fun i _ => by ring
    rw [h, sR_eq_nR_mul_muR]
    ring
  -- the squared centres, grouped by class
  have hsq : ∑ i, ∑ d, muR x ℓ (ℓ i) d * muR x ℓ (ℓ i) d
      = ∑ k, nR ℓ k * ∑ d, muR x ℓ k d * muR x ℓ k d := by
    rw [sum_by_class ℓ (fun i k => ∑ d, muR x ℓ k d * muR x ℓ k d)]
    refine Finset.sum_congr rfl fun k _ => ?_
    rw [nR, Finset.sum_mul]
  have hexp : ∀ i d, (x i d - muR x ℓ (ℓ i) d) * (x i d - muR x ℓ (ℓ i) d)
      = x i d * x i d - 2 * (x i d * muR x ℓ (ℓ i) d) + muR x ℓ (ℓ i) d * muR x ℓ (ℓ i) d :=
    fun i d => by ring
  simp only [hexp, Finset.sum_add_distrib, Finset.sum_sub_distrib, ← Finset.mul_sum]
  rw [hcross, hsq]
  ring

/-! ### Coercions into the extended reals -/

/-- A finite sum of coerced reals is the coerced sum. -/
@[norm_cast]
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- max 1 of a coerced real is the coerced max 1 (the coercion is monotone). -/
theorem max_one_coe (a : ℝ) : max (1 : EReal) (a : EReal) = ((max 1 a : ℝ) : EReal) := by
  rw [← EReal.coe_one]
  exact (EReal.coe_strictMono.monotone.map_max).symm

/-- The number of rows of class `k`, over the extended reals. -/
def cnt (ℓ : I → K) (k : K) : EReal := ∑ i, (if ℓ i = k then (1 : EReal) else 0)

/-- The sum of feature `d` over the rows of class `k`, over the extended reals. -/
def tot (x : I → D → ℝ) (ℓ : I → K) (k : K) (d : D) : EReal :=
  ∑ i, (if ℓ i = k then (1 : EReal) else 0) * ((x i d : ℝ) : EReal)

/-- The centre of class `k`, over the extended reals. -/
def ctr (x : I → D → ℝ) (ℓ : I → K) (k : K) (d : D) : EReal :=
  Idealize.ShloMosaic.Ideal.div (tot x ℓ k d) (max 1 (cnt ℓ k))

/-- The extended-real count is the coercion of the real count (a real ≥ 0, see `nR_nonneg`). -/
theorem cnt_coe (ℓ : I → K) (k : K) : cnt ℓ k = ((nR ℓ k : ℝ) : EReal) := by
  unfold cnt nR
  rw [coe_sum]
  refine Finset.sum_congr rfl fun i _ => ?_
  split_ifs <;> simp

/-- The extended-real class sum is the coercion of the real class sum. -/
theorem tot_coe (x : I → D → ℝ) (ℓ : I → K) (k : K) (d : D) :
    tot x ℓ k d = ((sR x ℓ k d : ℝ) : EReal) := by
  unfold tot sR
  rw [coe_sum]
  refine Finset.sum_congr rfl fun i _ => ?_
  split_ifs <;> simp

/-- The extended-real centre is the coercion of the real quotient: the divisor max 1 (n k) is a nonzero real. -/
theorem ctr_coe (x : I → D → ℝ) (ℓ : I → K) (k : K) (d : D) :
    ctr x ℓ k d = ((sR x ℓ k d / max 1 (nR ℓ k) : ℝ) : EReal) := by
  unfold ctr
  rw [tot_coe, cnt_coe, max_one_coe,
    Idealize.ShloMosaic.Ideal.div_coe (ne_of_gt (max_one_nR_pos ℓ k)), ← EReal.coe_mul, mul_one_div]

/-- The extended-real centre is the coercion of the real centre. -/
theorem ctr_coe_muR (x : I → D → ℝ) (ℓ : I → K) (k : K) (d : D) :
    ctr x ℓ k d = ((muR x ℓ k d : ℝ) : EReal) := ctr_coe x ℓ k d

/-- The within-class scatter law over the extended reals, for real features: the sum of all squares minus the
count-weighted squared centres is the sum of the squared deviations from the row's class centre. -/
theorem scatter_split (x : I → D → ℝ) (ℓ : I → K) :
    (∑ i, ∑ d, ((x i d : ℝ) : EReal) * ((x i d : ℝ) : EReal))
        - ∑ k, cnt ℓ k * ∑ d, ctr x ℓ k d * ctr x ℓ k d
      = ∑ i, ∑ d, (((x i d : ℝ) : EReal) - ctr x ℓ (ℓ i) d) * (((x i d : ℝ) : EReal) - ctr x ℓ (ℓ i) d) := by
  simp only [ctr_coe_muR, cnt_coe, ← EReal.coe_mul, ← EReal.coe_sub, ← coe_sum]
  rw [scatter_split_real]

end Cert.Centroid

end
-- ==== Proof.Regroup.lean ====
/-
  Regrouping the rows. The 1,000,000 rows, taken as 2 cores × 25 blocks × 20,000 rows in a block with
  row = (25 c + s) · 20000 + r, are every row exactly once: the map (c, s, r) ↦ row is a bijection, its inverse
  being i ↦ (i / 500000, (i / 20000) mod 25, i mod 20000). Hence a sum over cores, blocks and rows in a block is the
  sum over all rows, and the two cores' accumulated sums, counts and sums of squares add up to the class sum, the
  class count and the sum of all squares.
-/
import Mathlib.Algebra.BigOperators.Fin
import Mathlib.Algebra.BigOperators.Group.Finset.Basic
import Mathlib.Data.Fintype.BigOperators
import proofs.«404953_j32289564131920_3_alg».proof.Proof.Spec

noncomputable section

open scoped BigOperators

namespace Cert.Centroid

open Idealize.ShloMosaic Idealize.ShloMosaic.ValueIdx

/-- (core, block, row in block) ↦ row of the whole batch is a bijection; the inverse takes the quotient by 500000,
the quotient by 20000 reduced mod 25, and the remainder mod 20000. -/
def rowsEquiv : Fin 2 × Fin 25 × Fin 20000 ≃ Fin 1000000 where
  toFun p := rowOf p.1 p.2.1 p.2.2
  invFun i :=
    (⟨i.val / 500000, by have := i.isLt; omega⟩, ⟨i.val / 20000 % 25, by omega⟩, ⟨i.val % 20000, by omega⟩)
  left_inv p := by
    obtain ⟨c, s, r⟩ := p
    have hc := c.isLt
    have hs := s.isLt
    have hr := r.isLt
    refine Prod.ext (Fin.ext ?_) (Prod.ext (Fin.ext ?_) (Fin.ext ?_))
    · show ((c.val * 25 + s.val) * 20000 + r.val) / 500000 = c.val
      omega
    · show ((c.val * 25 + s.val) * 20000 + r.val) / 20000 % 25 = s.val
      omega
    · show ((c.val * 25 + s.val) * 20000 + r.val) % 20000 = r.val
      omega
  right_inv i := by
    have hi := i.isLt
    apply Fin.ext
    show (i.val / 500000 * 25 + i.val / 20000 % 25) * 20000 + i.val % 20000 = i.val
    omega

/-- The forward map of `rowsEquiv` is `rowOf`. -/
theorem rowsEquiv_apply (c : Fin 2) (s : Fin 25) (r : Fin 20000) : rowsEquiv (c, s, r) = rowOf c s r := rfl

/-- A sum over cores, blocks and rows in a block is the sum over all rows. -/
theorem sum_rowOf {M : Type} [AddCommMonoid M] (f : Fin 1000000 → M) :
    ∑ c : Fin 2, ∑ s : Fin 25, ∑ r : Fin 20000, f (rowOf c s r) = ∑ i : Fin 1000000, f i := by
  rw [← Equiv.sum_comp rowsEquiv f, Fintype.sum_prod_type]
  refine Finset.sum_congr rfl fun c _ => ?_
  rw [Fintype.sum_prod_type]
  exact Finset.sum_congr rfl fun s _ => Finset.sum_congr rfl fun r _ => rfl

/-- The two cores' accumulated class sums add up to the class sum over all rows. -/
theorem coreSums_total (X : FVec Ideal SX .f32) (T : IVec ST 32) (k : Fin 64) (d : Fin 128) :
    coreSums X T (ix3 0 k d) + coreSums X T (ix3 1 k d) = classSum X T k d := by
  unfold classSum
  rw [← sum_rowOf (fun i => oh T i k * (X (ix2 i d) : EReal)), Fin.sum_univ_two]
  rfl

/-- The two cores' accumulated class counts add up to the class count over all rows. -/
theorem coreCounts_total (T : IVec ST 32) (k : Fin 64) :
    coreCounts T (ix3 0 0 k) + coreCounts T (ix3 1 0 k) = classCount T k := by
  unfold classCount
  rw [← sum_rowOf (fun i => oh T i k), Fin.sum_univ_two]
  rfl

/-- The two cores' accumulated sums of squares add up to the sum of all squares. -/
theorem coreSqs_total (X : FVec Ideal SX .f32) :
    coreSqs X (ix3 0 0 0) + coreSqs X (ix3 1 0 0) = sqSum X := by
  unfold sqSum
  rw [← sum_rowOf (fun i => ∑ d : Fin 128, (X (ix2 i d) : EReal) * (X (ix2 i d) : EReal)), Fin.sum_univ_two]
  rfl

end Cert.Centroid

end
-- ==== Proof.KernelIntra.lean ====
/-
  The within-class term the host operations after the kernel compute, read at its one index over the extended reals:
  the sum of squares minus Σ_k count_k · Σ_d centre(k, d)².
-/
import proofs.«404953_j32289564131920_3_alg».proof.Proof.KernelTail
import Idealize.ShloMosaic.Lib.ValueIdx
import Idealize.ShloMosaic.Lib.ValueIdxRank1
import Idealize.ShloMosaic.Lib.IdealHost
import Idealize.ShloMosaic.PureOps.Ideal.Laws

noncomputable section

namespace Cert.KernelIdeal.Hand

open Cert.KernelIdeal Cert.KernelIdeal.Gen Idealize.ShloMosaic Idealize.ShloMosaic.TcCoe Idealize.SL.Sem Idealize.ShloMosaic.StableHlo
open scoped BigOperators
open Idealize.ShloMosaic.ValueIdx

/-- The inner sum runs over the 128 features of one class (one axis of a [64, 128] array), the outer over all 64
    classes (every axis of a [64] array, re-indexed by the class number); both start from 0, and 0 + a = a. -/
theorem intraOf_apply (sq : FVec Ideal S_ .f32) (counts : FVec Ideal S64 .f32) (ctr : FVec Ideal S64x128 .f32) (j : S_.Idx) :
    intraOf sq counts ctr j = sq j - ∑ k : Fin 64, counts (ix1 k) * ∑ d : Fin 128, ctr (ix2 k d) * ctr (ix2 k d) := by
  have h1 : S64x128.Reduces [1] S64 := by decide
  unfold intraOf
  rw [subf_apply, hostReduceAdd_apply, Ideal.hostReduceAdd_total _ (fun b => b.elim0), constant_apply, Ideal.ofBits_zero_f32,
    zero_add]
  refine congrArg (sq j - ·) ((Equiv.sum_comp (idxEquiv1 (n := 64)).symm _).symm.trans (Finset.sum_congr rfl fun (k : Fin 64) _ => ?_))
  show mulf counts _ (ix1 k) = _
  rw [mulf_apply, hostReduceAdd_apply, Ideal.hostReduceAdd_single _ h1, constant_apply, Ideal.ofBits_zero_f32, zero_add]
  refine congrArg (counts (ix1 k) * ·) (Finset.sum_congr rfl fun (d : Fin 128) _ => ?_)
  have ed : h1.lift (ix1 k) d = ix2 k d := funext fun a => match a with | ⟨0, _⟩ => rfl | ⟨1, _⟩ => rfl
  rw [ed, mulf_apply]

end Cert.KernelIdeal.Hand

end
-- ==== Proof.LibScatterRows.lean ====
/-
  A general lemma about the host's accumulating scatter on the extended reals.

  A ROW scatter-add — `stablehlo.scatter` with an `add` body, `update_window_dims = [1]`, `inserted_window_dims = [0]`,
  `scatter_dims_to_operand_dims = [0]`, `index_vector_dim = 1`, on an operand of shape `[S, C]`, scatter indices `[R, 1]`
  and updates `[R, C]` — adds row `r` of the updates to row `idx r` of the operand (jax's `segment_sum`). On the extended
  reals the sum is exact and order-free, so the result at `(s, c)` is the operand there plus the sum of the updates'
  column `c` over the rows whose index word is `s`; and when those rows are enumerated without repetition by
  `e : Fin P → Fin R`, that sum is `∑ p, upd (e p, c)`.
-/
import Idealize.ShloMosaic.PureOps.Ideal
import Idealize.ShloMosaic.Lib.ValueIdx

noncomputable section

namespace Cert.LibScatterRows

open Idealize.ShloMosaic Idealize.ShloMosaic.ValueIdx

/-- A sum over the members of a set of rows cut out by a predicate, re-indexed by an enumeration of that set:
    `e` is injective, lands in the set, and reaches every member. -/
theorem sum_filter_eq_sum_enum {R P : ℕ} {M : Type} [AddCommMonoid M] (pred : Fin R → Prop) [DecidablePred pred]
    (e : Fin P → Fin R) (hinj : Function.Injective e) (hmem : ∀ p, pred (e p)) (hsurj : ∀ r, pred r → ∃ p, e p = r)
    (f : Fin R → M) : ∑ r ∈ Finset.univ.filter pred, f r = ∑ p : Fin P, f (e p) := by
  have hset : Finset.univ.filter pred = Finset.univ.image e := by
    ext r
    simp only [Finset.mem_filter, Finset.mem_univ, true_and, Finset.mem_image]
    constructor
    · intro h; exact hsurj r h
    · rintro ⟨p, rfl⟩; exact hmem p
  rw [hset, Finset.sum_image (fun a _ b _ h => hinj h)]

/-- On operand axis 0 the window starts at the index word of the update's row, read signed. -/
theorem rows_start_zero {S C R w : ℕ}
    (wf : ScatterDims.WF (⟨2, ![S, C]⟩ : Shape) ⟨2, ![R, 1]⟩ ⟨2, ![R, C]⟩ [1] [0] [0] 1)
    (idx : IVec ⟨2, ![R, 1]⟩ w) (r : Fin R) (c' : Fin C) :
    (⟨[1], [0], [0], 1, wf⟩ : ScatterDims ⟨2, ![S, C]⟩ ⟨2, ![R, 1]⟩ ⟨2, ![R, C]⟩).start (ix2 r c') idx 0
      = (idx (ix2 r (0 : Fin 1))).toInt := by
  unfold ScatterDims.start
  rw [dif_pos (show (0 : Fin 2) ∈ [(0 : Fin 2)] from List.mem_singleton.mpr rfl)]
  congr 2
  funext b
  refine Fin.ext ?_
  match b with
  | ⟨0, _⟩ => rfl
  | ⟨1, _⟩ => rfl

/-- On operand axis 1 the window starts at 0. -/
theorem rows_start_one {S C R w : ℕ}
    (wf : ScatterDims.WF (⟨2, ![S, C]⟩ : Shape) ⟨2, ![R, 1]⟩ ⟨2, ![R, C]⟩ [1] [0] [0] 1)
    (idx : IVec ⟨2, ![R, 1]⟩ w) (r : Fin R) (c' : Fin C) :
    (⟨[1], [0], [0], 1, wf⟩ : ScatterDims ⟨2, ![S, C]⟩ ⟨2, ![R, 1]⟩ ⟨2, ![R, C]⟩).start (ix2 r c') idx 1 = 0 := by
  unfold ScatterDims.start
  rw [dif_neg (show ¬ (1 : Fin 2) ∈ [(0 : Fin 2)] by decide)]

/-- On operand axis 0, an inserted axis, the window coordinate is 0. -/
theorem rows_window_zero {S C R : ℕ}
    (wf : ScatterDims.WF (⟨2, ![S, C]⟩ : Shape) ⟨2, ![R, 1]⟩ ⟨2, ![R, C]⟩ [1] [0] [0] 1)
    (r : Fin R) (c' : Fin C) :
    (⟨[1], [0], [0], 1, wf⟩ : ScatterDims ⟨2, ![S, C]⟩ ⟨2, ![R, 1]⟩ ⟨2, ![R, C]⟩).window (ix2 r c') 0 = 0 := by
  unfold ScatterDims.window
  exact dif_neg (show ¬ (0 : Fin 2) ∈ (List.finRange 2).filter (· ∉ [(0 : Fin 2)]) by decide)

/-- On operand axis 1 the window coordinate is the update's column. -/
theorem rows_window_one {S C R : ℕ}
    (wf : ScatterDims.WF (⟨2, ![S, C]⟩ : Shape) ⟨2, ![R, 1]⟩ ⟨2, ![R, C]⟩ [1] [0] [0] 1)
    (r : Fin R) (c' : Fin C) :
    (⟨[1], [0], [0], 1, wf⟩ : ScatterDims ⟨2, ![S, C]⟩ ⟨2, ![R, 1]⟩ ⟨2, ![R, C]⟩).window (ix2 r c') 1 = c'.val := by
  unfold ScatterDims.window
  exact (dif_pos (show (1 : Fin 2) ∈ (List.finRange 2).filter (· ∉ [(0 : Fin 2)]) by decide)).trans rfl

/-- Where an update lands, on a rank-2 operand, from the window's start and coordinate on the two axes: if on axis 0
    the start is `t` and the window coordinate 0, and on axis 1 the start is 0 and the window coordinate `k`, the update
    goes to `(s, c)` exactly when `t = s` and `k = c` (otherwise it goes elsewhere or is dropped). -/
theorem resultIdx_eq_some_ix2_iff {S C w : ℕ} {si u : Shape} (d : ScatterDims ⟨2, ![S, C]⟩ si u) (j : u.Idx)
    (idx : IVec si w) (t : Int) (k : ℕ) (h00 : d.start j idx 0 = t) (h01 : d.start j idx 1 = 0)
    (hw0 : d.window j 0 = 0) (hw1 : d.window j 1 = k) (s : Fin S) (c : Fin C) :
    d.resultIdx? j idx = some (ix2 s c) ↔ t = (s.val : Int) ∧ k = c.val := by
  have hs := s.isLt
  have hc := c.isLt
  unfold ScatterDims.resultIdx?
  constructor
  · intro h
    split_ifs at h with hall
    have hfun := Option.some.inj h
    have e0 : (d.start j idx 0 + (d.window j 0 : ℕ)).toNat = s.val := congrArg (fun f => (f 0).val) hfun
    have e1 : (d.start j idx 1 + (d.window j 1 : ℕ)).toNat = c.val := congrArg (fun f => (f 1).val) hfun
    have b0 : 0 ≤ d.start j idx 0 + (d.window j 0 : ℕ) := (hall 0).1
    have b1 : 0 ≤ d.start j idx 1 + (d.window j 1 : ℕ) := (hall 1).1
    rw [h00, hw0] at e0 b0
    rw [h01, hw1] at e1 b1
    constructor <;> omega
  · rintro ⟨ht, hk⟩
    have hall : ∀ a, 0 ≤ d.start j idx a + d.window j a
        ∧ d.start j idx a + d.window j a < (⟨2, ![S, C]⟩ : Shape).size a := by
      intro a
      match a with
      | ⟨0, _⟩ =>
        show 0 ≤ d.start j idx 0 + (d.window j 0 : ℕ) ∧ d.start j idx 0 + (d.window j 0 : ℕ) < (S : Int)
        rw [h00, hw0]; omega
      | ⟨1, _⟩ =>
        show 0 ≤ d.start j idx 1 + (d.window j 1 : ℕ) ∧ d.start j idx 1 + (d.window j 1 : ℕ) < (C : Int)
        rw [h01, hw1]; omega
    rw [dif_pos hall]
    congr 1
    funext a
    refine Fin.ext ?_
    match a with
    | ⟨0, _⟩ =>
      show (d.start j idx 0 + (d.window j 0 : ℕ)).toNat = s.val
      rw [h00, hw0]; omega
    | ⟨1, _⟩ =>
      show (d.start j idx 1 + (d.window j 1 : ℕ)).toNat = c.val
      rw [h01, hw1]; omega

/-- Where an update of a row scatter lands: the update at row `r`, column `c'` goes to operand index `(s, c)` exactly
    when the row's index word, read signed, is `s` and the columns agree. -/
theorem rows_resultIdx_eq_some_iff {S C R w : ℕ}
    (wf : ScatterDims.WF (⟨2, ![S, C]⟩ : Shape) ⟨2, ![R, 1]⟩ ⟨2, ![R, C]⟩ [1] [0] [0] 1)
    (idx : IVec ⟨2, ![R, 1]⟩ w) (r : Fin R) (c' : Fin C) (s : Fin S) (c : Fin C) :
    (⟨[1], [0], [0], 1, wf⟩ : ScatterDims ⟨2, ![S, C]⟩ ⟨2, ![R, 1]⟩ ⟨2, ![R, C]⟩).resultIdx? (ix2 r c') idx
        = some (ix2 s c)
      ↔ (idx (ix2 r (0 : Fin 1))).toInt = (s.val : Int) ∧ c' = c := by
  rw [resultIdx_eq_some_ix2_iff _ _ idx _ _ (rows_start_zero wf idx r c') (rows_start_one wf idx r c')
    (rows_window_zero wf r c') (rows_window_one wf r c') s c, Fin.ext_iff]

/-- A row scatter-add read at `(s, c)`: the operand there plus the updates' column `c` summed over the rows whose index
    word, read signed, is `s`. -/
theorem hostScatterAdd_rows_apply {S C R w : ℕ}
    (wf : ScatterDims.WF (⟨2, ![S, C]⟩ : Shape) ⟨2, ![R, 1]⟩ ⟨2, ![R, C]⟩ [1] [0] [0] 1)
    (x : (⟨2, ![S, C]⟩ : Shape).Idx → EReal) (idx : IVec ⟨2, ![R, 1]⟩ w) (upd : (⟨2, ![R, C]⟩ : Shape).Idx → EReal)
    (s : Fin S) (c : Fin C) :
    Ideal.hostScatterAdd (⟨[1], [0], [0], 1, wf⟩ : ScatterDims ⟨2, ![S, C]⟩ ⟨2, ![R, 1]⟩ ⟨2, ![R, C]⟩) x idx upd (ix2 s c)
      = x (ix2 s c)
        + ∑ r ∈ Finset.univ.filter (fun r : Fin R => (idx (ix2 r (0 : Fin 1))).toInt = (s.val : Int)), upd (ix2 r c) := by
  unfold Ideal.hostScatterAdd
  congr 1
  rw [Finset.sum_filter, sum_idx2, Finset.sum_filter]
  refine Finset.sum_congr rfl fun r _ => ?_
  by_cases hr : (idx (ix2 r (0 : Fin 1))).toInt = (s.val : Int)
  · rw [if_pos hr, Finset.sum_eq_single c]
    · exact if_pos ((rows_resultIdx_eq_some_iff wf idx r c s c).2 ⟨hr, rfl⟩)
    · intro c' _ hne
      exact if_neg fun h => hne ((rows_resultIdx_eq_some_iff wf idx r c' s c).1 h).2
    · intro hc
      exact absurd (Finset.mem_univ c) hc
  · rw [if_neg hr]
    exact Finset.sum_eq_zero fun c' _ => if_neg fun h => hr ((rows_resultIdx_eq_some_iff wf idx r c' s c).1 h).1

/-- The same with the rows of segment `s` enumerated: if row `r`'s index word is the natural number `seg r`, and `e`
    lists the rows with `seg r = s` once each, the result at `(s, c)` is the operand there plus `∑ p, upd (e p, c)`. -/
theorem hostScatterAdd_rows_enum {S C R P w : ℕ}
    (wf : ScatterDims.WF (⟨2, ![S, C]⟩ : Shape) ⟨2, ![R, 1]⟩ ⟨2, ![R, C]⟩ [1] [0] [0] 1)
    (x : (⟨2, ![S, C]⟩ : Shape).Idx → EReal) (idx : IVec ⟨2, ![R, 1]⟩ w) (upd : (⟨2, ![R, C]⟩ : Shape).Idx → EReal)
    (seg : Fin R → ℕ) (hseg : ∀ r : Fin R, (idx (ix2 r (0 : Fin 1))).toInt = (seg r : Int))
    (s : Fin S) (c : Fin C) (e : Fin P → Fin R) (hinj : Function.Injective e) (hmem : ∀ p, seg (e p) = s.val)
    (hsurj : ∀ r, seg r = s.val → ∃ p, e p = r) :
    Ideal.hostScatterAdd (⟨[1], [0], [0], 1, wf⟩ : ScatterDims ⟨2, ![S, C]⟩ ⟨2, ![R, 1]⟩ ⟨2, ![R, C]⟩) x idx upd (ix2 s c)
      = x (ix2 s c) + ∑ p : Fin P, upd (ix2 (e p) c) := by
  rw [hostScatterAdd_rows_apply wf x idx upd s c]
  congr 1
  refine sum_filter_eq_sum_enum (fun r : Fin R => (idx (ix2 r (0 : Fin 1))).toInt = (s.val : Int)) e hinj ?_ ?_
    (fun r => upd (ix2 r c))
  · intro p
    show (idx (ix2 (e p) (0 : Fin 1))).toInt = (s.val : Int)
    rw [hseg, hmem]
  · intro r hr
    have hr' : (idx (ix2 r (0 : Fin 1))).toInt = (s.val : Int) := hr
    rw [hseg] at hr'
    exact hsurj r (Int.ofNat.inj hr')

end Cert.LibScatterRows

end
-- ==== Proof.LibScatterVec.lean ====
/-
  A general lemma about the host's accumulating scatter on the extended reals, for a VECTOR operand.

  A scatter-add of scalars — `stablehlo.scatter` with an `add` body, no update window axis, `inserted_window_dims = [0]`,
  `scatter_dims_to_operand_dims = [0]`, `index_vector_dim = 1`, on an operand of shape `[S]`, scatter indices `[R, 1]`
  and updates `[R]` — adds update `r` to element `idx r` of the operand (jax's `segment_sum` of a vector: a count, when
  the updates are ones). The index word is read signed and is not clamped: an update whose word is negative or at
  least `S` lands nowhere. On the extended reals the sum is exact and order-free, so the result at `s` is the operand
  there plus the sum of the updates over the rows whose index word is `s`.
-/
import Idealize.ShloMosaic.PureOps.Ideal
import Idealize.ShloMosaic.Lib.ValueIdx

noncomputable section

namespace Cert.LibScatterVec

open Idealize.ShloMosaic Idealize.ShloMosaic.ValueIdx

/-- A rank-1 index set is its one coordinate's. -/
def idxEquiv1 {n : ℕ} : (⟨1, ![n]⟩ : Shape).Idx ≃ Fin n where
  toFun j := j 0
  invFun a := ix1 a
  left_inv j := (eq_ix1 j).symm
  right_inv _ := rfl

/-- A sum over a rank-1 index set is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- On the operand's one axis the window starts at the index word of the update, read signed. -/
theorem vec_start {S R w : ℕ}
    (wf : ScatterDims.WF (⟨1, ![S]⟩ : Shape) ⟨2, ![R, 1]⟩ ⟨1, ![R]⟩ [] [0] [0] 1)
    (idx : IVec ⟨2, ![R, 1]⟩ w) (r : Fin R) :
    (⟨[], [0], [0], 1, wf⟩ : ScatterDims ⟨1, ![S]⟩ ⟨2, ![R, 1]⟩ ⟨1, ![R]⟩).start (ix1 r) idx 0
      = (idx (ix2 r (0 : Fin 1))).toInt := by
  unfold ScatterDims.start
  rw [dif_pos (show (0 : Fin 1) ∈ [(0 : Fin 1)] from List.mem_singleton.mpr rfl)]
  congr 2
  funext b
  refine Fin.ext ?_
  match b with
  | ⟨0, _⟩ => rfl
  | ⟨1, _⟩ => rfl

/-- The operand's one axis is an inserted axis: the window coordinate there is 0. -/
theorem vec_window {S R : ℕ}
    (wf : ScatterDims.WF (⟨1, ![S]⟩ : Shape) ⟨2, ![R, 1]⟩ ⟨1, ![R]⟩ [] [0] [0] 1) (r : Fin R) :
    (⟨[], [0], [0], 1, wf⟩ : ScatterDims ⟨1, ![S]⟩ ⟨2, ![R, 1]⟩ ⟨1, ![R]⟩).window (ix1 r) 0 = 0 := by
  unfold ScatterDims.window
  exact dif_neg (show ¬ (0 : Fin 1) ∈ (List.finRange 1).filter (· ∉ [(0 : Fin 1)]) by decide)

/-- Where an update lands on a vector operand: if the window starts at `t` with window coordinate 0, the update
    goes to `s` exactly when `t = s` (otherwise it goes elsewhere or is dropped). -/
theorem resultIdx_eq_some_ix1_iff {S w : ℕ} {si u : Shape} (d : ScatterDims ⟨1, ![S]⟩ si u) (j : u.Idx)
    (idx : IVec si w) (t : Int) (h0 : d.start j idx 0 = t) (hw : d.window j 0 = 0) (s : Fin S) :
    d.resultIdx? j idx = some (ix1 s) ↔ t = (s.val : Int) := by
  have hs := s.isLt
  unfold ScatterDims.resultIdx?
  constructor
  · intro h
    split_ifs at h with hall
    have hfun := Option.some.inj h
    have e0 : (d.start j idx 0 + (d.window j 0 : ℕ)).toNat = s.val := congrArg (fun f => (f 0).val) hfun
    have b0 : 0 ≤ d.start j idx 0 + (d.window j 0 : ℕ) := (hall 0).1
    rw [h0, hw] at e0 b0
    omega
  · intro ht
    have hall : ∀ a, 0 ≤ d.start j idx a + d.window j a
        ∧ d.start j idx a + d.window j a < (⟨1, ![S]⟩ : Shape).size a := by
      intro a
      match a with
      | ⟨0, _⟩ =>
        show 0 ≤ d.start j idx 0 + (d.window j 0 : ℕ) ∧ d.start j idx 0 + (d.window j 0 : ℕ) < (S : Int)
        rw [h0, hw]; omega
    rw [dif_pos hall]
    congr 1
    funext a
    refine Fin.ext ?_
    match a with
    | ⟨0, _⟩ =>
      show (d.start j idx 0 + (d.window j 0 : ℕ)).toNat = s.val
      rw [h0, hw]; omega

/-- Where an update of a vector scatter lands: update `r` goes to operand element `s` exactly when its index word,
    read signed, is `s`. -/
theorem vec_resultIdx_eq_some_iff {S R w : ℕ}
    (wf : ScatterDims.WF (⟨1, ![S]⟩ : Shape) ⟨2, ![R, 1]⟩ ⟨1, ![R]⟩ [] [0] [0] 1)
    (idx : IVec ⟨2, ![R, 1]⟩ w) (r : Fin R) (s : Fin S) :
    (⟨[], [0], [0], 1, wf⟩ : ScatterDims ⟨1, ![S]⟩ ⟨2, ![R, 1]⟩ ⟨1, ![R]⟩).resultIdx? (ix1 r) idx = some (ix1 s)
      ↔ (idx (ix2 r (0 : Fin 1))).toInt = (s.val : Int) :=
  resultIdx_eq_some_ix1_iff _ _ idx _ (vec_start wf idx r) (vec_window wf r) s

/-- A vector scatter-add read at `s`: the operand there plus the updates summed over the rows whose index word, read
    signed, is `s`. -/
theorem hostScatterAdd_vec_apply {S R w : ℕ}
    (wf : ScatterDims.WF (⟨1, ![S]⟩ : Shape) ⟨2, ![R, 1]⟩ ⟨1, ![R]⟩ [] [0] [0] 1)
    (x : (⟨1, ![S]⟩ : Shape).Idx → EReal) (idx : IVec ⟨2, ![R, 1]⟩ w) (upd : (⟨1, ![R]⟩ : Shape).Idx → EReal)
    (s : Fin S) :
    Ideal.hostScatterAdd (⟨[], [0], [0], 1, wf⟩ : ScatterDims ⟨1, ![S]⟩ ⟨2, ![R, 1]⟩ ⟨1, ![R]⟩) x idx upd (ix1 s)
      = x (ix1 s)
        + ∑ r ∈ Finset.univ.filter (fun r : Fin R => (idx (ix2 r (0 : Fin 1))).toInt = (s.val : Int)), upd (ix1 r) := by
  unfold Ideal.hostScatterAdd
  congr 1
  rw [Finset.sum_filter, sum_idx1, Finset.sum_filter]
  refine Finset.sum_congr rfl fun r _ => ?_
  by_cases hr : (idx (ix2 r (0 : Fin 1))).toInt = (s.val : Int)
  · rw [if_pos hr, if_pos ((vec_resultIdx_eq_some_iff wf idx r s).2 hr)]
  · rw [if_neg hr, if_neg fun h => hr ((vec_resultIdx_eq_some_iff wf idx r s).1 h)]

end Cert.LibScatterVec

end
-- ==== Proof.LibClampIx.lean ====
/-! # A gather's start index: a 32-bit word read signed and clamped into an axis

StableHLO's gather reads each component of a start index as a signed integer and clamps it into
`[0, size − slice size]`. On an axis of `U` positions whose slice has one position that is
`min (max w 0) (U − 1)`: `Int.toNat` sends the negative words to `0`, `min` cuts at `U − 1`. This file names
that position as an element of `Fin U`, so that two programs gathering along the same axis are seen to read
the same place, and records two facts about words that already lie on the axis. -/

namespace Cert.Hand

/-- The position on an axis of `U` places that the word `w`, read signed, is clamped to. -/
def clampIx (U : Nat) (hU : 0 < U) (w : BitVec 32) : Fin U := ⟨min w.toInt.toNat (U - 1), by omega⟩

theorem clampIx_val (U : Nat) (hU : 0 < U) (w : BitVec 32) :
    (clampIx U hU w).val = min w.toInt.toNat (U - 1) := rfl

/-- A word that lies on the axis is its own clamped position. -/
theorem clampIx_val_of_mem (U : Nat) (hU : 0 < U) (w : BitVec 32) (h0 : 0 ≤ w.toInt) (hlt : w.toInt < (U : Int)) :
    (clampIx U hU w).val = w.toInt.toNat := by
  rw [clampIx_val]
  have : w.toInt.toNat < U := by omega
  omega

/-- As an integer, too. -/
theorem clampIx_val_int_of_mem (U : Nat) (hU : 0 < U) (w : BitVec 32) (h0 : 0 ≤ w.toInt) (hlt : w.toInt < (U : Int)) :
    ((clampIx U hU w).val : Int) = w.toInt := by
  rw [clampIx_val_of_mem U hU w h0 hlt]; omega

/-- A word that is not negative as a signed integer is not signed-below zero. -/
theorem slt_zero_of_nonneg (w : BitVec 32) (h0 : 0 ≤ w.toInt) : BitVec.slt w 0#32 = false := by
  simp only [BitVec.slt, BitVec.toInt_zero]
  exact decide_eq_false (by omega)

/-- The normalisation of a possibly negative position — add the axis' length to a word below zero — leaves a
    word that is not negative alone. -/
theorem wrap_of_nonneg (w u : BitVec 32) (h0 : 0 ≤ w.toInt) : (if BitVec.slt w 0#32 then w + u else w) = w := by
  rw [slt_zero_of_nonneg w h0]; rfl

end Cert.Hand
-- ==== Proof.LibGatherAt.lean ====
import proofs.«404953_j32289564131920_3_alg».proof.Proof.LibClampIx
import Idealize.ShloMosaic.Lib.ValueIdx

/-! # `stablehlo.gather` read at an index, for four arrangements of axes

`Host.gather d x idx j = x (d.operandIdx j idx)`: on each operand axis the operand index is the clamped start
(the start index's component for that axis, read signed, when the start-index map names the axis) plus the
batching coordinate plus the offset coordinate (the result's own coordinate on an offset axis). Here are the
four arrangements in which every axis is either an offset axis read whole or a collapsed axis named by the
start-index map, there is no batching axis, and the start indices are `[N, 1]` or `[N, 2]` with the index
vector on the last axis. Each lemma is stated over variable extents, for dimension numbers given as a record of
those extents, and says which operand element result element `(l, n)` or `(n, l)` is, with the clamped
positions written as `clampIx`. -/

namespace Cert.Hand

open Idealize.ShloMosaic Idealize.ShloMosaic.ValueIdx

section LUV
variable {α : Type} {L U V N : Nat}

/-- Dimension numbers of a gather that reads, for each of `N` index pairs `(u, v)`, the whole first axis of an
    operand `[L, U, V]` at `(·, u, v)`: the result is `[L, N]`. -/
abbrev dimsLUV (L U V N : Nat)
    (wf : GatherDims.WF ⟨3, ![L, U, V]⟩ ⟨2, ![N, 2]⟩ ⟨2, ![L, N]⟩ [0] [1, 2] [] [1, 2] [] 1 ![L, 1, 1]) :
    GatherDims ⟨3, ![L, U, V]⟩ ⟨2, ![N, 2]⟩ ⟨2, ![L, N]⟩ where
  offsetDims := [0]
  collapsedSliceDims := [1, 2]
  operandBatchingDims := []
  startIndicesBatchingDims := []
  startIndexMap := [1, 2]
  indexVectorDim := 1
  sliceSizes := ![L, 1, 1]
  wf := wf

/-- Result element `(l, n)` is the operand at `(l, u, v)`, where `u` and `v` are the two words of index pair
    `n`, each read signed and clamped into its axis. -/
theorem gather_LUV_apply (hU : 0 < U) (hV : 0 < V)
    (wf : GatherDims.WF ⟨3, ![L, U, V]⟩ ⟨2, ![N, 2]⟩ ⟨2, ![L, N]⟩ [0] [1, 2] [] [1, 2] [] 1 ![L, 1, 1])
    (x : (⟨3, ![L, U, V]⟩ : Shape).Idx → α) (idx : IVec ⟨2, ![N, 2]⟩ 32) (l : Fin L) (n : Fin N) :
    Host.gather (dimsLUV L U V N wf) x idx (ix2 l n)
      = x (ix3 l (clampIx U hU (idx (ix2 n 0))) (clampIx V hV (idx (ix2 n 1)))) := by
  unfold Host.gather
  congr 1
  funext a
  refine Fin.ext ?_
  match a with
  | ⟨0, h0⟩ =>
    -- the first axis is the offset axis: no start, the result's own first coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨0, h0⟩ : Fin 3) ∉ (dimsLUV L U V N wf).startIndexMap from
      (by decide : (0 : Fin 3) ∉ ([1, 2] : List (Fin 3))))]
    unfold GatherDims.offCoord
    rw [dif_pos (show (⟨0, h0⟩ : Fin 3) ∈ (dimsLUV L U V N wf).sKept from
      (by decide : (0 : Fin 3) ∈ ([0] : List (Fin 3))))]
    rw [Nat.add_zero, Nat.zero_add]
    rfl
  | ⟨1, h1⟩ =>
    -- the second axis is collapsed and is the start index's first component
    show GatherDims.start _ _ _ _ + GatherDims.batchCoord _ _ _ + GatherDims.offCoord _ _ _ = _
    have hm : (⟨1, h1⟩ : Fin 3) ∈ (dimsLUV L U V N wf).startIndexMap :=
      (by decide : (1 : Fin 3) ∈ ([1, 2] : List (Fin 3)))
    rw [GatherDims.batchCoord_eq_zero _ _ _ List.not_mem_nil,
      GatherDims.offCoord_eq_zero _ _ _ (show (⟨1, h1⟩ : Fin 3) ∉ (dimsLUV L U V N wf).sKept from
        (by decide : (1 : Fin 3) ∉ ([0] : List (Fin 3))))]
    unfold GatherDims.start
    rw [dif_pos hm]
    have hsi : (dimsLUV L U V N wf).siIdx (ix2 l n)
        ⟨List.idxOf (⟨1, h1⟩ : Fin 3) (dimsLUV L U V N wf).startIndexMap, List.idxOf_lt_length_iff.2 hm⟩
          = ix2 n 0 := by
      funext b; refine Fin.ext ?_
      match b with
      | ⟨0, _⟩ => rfl
      | ⟨1, _⟩ => rfl
    rw [hsi]
    rfl
  | ⟨2, h2⟩ =>
    -- the third axis is collapsed and is the start index's second component
    show GatherDims.start _ _ _ _ + GatherDims.batchCoord _ _ _ + GatherDims.offCoord _ _ _ = _
    have hm : (⟨2, h2⟩ : Fin 3) ∈ (dimsLUV L U V N wf).startIndexMap :=
      (by decide : (2 : Fin 3) ∈ ([1, 2] : List (Fin 3)))
    rw [GatherDims.batchCoord_eq_zero _ _ _ List.not_mem_nil,
      GatherDims.offCoord_eq_zero _ _ _ (show (⟨2, h2⟩ : Fin 3) ∉ (dimsLUV L U V N wf).sKept from
        (by decide : (2 : Fin 3) ∉ ([0] : List (Fin 3))))]
    unfold GatherDims.start
    rw [dif_pos hm]
    have hsi : (dimsLUV L U V N wf).siIdx (ix2 l n)
        ⟨List.idxOf (⟨2, h2⟩ : Fin 3) (dimsLUV L U V N wf).startIndexMap, List.idxOf_lt_length_iff.2 hm⟩
          = ix2 n 1 := by
      funext b; refine Fin.ext ?_
      match b with
      | ⟨0, _⟩ => rfl
      | ⟨1, _⟩ => rfl
    rw [hsi]
    rfl

end LUV

section LU
variable {α : Type} {L U N : Nat}

/-- Dimension numbers of a gather that reads, for each of `N` indices `u`, the whole first axis of an operand
    `[L, U]` at `(·, u)`: the result is `[L, N]`. -/
abbrev dimsLU (L U N : Nat)
    (wf : GatherDims.WF ⟨2, ![L, U]⟩ ⟨2, ![N, 1]⟩ ⟨2, ![L, N]⟩ [0] [1] [] [1] [] 1 ![L, 1]) :
    GatherDims ⟨2, ![L, U]⟩ ⟨2, ![N, 1]⟩ ⟨2, ![L, N]⟩ where
  offsetDims := [0]
  collapsedSliceDims := [1]
  operandBatchingDims := []
  startIndicesBatchingDims := []
  startIndexMap := [1]
  indexVectorDim := 1
  sliceSizes := ![L, 1]
  wf := wf

/-- Result element `(l, n)` is the operand at `(l, u)`, where `u` is index word `n` read signed and clamped
    into the second axis. -/
theorem gather_LU_apply (hU : 0 < U)
    (wf : GatherDims.WF ⟨2, ![L, U]⟩ ⟨2, ![N, 1]⟩ ⟨2, ![L, N]⟩ [0] [1] [] [1] [] 1 ![L, 1])
    (x : (⟨2, ![L, U]⟩ : Shape).Idx → α) (idx : IVec ⟨2, ![N, 1]⟩ 32) (l : Fin L) (n : Fin N) :
    Host.gather (dimsLU L U N wf) x idx (ix2 l n) = x (ix2 l (clampIx U hU (idx (ix2 n 0)))) := by
  unfold Host.gather
  congr 1
  funext a
  refine Fin.ext ?_
  match a with
  | ⟨0, h0⟩ =>
    -- the first axis is the offset axis: no start, the result's own first coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨0, h0⟩ : Fin 2) ∉ (dimsLU L U N wf).startIndexMap from
      (by decide : (0 : Fin 2) ∉ ([1] : List (Fin 2))))]
    unfold GatherDims.offCoord
    rw [dif_pos (show (⟨0, h0⟩ : Fin 2) ∈ (dimsLU L U N wf).sKept from
      (by decide : (0 : Fin 2) ∈ ([0] : List (Fin 2))))]
    rw [Nat.add_zero, Nat.zero_add]
    rfl
  | ⟨1, h1⟩ =>
    -- the second axis is collapsed and is the start index's one component
    show GatherDims.start _ _ _ _ + GatherDims.batchCoord _ _ _ + GatherDims.offCoord _ _ _ = _
    have hm : (⟨1, h1⟩ : Fin 2) ∈ (dimsLU L U N wf).startIndexMap :=
      (by decide : (1 : Fin 2) ∈ ([1] : List (Fin 2)))
    rw [GatherDims.batchCoord_eq_zero _ _ _ List.not_mem_nil,
      GatherDims.offCoord_eq_zero _ _ _ (show (⟨1, h1⟩ : Fin 2) ∉ (dimsLU L U N wf).sKept from
        (by decide : (1 : Fin 2) ∉ ([0] : List (Fin 2))))]
    unfold GatherDims.start
    rw [dif_pos hm]
    have hsi : (dimsLU L U N wf).siIdx (ix2 l n)
        ⟨List.idxOf (⟨1, h1⟩ : Fin 2) (dimsLU L U N wf).startIndexMap, List.idxOf_lt_length_iff.2 hm⟩
          = ix2 n 0 := by
      funext b; refine Fin.ext ?_
      match b with
      | ⟨0, _⟩ => rfl
      | ⟨1, _⟩ => rfl
    rw [hsi]
    rfl

end LU

section UL
variable {α : Type} {U L N : Nat}

/-- Dimension numbers of a gather that reads, for each of `N` indices `u`, row `u` of an operand `[U, L]`:
    the result is `[N, L]`. -/
abbrev dimsUL (U L N : Nat)
    (wf : GatherDims.WF ⟨2, ![U, L]⟩ ⟨2, ![N, 1]⟩ ⟨2, ![N, L]⟩ [1] [0] [] [0] [] 1 ![1, L]) :
    GatherDims ⟨2, ![U, L]⟩ ⟨2, ![N, 1]⟩ ⟨2, ![N, L]⟩ where
  offsetDims := [1]
  collapsedSliceDims := [0]
  operandBatchingDims := []
  startIndicesBatchingDims := []
  startIndexMap := [0]
  indexVectorDim := 1
  sliceSizes := ![1, L]
  wf := wf

/-- Result element `(n, l)` is the operand at `(u, l)`, where `u` is index word `n` read signed and clamped
    into the first axis. -/
theorem gather_UL_apply (hU : 0 < U)
    (wf : GatherDims.WF ⟨2, ![U, L]⟩ ⟨2, ![N, 1]⟩ ⟨2, ![N, L]⟩ [1] [0] [] [0] [] 1 ![1, L])
    (x : (⟨2, ![U, L]⟩ : Shape).Idx → α) (idx : IVec ⟨2, ![N, 1]⟩ 32) (n : Fin N) (l : Fin L) :
    Host.gather (dimsUL U L N wf) x idx (ix2 n l) = x (ix2 (clampIx U hU (idx (ix2 n 0))) l) := by
  unfold Host.gather
  congr 1
  funext a
  refine Fin.ext ?_
  match a with
  | ⟨0, h0⟩ =>
    -- the first axis is collapsed and is the start index's one component
    show GatherDims.start _ _ _ _ + GatherDims.batchCoord _ _ _ + GatherDims.offCoord _ _ _ = _
    have hm : (⟨0, h0⟩ : Fin 2) ∈ (dimsUL U L N wf).startIndexMap :=
      (by decide : (0 : Fin 2) ∈ ([0] : List (Fin 2)))
    rw [GatherDims.batchCoord_eq_zero _ _ _ List.not_mem_nil,
      GatherDims.offCoord_eq_zero _ _ _ (show (⟨0, h0⟩ : Fin 2) ∉ (dimsUL U L N wf).sKept from
        (by decide : (0 : Fin 2) ∉ ([1] : List (Fin 2))))]
    unfold GatherDims.start
    rw [dif_pos hm]
    have hsi : (dimsUL U L N wf).siIdx (ix2 n l)
        ⟨List.idxOf (⟨0, h0⟩ : Fin 2) (dimsUL U L N wf).startIndexMap, List.idxOf_lt_length_iff.2 hm⟩
          = ix2 n 0 := by
      funext b; refine Fin.ext ?_
      match b with
      | ⟨0, _⟩ => rfl
      | ⟨1, _⟩ => rfl
    rw [hsi]
    rfl
  | ⟨1, h1⟩ =>
    -- the second axis is the offset axis: no start, the result's own second coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨1, h1⟩ : Fin 2) ∉ (dimsUL U L N wf).startIndexMap from
      (by decide : (1 : Fin 2) ∉ ([0] : List (Fin 2))))]
    unfold GatherDims.offCoord
    rw [dif_pos (show (⟨1, h1⟩ : Fin 2) ∈ (dimsUL U L N wf).sKept from
      (by decide : (1 : Fin 2) ∈ ([1] : List (Fin 2))))]
    rw [Nat.add_zero, Nat.zero_add]
    rfl

end UL

section UVL
variable {α : Type} {U V L N : Nat}

/-- Dimension numbers of a gather that reads, for each of `N` index pairs `(u, v)`, the whole last axis of an
    operand `[U, V, L]` at `(u, v, ·)`: the result is `[N, L]`. -/
abbrev dimsUVL (U V L N : Nat)
    (wf : GatherDims.WF ⟨3, ![U, V, L]⟩ ⟨2, ![N, 2]⟩ ⟨2, ![N, L]⟩ [1] [0, 1] [] [0, 1] [] 1 ![1, 1, L]) :
    GatherDims ⟨3, ![U, V, L]⟩ ⟨2, ![N, 2]⟩ ⟨2, ![N, L]⟩ where
  offsetDims := [1]
  collapsedSliceDims := [0, 1]
  operandBatchingDims := []
  startIndicesBatchingDims := []
  startIndexMap := [0, 1]
  indexVectorDim := 1
  sliceSizes := ![1, 1, L]
  wf := wf

/-- Result element `(n, l)` is the operand at `(u, v, l)`, where `u` and `v` are the two words of index pair
    `n`, each read signed and clamped into its axis. -/
theorem gather_UVL_apply (hU : 0 < U) (hV : 0 < V)
    (wf : GatherDims.WF ⟨3, ![U, V, L]⟩ ⟨2, ![N, 2]⟩ ⟨2, ![N, L]⟩ [1] [0, 1] [] [0, 1] [] 1 ![1, 1, L])
    (x : (⟨3, ![U, V, L]⟩ : Shape).Idx → α) (idx : IVec ⟨2, ![N, 2]⟩ 32) (n : Fin N) (l : Fin L) :
    Host.gather (dimsUVL U V L N wf) x idx (ix2 n l)
      = x (ix3 (clampIx U hU (idx (ix2 n 0))) (clampIx V hV (idx (ix2 n 1))) l) := by
  unfold Host.gather
  congr 1
  funext a
  refine Fin.ext ?_
  match a with
  | ⟨0, h0⟩ =>
    -- the first axis is collapsed and is the start index's first component
    show GatherDims.start _ _ _ _ + GatherDims.batchCoord _ _ _ + GatherDims.offCoord _ _ _ = _
    have hm : (⟨0, h0⟩ : Fin 3) ∈ (dimsUVL U V L N wf).startIndexMap :=
      (by decide : (0 : Fin 3) ∈ ([0, 1] : List (Fin 3)))
    rw [GatherDims.batchCoord_eq_zero _ _ _ List.not_mem_nil,
      GatherDims.offCoord_eq_zero _ _ _ (show (⟨0, h0⟩ : Fin 3) ∉ (dimsUVL U V L N wf).sKept from
        (by decide : (0 : Fin 3) ∉ ([2] : List (Fin 3))))]
    unfold GatherDims.start
    rw [dif_pos hm]
    have hsi : (dimsUVL U V L N wf).siIdx (ix2 n l)
        ⟨List.idxOf (⟨0, h0⟩ : Fin 3) (dimsUVL U V L N wf).startIndexMap, List.idxOf_lt_length_iff.2 hm⟩
          = ix2 n 0 := by
      funext b; refine Fin.ext ?_
      match b with
      | ⟨0, _⟩ => rfl
      | ⟨1, _⟩ => rfl
    rw [hsi]
    rfl
  | ⟨1, h1⟩ =>
    -- the second axis is collapsed and is the start index's second component
    show GatherDims.start _ _ _ _ + GatherDims.batchCoord _ _ _ + GatherDims.offCoord _ _ _ = _
    have hm : (⟨1, h1⟩ : Fin 3) ∈ (dimsUVL U V L N wf).startIndexMap :=
      (by decide : (1 : Fin 3) ∈ ([0, 1] : List (Fin 3)))
    rw [GatherDims.batchCoord_eq_zero _ _ _ List.not_mem_nil,
      GatherDims.offCoord_eq_zero _ _ _ (show (⟨1, h1⟩ : Fin 3) ∉ (dimsUVL U V L N wf).sKept from
        (by decide : (1 : Fin 3) ∉ ([2] : List (Fin 3))))]
    unfold GatherDims.start
    rw [dif_pos hm]
    have hsi : (dimsUVL U V L N wf).siIdx (ix2 n l)
        ⟨List.idxOf (⟨1, h1⟩ : Fin 3) (dimsUVL U V L N wf).startIndexMap, List.idxOf_lt_length_iff.2 hm⟩
          = ix2 n 1 := by
      funext b; refine Fin.ext ?_
      match b with
      | ⟨0, _⟩ => rfl
      | ⟨1, _⟩ => rfl
    rw [hsi]
    rfl
  | ⟨2, h2⟩ =>
    -- the third axis is the offset axis: no start, the result's own second coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨2, h2⟩ : Fin 3) ∉ (dimsUVL U V L N wf).startIndexMap from
      (by decide : (2 : Fin 3) ∉ ([0, 1] : List (Fin 3))))]
    unfold GatherDims.offCoord
    rw [dif_pos (show (⟨2, h2⟩ : Fin 3) ∈ (dimsUVL U V L N wf).sKept from
      (by decide : (2 : Fin 3) ∈ ([2] : List (Fin 3))))]
    rw [Nat.add_zero, Nat.zero_add]
    rfl

end UVL

end Cert.Hand
-- ==== Proof.RefRead.lean ====
/-
  The reference program read at an index.

  The reference computes, from the feature matrix X (1,000,000 rows of 128 extended reals) and the label vector T:
  the class sums (a scatter-add of the rows of X at the labels), the class counts (a scatter-add of ones at the
  labels), the class centres (sums divided by max 1 count), for each row the centre of its label (a gather of the
  centres at the labels, after 64 has been added to a negative label), and the sum over all rows and features of the
  squared difference between the row and that centre. This file says what each of those arrays is at an index, in
  terms of the one-hot weights, and that the program's result is the shared loss function of those arrays.
-/
import proofs.«404953_j32289564131920_3_alg».proof.Proof.Gen.ReferenceIdeal.Read
import proofs.«404953_j32289564131920_3_alg».proof.Proof.Spec
import proofs.«404953_j32289564131920_3_alg».proof.Proof.LibScatterRows
import proofs.«404953_j32289564131920_3_alg».proof.Proof.LibScatterVec
import proofs.«404953_j32289564131920_3_alg».proof.Proof.LibGatherAt
import proofs.«404953_j32289564131920_3_alg».proof.Proof.LossShape
import Mathlib.Tactic.NormNum

noncomputable section

open scoped BigOperators

namespace Cert.Centroid.Ref

open Idealize.ShloMosaic Idealize.ShloMosaic.ValueIdx Cert.ReferenceIdeal Cert.ReferenceIdeal.Gen Cert.ReferenceIdeal.Read

/-! ## Words and constants -/

/-- The word 0x3F800000 is the float 1. -/
theorem ofBits_one_f32 : Ideal.ofBits .f32 0x3F800000#32 = 1 := by
  simp [Ideal.ofBits, Ideal.ieee]
  rw [← EReal.coe_mul]
  norm_num

/-- A class number below 64, written as a 32-bit word and read back signed, is itself. -/
theorem toInt_ofNat_lt64 : ∀ k : Fin 64, (BitVec.ofNat 32 k.val).toInt = (k.val : Int) := by decide

/-- A word reads signed as the class number `k` exactly when it is the word `k`. -/
theorem word_eq_iff (w : BitVec 32) (k : Fin 64) : w.toInt = (k.val : Int) ↔ w = BitVec.ofNat 32 k.val := by
  constructor
  · intro h
    apply BitVec.eq_of_toInt_eq
    rw [h, toInt_ofNat_lt64]
  · intro h
    rw [h, toInt_ofNat_lt64]

/-- A word whose signed value lies in [0, 64) has that value as its unsigned value too. -/
theorem toNat_of_range (w : BitVec 32) (h0 : 0 ≤ w.toInt) (h1 : w.toInt < 64) :
    w.toInt.toNat = w.toNat ∧ w.toNat < 64 := by
  have := BitVec.toInt_eq_toNat_cond w
  have := w.isLt
  constructor <;> omega

/-- The label column [R, 1] that the scatters and the gather index with, read at row `r`, is the label vector at `r`. -/
theorem idx_col (r : Fin 1000000) : idx_main_v1 (ix2 r (0 : Fin 1)) = ix1 r :=
  funext fun a => match a with | ⟨0, _⟩ => rfl
/-- The same for the counts' copy of the label column. -/
theorem idx_col5 (r : Fin 1000000) : idx_main_v5 (ix2 r (0 : Fin 1)) = ix1 r :=
  funext fun a => match a with | ⟨0, _⟩ => rfl
/-- The same for the gather's copy of the label column. -/
theorem idx_col16 (r : Fin 1000000) : idx_main_v16 (ix2 r (0 : Fin 1)) = ix1 r :=
  funext fun a => match a with | ⟨0, _⟩ => rfl

/-! ## The class sums and counts -/

/-- The one-hot weight times a value, as a choice on the label word read signed. -/
theorem oh_mul (T : IVec ST 32) (i : Fin 1000000) (k : Fin 64) (x : EReal) :
    oh T i k * x = if (T (ix1 i)).toInt = (k.val : Int) then x else 0 := by
  unfold oh
  by_cases h : (T (ix1 i)).toInt = (k.val : Int)
  · rw [if_pos h, if_pos ((word_eq_iff _ k).1 h), one_mul]
  · rw [if_neg h, if_neg (fun h' => h ((word_eq_iff _ k).2 h')), zero_mul]

/-- The one-hot weight, as a choice on the label word read signed. -/
theorem oh_eq (T : IVec ST 32) (i : Fin 1000000) (k : Fin 64) :
    oh T i k = if (T (ix1 i)).toInt = (k.val : Int) then 1 else 0 := by
  have := oh_mul T i k 1
  rwa [mul_one] at this

/-- The reference's row scatter-add, over any operands, read at (k, d): the operand there plus column d of the
    updates summed over the rows whose index word, read signed, is k. -/
theorem scatterRows_at (x : FVec Ideal S64x128 .f32) (idx : IVec S1000000x1 32) (upd : FVec Ideal S1000000x128 .f32)
    (k : Fin 64) (d : Fin 128) :
    Host.scatterAdd (F := Ideal) scatter_S64x128_S1000000x1_S1000000x128_1_0_0_1 x idx upd (ix2 k d)
      = x (ix2 k d) + ∑ r ∈ Finset.univ.filter (fun r : Fin 1000000 => (idx (ix2 r (0 : Fin 1))).toInt = (k.val : Int)),
          upd (ix2 r d) := by
  simp only [Host.scatterAdd, Ideal.hostScatterAdd_def]
  exact Cert.LibScatterRows.hostScatterAdd_rows_apply _ x idx upd k d

/-- The reference's vector scatter-add, over any operands, read at k: the operand there plus the updates summed over
    the rows whose index word, read signed, is k. -/
theorem scatterVec_at (x : FVec Ideal S64 .f32) (idx : IVec S1000000x1 32) (upd : FVec Ideal S1000000 .f32)
    (k : Fin 64) :
    Host.scatterAdd (F := Ideal) scatter_S64_S1000000x1_S1000000_n_0_0_1 x idx upd (ix1 k)
      = x (ix1 k) + ∑ r ∈ Finset.univ.filter (fun r : Fin 1000000 => (idx (ix2 r (0 : Fin 1))).toInt = (k.val : Int)),
          upd (ix1 r) := by
  simp only [Host.scatterAdd, Ideal.hostScatterAdd_def]
  exact Cert.LibScatterVec.hostScatterAdd_vec_apply _ x idx upd k

/-- The reference's class sums: entry (k, d) is the sum over the rows of the one-hot weight for class k times
    feature d of the row. -/
theorem sums_at (X : FVec Ideal SX .f32) (T : IVec ST 32) (k : Fin 64) (d : Fin 128) :
    val_main_v2 (F := Ideal) X T (ix2 k d) = classSum X T k d := by
  unfold val_main_v2
  rw [scatterRows_at, val_main_v0_apply, val_main_cst_apply, Ideal.ofBits_def, Ideal.ofBits_zero_f32, zero_add,
    Finset.sum_filter]
  unfold classSum
  refine Finset.sum_congr rfl fun r _ => ?_
  rw [val_main_v1_apply, idx_col, oh_mul]

/-- The reference's class counts: entry k is the sum over the rows of the one-hot weight for class k. -/
theorem counts_at (T : IVec ST 32) (k : Fin 64) :
    val_main_v6 (F := Ideal) T (ix1 k) = classCount T k := by
  unfold val_main_v6
  rw [scatterVec_at, val_main_v4_apply, val_main_cst_1_apply, Ideal.ofBits_def, Ideal.ofBits_zero_f32, zero_add,
    Finset.sum_filter]
  unfold classCount
  refine Finset.sum_congr rfl fun r _ => ?_
  rw [val_main_v5_apply, idx_col5, val_main_v3_apply, val_main_cst_0_apply, Ideal.ofBits_def, ofBits_one_f32, oh_eq]

/-! ## The centre of a row's label -/

/-- The reference's gather, over any operands, read at (i, d): row u of the operand, where u is index word i read
    signed and clamped into [0, 63]. -/
theorem gatherRows_at (x : FVec Ideal S64x128 .f32) (idx : IVec S1000000x1 32) (i : Fin 1000000) (d : Fin 128) :
    Host.gather gather_S64x128_S1000000x1_S1000000x128_1_0_n_n_0_1_1128 x idx (ix2 i d)
      = x (ix2 (Cert.Hand.clampIx 64 (by decide) (idx (ix2 i (0 : Fin 1)))) d) :=
  Cert.Hand.gather_UL_apply (by decide) _ x idx i d

/-- With the label of row i in [0, 64), the index word the gather reads for row i — the label, with 64 added
    where it is negative — is the label itself. -/
theorem gather_word (T : IVec ST 32) (i : Fin 1000000) (h0 : 0 ≤ (T (ix1 i)).toInt) :
    val_main_v16 (F := Ideal) T (ix2 i (0 : Fin 1)) = T (ix1 i) := by
  rw [val_main_v16_apply, idx_col16, val_main_v15_apply, val_main_v12_apply, val_main_v11_apply, val_main_c_apply]
  unfold IntOp.cmpi Scalar.select
  simp only [Cert.Hand.slt_zero_of_nonneg _ h0]
  rfl

/-- With every label in [0, 64), row i of the gathered array is the centre of row i's label. -/
theorem gather_at (X : FVec Ideal SX .f32) (T : IVec ST 32)
    (hT : ∀ i : Fin 1000000, 0 ≤ (T (ix1 i)).toInt ∧ (T (ix1 i)).toInt < 64) (i : Fin 1000000) (d : Fin 128) :
    val_main_v17 (F := Ideal) X T (ix2 i d)
      = val_main_v10 (F := Ideal) X T (ix2 (⟨(T (ix1 i)).toNat, (toNat_of_range _ (hT i).1 (hT i).2).2⟩ : Fin 64) d) := by
  unfold val_main_v17
  rw [gatherRows_at, gather_word T i (hT i).1]
  congr 2
  refine Fin.ext ?_
  show (Cert.Hand.clampIx 64 _ (T (ix1 i))).val = (T (ix1 i)).toNat
  rw [Cert.Hand.clampIx_val_of_mem 64 _ _ (hT i).1 (by exact_mod_cast (hT i).2)]
  exact (toNat_of_range _ (hT i).1 (hT i).2).1

/-! ## The intra-class sum and the centres -/

/-- The reference's intra-class sum: over all rows and features, the squared difference between the row and the
    gathered centre. -/
theorem intra_at (X : FVec Ideal SX .f32) (T : IVec ST 32) :
    val_main_v20 (F := Ideal) X T ix0
      = ∑ i : Fin 1000000, ∑ d : Fin 128,
          (X (ix2 i d) - val_main_v17 (F := Ideal) X T (ix2 i d)) * (X (ix2 i d) - val_main_v17 (F := Ideal) X T (ix2 i d)) := by
  rw [val_main_v20_apply, val_main_cst_4_apply, Ideal.ofBits_def, Ideal.ofBits_zero_f32, zero_add, sum_idx2]
  refine Finset.sum_congr rfl fun i _ => Finset.sum_congr rfl fun d _ => ?_
  rw [val_main_v19_apply, val_main_v18_apply, Ideal.mulf_def, Ideal.subf_def]

/-- The reference's centres: entry (k, d) is the class sum divided by the larger of 1 and the class count. -/
theorem centres_at (X : FVec Ideal SX .f32) (T : IVec ST 32) (k : Fin 64) (d : Fin 128) :
    val_main_v10 (F := Ideal) X T (ix2 k d)
      = Ideal.div (val_main_v2 (F := Ideal) X T (ix2 k d)) (max 1 (val_main_v6 (F := Ideal) T (ix1 k))) := by
  have e9 : idx_main_v9 (ix2 k d) = ix2 k (0 : Fin 1) :=
    funext fun a => Fin.ext (by match a with | ⟨0, _⟩ => rfl | ⟨1, _⟩ => rfl)
  have e8 : idx_main_v8 (ix2 k (0 : Fin 1)) = ix1 k :=
    funext fun a => match a with | ⟨0, _⟩ => rfl
  rw [val_main_v10_apply, val_main_v9_apply, e9, val_main_v8_apply, e8, val_main_v7_apply, val_main_call0_v1_apply,
    val_main_call0_v0_apply, val_main_cst_2_apply, Ideal.ofBits_def, ofBits_one_f32, Ideal.hostDivf_def,
    Ideal.maximumf_def]

/-! ## The result is the shared loss of the sums, the counts and the intra-class sum -/

section Shape
variable {F : FTy → Type} [FloatOps F]

/-- The reference's centres are the shared centres function of its class sums and class counts: the same
    operations on both sides. -/
theorem centres_shape (X : FVec F SX .f32) (T : IVec ST 32) :
    val_main_v10 (F := F) X T = centresOf (val_main_v2 (F := F) X T) (val_main_v6 (F := F) T) := rfl

/-- The reference's pairwise hinge term is the shared one of its centres. -/
theorem inter_shape (X : FVec F SX .f32) (T : IVec ST 32) :
    val_main_v43 (F := F) X T = interLoss (val_main_v10 (F := F) X T) := rfl

/-- The reference's result is the shared total of its intra-class sum and its centres. -/
theorem result_shape (X : FVec F SX .f32) (T : IVec ST 32) :
    val_main_v46 (F := F) X T
      = totalLoss (val_main_v20 (F := F) X T) (centresOf (val_main_v2 (F := F) X T) (val_main_v6 (F := F) T)) := by
  rw [← centres_shape]
  show addf (mulf (val_main_cst_16 (F := F)) (Host.divf (val_main_v20 (F := F) X T) (val_main_cst_5 (F := F))))
      (mulf (val_main_cst_17 (F := F)) (val_main_v43 (F := F) X T)) = _
  rw [inter_shape]
  rfl

end Shape

end Cert.Centroid.Ref

end
-- ==== Proof.PreDecode.lean ====
/-
  The precondition read back. The printed predicate says: every feature's absolute value is below +∞, and every label,
  read signed, is at least 0 and below 64; the two statements are each an "all" over their array, joined by "and". Here the
  predicate's being 1 is turned into the three plain facts the value proof uses: every feature is a real number, every
  label's unsigned value is below 64, and every label's signed value lies in [0, 64).
-/
import proofs.«404953_j32289564131920_3_alg».proof.Pre_finite_inputs
import proofs.«404953_j32289564131920_3_alg».proof.Proof.Gen.Pre_finite_inputs
import proofs.«404953_j32289564131920_3_alg».proof.Proof.Spec
import Idealize.ShloMosaic.Lib.ReduceAll
import Idealize.ShloMosaic.Lib.StableHlo.Predicate
import Idealize.ShloMosaic.Lib.ValueIdx

noncomputable section

namespace Cert.Centroid

open Idealize.ShloMosaic Idealize.ShloMosaic.ValueIdx

/-- The rank-0 shape has one index. -/
instance subsingleton_scalar_idx : Subsingleton Cert.Pre_finite_inputs.S_.Idx := ⟨fun a b => funext fun d => d.elim0⟩

/-- The pattern 0x7F800000 denotes +∞. -/
theorem ofBits_posInf : Ideal.ofBits .f32 0x7F800000#32 = (⊤ : EReal) := by simp [Ideal.ofBits, Ideal.ieee]

/-- An extended real whose absolute value max(x, −x) is below +∞ is a real number. -/
theorem real_of_abs_lt_top (x : EReal) (hx : max x (-x) < (⊤ : EReal)) : ∃ r : ℝ, x = ((r : ℝ) : EReal) := by
  induction x using EReal.rec with
  | bot => exact absurd hx (by simp)
  | top => exact absurd hx (by simp)
  | coe r => exact ⟨r, rfl⟩

/-- A 32-bit word whose signed value is at least that of 0 and below that of 64, as the two signed comparisons say it. -/
theorem toInt_range_of_cmpi (w : BitVec 32) (h0 : IntOp.cmpi .sge w 0#32 = 1#1) (h1 : IntOp.cmpi .slt w 64#32 = 1#1) :
    0 ≤ w.toInt ∧ w.toInt < 64 := by
  unfold IntOp.cmpi at h0 h1
  rw [StableHlo.Predicate.ofBool_eq_one_iff] at h0 h1
  simp only [BitVec.slt, BitVec.sle, decide_eq_true_eq] at h0 h1
  have z : (0#32 : BitVec 32).toInt = 0 := by decide
  have s : (64#32 : BitVec 32).toInt = 64 := by decide
  rw [z] at h0
  rw [s] at h1
  exact ⟨h0, h1⟩

/-- A word whose signed value lies in [0, 64) has unsigned value below 64. -/
theorem toNat_lt_of_toInt_range (w : BitVec 32) (h : 0 ≤ w.toInt ∧ w.toInt < 64) : w.toNat < 64 := by
  obtain ⟨h0, h1⟩ := h
  have h32 := w.isLt
  unfold BitVec.toInt at h0 h1
  split at h1 <;> omega

/-- The predicate at its one index, split into its two element facts: at any feature index the compare of |X j| with +∞
    is 1, and at any row the conjunction of the two label compares is 1. -/
theorem pre_elements (X : FVec Ideal SX .f32) (T : IVec ST 32)
    (h : Cert.Pre_finite_inputs.fn (F := Ideal) X T = fun _ => 1#1) :
    (∀ j : SX.Idx, Ideal.cmp .olt (max (X j) (-(X j))) (Ideal.ofBits .f32 0x7F800000#32) = 1#1) ∧
    (∀ i : Fin 1000000, IntOp.cmpi .sge (T (ix1 i)) 0#32 = 1#1 ∧ IntOp.cmpi .slt (T (ix1 i)) 64#32 = 1#1) := by
  have e := congrFun h ValueIdx.ix0
  dsimp only [Cert.Pre_finite_inputs.fn] at e
  obtain ⟨e1, e2⟩ := IntOp.andi_eq_one.1 e
  refine ⟨fun j => ?_, fun i => ?_⟩
  · exact Host.reduce_andi_all _ _ _ _ _ e1 j
  · exact IntOp.andi_eq_one.1 (Host.reduce_andi_all _ _ _ _ _ e2 (ix1 i))

/-- Under the precondition every feature is a real number. -/
theorem finite_of_pre (X : FVec Ideal SX .f32) (T : IVec ST 32)
    (h : Cert.Pre_finite_inputs.fn (F := Ideal) X T = fun _ => 1#1) :
    ∀ j : SX.Idx, ∃ x : ℝ, X j = ((x : ℝ) : EReal) := by
  intro j
  have hx := (pre_elements X T h).1 j
  rw [ofBits_posInf] at hx
  unfold Ideal.cmp at hx
  rw [StableHlo.Predicate.ofBool_eq_one_iff] at hx
  exact real_of_abs_lt_top (X j) (of_decide_eq_true hx)

/-- Under the precondition every label's signed value lies in [0, 64). -/
theorem label_toInt_of_pre (X : FVec Ideal SX .f32) (T : IVec ST 32)
    (h : Cert.Pre_finite_inputs.fn (F := Ideal) X T = fun _ => 1#1) :
    ∀ i : Fin 1000000, 0 ≤ (T (ix1 i)).toInt ∧ (T (ix1 i)).toInt < 64 := fun i =>
  toInt_range_of_cmpi _ ((pre_elements X T h).2 i).1 ((pre_elements X T h).2 i).2

/-- Under the precondition every label's unsigned value is below 64. -/
theorem label_lt_of_pre (X : FVec Ideal SX .f32) (T : IVec ST 32)
    (h : Cert.Pre_finite_inputs.fn (F := Ideal) X T = fun _ => 1#1) :
    ∀ i : Fin 1000000, (T (ix1 i)).toNat < 64 := fun i =>
  toNat_lt_of_toInt_range _ (label_toInt_of_pre X T h i)

end Cert.Centroid

end
-- ==== Proof.Bridge.lean ====
/-
  The two programs' results are one function of the arguments. The kernel side is the host operations' composed function
  of the per-core sums; the reference side is its own chain. Both have the shape "1·(S/1000000) + 1·(pairwise hinge of the
  centres)" with the same centres — the class sums and class counts are the same finite sums, the kernel's taken core by
  core and block by block —, so it remains that the two forms of the within-class scatter S agree:
      Σ_i Σ_d x_{i,d}² − Σ_k n_k Σ_d μ_{k,d}²  =  Σ_i Σ_d (x_{i,d} − μ_{t_i,d})²,
  the law of Variance.lean, read at the real numbers the finite features are and the classes the in-range labels name.
-/
import proofs.«404953_j32289564131920_3_alg».proof.Proof.Spec
import proofs.«404953_j32289564131920_3_alg».proof.Proof.Variance
import proofs.«404953_j32289564131920_3_alg».proof.Proof.Regroup
import proofs.«404953_j32289564131920_3_alg».proof.Proof.KernelIntra
import proofs.«404953_j32289564131920_3_alg».proof.Proof.RefRead
import proofs.«404953_j32289564131920_3_alg».proof.Proof.PreDecode

set_option maxRecDepth 16384

noncomputable section

open scoped BigOperators

namespace Cert.Centroid

open Idealize.ShloMosaic Idealize.ShloMosaic.ValueIdx
open Cert.KernelIdeal.Hand (kernelTail sumsOf countsOf sqOf intraOf sumsOf_apply countsOf_apply sqOf_apply intraOf_apply)
open Cert.ReferenceIdeal.Read (val_main_v2 val_main_v6 val_main_v10 val_main_v17 val_main_v20 val_main_v46)

variable (X : FVec Ideal SX .f32) (T : IVec ST 32)

/-- The class a row's label names, for labels below 64. -/
def lbl (hlab : ∀ i : Fin 1000000, (T (ix1 i)).toNat < 64) (i : Fin 1000000) : Fin 64 := ⟨(T (ix1 i)).toNat, hlab i⟩

/-- A row's label is the word `k` exactly when the class it names is `k`. -/
theorem label_eq_iff (hlab : ∀ i : Fin 1000000, (T (ix1 i)).toNat < 64) (i : Fin 1000000) (k : Fin 64) :
    T (ix1 i) = BitVec.ofNat 32 k.val ↔ lbl T hlab i = k := by
  unfold lbl
  constructor
  · intro h
    apply Fin.ext
    show (T (ix1 i)).toNat = k.val
    rw [h, BitVec.toNat_ofNat]
    have := k.isLt
    omega
  · intro h
    have hv : (T (ix1 i)).toNat = k.val := congrArg Fin.val h
    rw [← hv, BitVec.ofNat_toNat, BitVec.setWidth_eq]

/-- The one-hot weight is the indicator of the row's class. -/
theorem oh_eq (hlab : ∀ i : Fin 1000000, (T (ix1 i)).toNat < 64) (i : Fin 1000000) (k : Fin 64) :
    oh T i k = if lbl T hlab i = k then (1 : EReal) else 0 := by
  unfold oh
  by_cases h : lbl T hlab i = k
  · rw [if_pos h, if_pos ((label_eq_iff T hlab i k).mpr h)]
  · rw [if_neg h, if_neg (fun h' => h ((label_eq_iff T hlab i k).mp h'))]

/-- The finite features as real numbers, by row and column. -/
def xr (x : SX.Idx → ℝ) (i : Fin 1000000) (d : Fin 128) : ℝ := x (ix2 i d)

/-- A class's count is the number of rows whose class it is. -/
theorem classCount_eq (hlab : ∀ i : Fin 1000000, (T (ix1 i)).toNat < 64) (k : Fin 64) : classCount T k = cnt (lbl T hlab) k := by
  unfold classCount cnt
  exact Finset.sum_congr rfl fun i _ => oh_eq T hlab i k

/-- A class's sum of a feature is the sum over the rows whose class it is. -/
theorem classSum_eq (hlab : ∀ i : Fin 1000000, (T (ix1 i)).toNat < 64) (x : SX.Idx → ℝ) (hx : ∀ j, X j = ((x j : ℝ) : EReal))
    (k : Fin 64) (d : Fin 128) : classSum X T k d = tot (xr x) (lbl T hlab) k d := by
  unfold classSum tot xr
  exact Finset.sum_congr rfl fun i _ => by rw [oh_eq T hlab i k, hx]

/-- The sum of all squares, over the real features. -/
theorem sqSum_eq (x : SX.Idx → ℝ) (hx : ∀ j, X j = ((x j : ℝ) : EReal)) :
    sqSum X = ∑ i : Fin 1000000, ∑ d : Fin 128, ((xr x i d : ℝ) : EReal) * ((xr x i d : ℝ) : EReal) := by
  unfold sqSum xr
  exact Finset.sum_congr rfl fun i _ => Finset.sum_congr rfl fun d _ => by rw [hx]

/-- The reference's centre of class `k` is the class's sum over its count, at least 1. -/
theorem centre_eq (hlab : ∀ i : Fin 1000000, (T (ix1 i)).toNat < 64) (x : SX.Idx → ℝ) (hx : ∀ j, X j = ((x j : ℝ) : EReal))
    (k : Fin 64) (d : Fin 128) :
    val_main_v10 (F := Ideal) X T (ix2 k d) = ctr (xr x) (lbl T hlab) k d := by
  rw [Ref.centres_at, Ref.sums_at, Ref.counts_at, classSum_eq X T hlab x hx, classCount_eq T hlab]
  rfl

/-- The two forms of the within-class scatter: the kernel side's, over the reference's counts and centres, is the
    reference's. -/
theorem intra_eq (hfin : ∀ j : SX.Idx, ∃ x : ℝ, X j = ((x : ℝ) : EReal))
    (hT : ∀ i : Fin 1000000, 0 ≤ (T (ix1 i)).toInt ∧ (T (ix1 i)).toInt < 64) :
    intraOf (F := Ideal) (sqOf (F := Ideal) (coreSqs X)) (val_main_v6 (F := Ideal) T) (val_main_v10 (F := Ideal) X T)
      = val_main_v20 (F := Ideal) X T := by
  have hlab : ∀ i : Fin 1000000, (T (ix1 i)).toNat < 64 := fun i => toNat_lt_of_toInt_range _ (hT i)
  choose x hx using hfin
  funext j
  obtain rfl : j = ix0 := eq_ix0 j
  refine (intraOf_apply _ _ _ _).trans ?_
  rw [sqOf_apply, coreSqs_total, Ref.intra_at, sqSum_eq X x hx]
  simp only [Ref.counts_at, centre_eq X T hlab x hx, classCount_eq T hlab, Ref.gather_at X T hT, hx]
  exact scatter_split (xr x) (lbl T hlab)

/-- THE BRIDGE: for finite features and labels in [0, 64) the kernel side's function of the per-core sums is the
    reference's result. -/
theorem bridge (hfin : ∀ j : SX.Idx, ∃ x : ℝ, X j = ((x : ℝ) : EReal))
    (hT : ∀ i : Fin 1000000, 0 ≤ (T (ix1 i)).toInt ∧ (T (ix1 i)).toInt < 64) :
    kernelTail (F := Ideal) (coreSums X T) (coreCounts T) (coreSqs X) = val_main_v46 (F := Ideal) X T := by
  have hS : sumsOf (F := Ideal) (coreSums X T) = val_main_v2 (F := Ideal) X T := by
    funext j
    obtain ⟨k, d, rfl⟩ : ∃ (k : Fin 64) (d : Fin 128), j = ix2 k d := ⟨j 0, j 1, eq_ix2 j⟩
    exact (sumsOf_apply _ k d).trans ((coreSums_total X T k d).trans (Ref.sums_at X T k d).symm)
  have hC : countsOf (F := Ideal) (coreCounts T) = val_main_v6 (F := Ideal) T := by
    funext j
    obtain ⟨k, rfl⟩ : ∃ (k : Fin 64), j = ix1 k := ⟨j 0, eq_ix1 j⟩
    exact (countsOf_apply _ k).trans ((coreCounts_total T k).trans (Ref.counts_at T k).symm)
  have hctr : centresOf (sumsOf (F := Ideal) (coreSums X T)) (countsOf (F := Ideal) (coreCounts T))
      = centresOf (val_main_v2 (F := Ideal) X T) (val_main_v6 (F := Ideal) T) :=
    congr (congrArg centresOf hS) hC
  have hI : intraOf (F := Ideal) (sqOf (F := Ideal) (coreSqs X)) (countsOf (F := Ideal) (coreCounts T))
        (centresOf (sumsOf (F := Ideal) (coreSums X T)) (countsOf (F := Ideal) (coreCounts T)))
      = val_main_v20 (F := Ideal) X T :=
    (congr (congrArg (intraOf (F := Ideal) (sqOf (F := Ideal) (coreSqs X))) hC)
      (hctr.trans (Ref.centres_shape (F := Ideal) X T).symm)).trans (intra_eq X T hfin hT)
  exact (congr (congrArg totalLoss hI) hctr).trans (Ref.result_shape (F := Ideal) X T).symm

end Cert.Centroid

end
-- ==== Proof.lean ====
/-
  The certificate of the centroid-separation loss. The kernel makes one pass over the 1,000,000 × 128 feature matrix,
  two cores taking 25 blocks of 20,000 rows each, and accumulates per core the class sums (a one-hot matrix transposed
  times the features), the class counts and the sum of all squares; the host adds the two cores' partial results, forms
  the class centres and obtains the within-class scatter WITHOUT a second pass, as Σ‖f‖² − Σ_k n_k‖μ_k‖². The reference
  computes the centres by segment sums and the scatter directly as Σ_i ‖f_i − μ_{t_i}‖². Both then add the same pairwise
  hinge term of the centres. Over the extended reals, for finite features and labels in [0, 64), the two programs agree:
  the class sums and counts are the same finite sums regrouped, and the two forms of the scatter are equal by expanding
  the square class by class (an empty class has centre 0). The three frames: each program terminates without fault and
  leaves its arguments unchanged — the kernel's from the run of its body at a resetting and at an accumulating grid point,
  the reference's from its run read back. The one rewrite of the idealization (a format round trip dropped) is its rule's
  statement.
-/
import proofs.«404953_j32289564131920_3_alg».proof.Defs
import proofs.«404953_j32289564131920_3_alg».proof.Proof.Gen.Kernel
import proofs.«404953_j32289564131920_3_alg».proof.Proof.Gen.Kernel.Skeleton
import proofs.«404953_j32289564131920_3_alg».proof.Proof.Gen.Kernel.Launch
import proofs.«404953_j32289564131920_3_alg».proof.Proof.Gen.Kernel.Points
import proofs.«404953_j32289564131920_3_alg».proof.Proof.Gen.KernelIdeal
import proofs.«404953_j32289564131920_3_alg».proof.Proof.Gen.KernelIdeal.Skeleton
import proofs.«404953_j32289564131920_3_alg».proof.Proof.Gen.KernelIdeal.Launch
import proofs.«404953_j32289564131920_3_alg».proof.Proof.Gen.KernelIdeal.Points
import proofs.«404953_j32289564131920_3_alg».proof.Proof.Gen.ReferenceIdeal
import proofs.«404953_j32289564131920_3_alg».proof.Proof.Gen.ReferenceIdeal.Run
import proofs.«404953_j32289564131920_3_alg».proof.Proof.Gen.ReferenceIdeal.Read
import proofs.«404953_j32289564131920_3_alg».proof.Proof.Gen.Pre_finite_inputs
import proofs.«404953_j32289564131920_3_alg».proof.Proof.Kernel.Frame
import proofs.«404953_j32289564131920_3_alg».proof.Proof.KernelIdeal.Frame
import proofs.«404953_j32289564131920_3_alg».proof.Proof.KernelIdeal.Value
import proofs.«404953_j32289564131920_3_alg».proof.Proof.Bridge
import proofs.«404953_j32289564131920_3_alg».proof.Proof.PreDecode
import Idealize.ShloMosaic.Adequacy
import Idealize.ShloMosaic.Init

noncomputable section

namespace Cert.Proof

open Idealize.ShloMosaic Idealize.SL.Sem

/-- The kernel as printed terminates without fault and leaves both arguments unchanged. -/
theorem frame_p : Cert.frame_Kernel := fun m ρ _ => Cert.Kernel.Hand.frame m ρ

/-- So does its idealization. -/
theorem frame_pi : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one ledger entry: widening a narrowed vector back is the identity at the ideal instance. -/
theorem preserves : Cert.preserves_Kernel_KernelIdeal :=
  IdealRules.truncf_extf.statement Cert.KernelIdeal.S20000x64 .f32 .bf16

/-- At the ideal instance, from memories agreeing on the arguments, both programs end with one result: the kernel's is the
    host operations' function of the per-core sums (the value run), the reference's its run's term, and for finite features
    and labels in [0, 64) — what the precondition says — the two are equal. -/
theorem algebraic : Cert.algebraic_KernelIdeal_ReferenceIdeal := by
  intro m ρ m' ρ' hpre hagree
  refine ⟨fun c => Cert.KernelIdeal.Hand.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, (hagree c).1, (hagree c).2]
  exact (Cert.Centroid.bridge _ _ (Cert.Centroid.finite_of_pre _ _ (hpre c)) (Cert.Centroid.label_toInt_of_pre _ _ (hpre c))).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
